-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x100 : Shape := ⟨2, ![1048576, 100]⟩
abbrev S1048576 : Shape := ⟨1, ![1048576]⟩
abbrev S_ : Shape := ⟨0, ![]⟩

class Facts : Prop where
  bcast_S_S1048576x100 : S_.BroadcastsInDim S1048576x100 (![] : Fin 0 → Fin S1048576x100.rank)
  reducesTo_S1048576x100_S_d0_1 : S1048576x100.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x100 .f32) (main_arg1 : IVec S1048576 32) : IVec S_ 1 :=
  let main_v0 : FVec F S1048576x100 .f32 := Host.absf main_arg0
  let main_cst : FVec F S_ .f32 := constant S_ .f32 0x7F800000#32
  let main_v1 : FVec F S1048576x100 .f32 := broadcastInDim S1048576x100 ![] bcast_S_S1048576x100 main_cst
  let main_v2 : IVec S1048576x100 1 := cmpf .olt main_v0 main_v1
  let main_c : IVec S_ 1 := constantI S_ 1 1#1
  let main_v3 : IVec S_ 1 := (fun x v => Host.reduce IntOp.andi x v reducesTo_S1048576x100_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg1 main_v4
  let main_c_1 : IVec S_ 1 := constantI S_ 1 1#1
  let main_v6 : IVec S_ 1 := (fun x v => Host.reduce IntOp.andi x v reducesTo_S1048576_S_d0 h_S_) main_v5 main_c_1
  let main_v7 : IVec S_ 1 := andi main_v3 main_v6
  let main_c_2 : IVec S_ 32 := constantI S_ 32 100#32
  let main_v8 : IVec S1048576 32 := broadcastInDim S1048576 ![] bcast_S_S1048576 main_c_2
  let main_v9 : IVec S1048576 1 := cmpi .slt main_arg1 main_v8
  let main_c_3 : IVec S_ 1 := constantI S_ 1 1#1
  let main_v10 : IVec S_ 1 := (fun x v => Host.reduce IntOp.andi x v reducesTo_S1048576_S_d0 h_S_) main_v9 main_c_3
  let main_v11 : IVec S_ 1 := andi main_v7 main_v10
  main_v11
-- ==== Kernel.lean ====
abbrev S1048576x100 : Shape := ⟨2, ![1048576, 100]⟩
abbrev S1048576 : Shape := ⟨1, ![1048576]⟩
abbrev S1048576x1 : Shape := ⟨2, ![1048576, 1]⟩
abbrev S2x4x100 : Shape := ⟨3, ![2, 4, 100]⟩
abbrev S8192x100 : Shape := ⟨2, ![8192, 100]⟩
abbrev S8192x1 : Shape := ⟨2, ![8192, 1]⟩
abbrev S1x4x100 : Shape := ⟨3, ![1, 4, 100]⟩
abbrev S8192 : Shape := ⟨1, ![8192]⟩
abbrev S8192x4 : Shape := ⟨2, ![8192, 4]⟩
abbrev S4x100 : Shape := ⟨2, ![4, 100]⟩
abbrev S_ : Shape := ⟨0, ![]⟩
abbrev S1x100 : Shape := ⟨2, ![1, 100]⟩
abbrev S100 : Shape := ⟨1, ![100]⟩
abbrev S1 : Shape := ⟨1, ![1]⟩

abbrev nBuf : Space → Nat
  | .hbm => 112
  | .vmem => 6
  | .smem => 0
  | _ => 0

abbrev bufTy : (tb : Table) → Fin (tcTables nBuf tb) → BufTy
  | .hbm, ⟨0, _⟩ => ⟨S1048576x100, .f32⟩
  | .hbm, ⟨1, _⟩ => ⟨S1048576, .i32⟩
  | .hbm, ⟨2, _⟩ => ⟨S1048576x1, .i32⟩
  | .hbm, ⟨3, _⟩ => ⟨S2x4x100, .f32⟩
  | .hbm, ⟨4, _⟩ => ⟨S_, .f32⟩
  | .hbm, ⟨5, _⟩ => ⟨S4x100, .f32⟩
  | .hbm, ⟨6, _⟩ => ⟨S1x100, .f32⟩
  | .hbm, ⟨7, _⟩ => ⟨S100, .f32⟩
  | .hbm, ⟨8, _⟩ => ⟨S1x100, .f32⟩
  | .hbm, ⟨9, _⟩ => ⟨S100, .f32⟩
  | .hbm, ⟨10, _⟩ => ⟨S1x100, .f32⟩
  | .hbm, ⟨11, _⟩ => ⟨S100, .f32⟩
  | .hbm, ⟨12, _⟩ => ⟨S1x100, .f32⟩
  | .hbm, ⟨13, _⟩ => ⟨S100, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S100, .f32⟩
  | .hbm, ⟨18, _⟩ => ⟨S100, .i1⟩
  | .hbm, ⟨19, _⟩ => ⟨S_, .f32⟩
  | .hbm, ⟨20, _⟩ => ⟨S100, .f32⟩
  | .hbm, ⟨21, _⟩ => ⟨S100, .i1⟩
  | .hbm, ⟨22, _⟩ => ⟨S_, .f32⟩
  | .hbm, ⟨23, _⟩ => ⟨S_, .f32⟩
  | .hbm, ⟨24, _⟩ => ⟨S100, .f32⟩
  | .hbm, ⟨25, _⟩ => ⟨S100, .f32⟩
  | .hbm, ⟨26, _⟩ => ⟨S100, .f32⟩
  | .hbm, ⟨27, _⟩ => ⟨S100, .f32⟩
  | .hbm, ⟨28, _⟩ => ⟨S100, .f32⟩
  | .hbm, ⟨29, _⟩ => ⟨S_, .f32⟩
  | .hbm, ⟨30, _⟩ => ⟨S100, .f32⟩
  | .hbm, ⟨31, _⟩ => ⟨S100, .f32⟩
  | .hbm, ⟨32, _⟩ => ⟨S_, .f32⟩
  | .hbm, ⟨33, _⟩ => ⟨S_, .f32⟩
  | .hbm, ⟨34, _⟩ => ⟨S100, .f32⟩
  | .hbm, ⟨35, _⟩ => ⟨S100, .f32⟩
  | .hbm, ⟨36, _⟩ => ⟨S_, .f32⟩
  | .hbm, ⟨37, _⟩ => ⟨S100, .f32⟩
  | .hbm, ⟨38, _⟩ => ⟨S100, .i1⟩
  | .hbm, ⟨39, _⟩ => ⟨S_, .f32⟩
  | .hbm, ⟨40, _⟩ => ⟨S100, .f32⟩
  | .hbm, ⟨41, _⟩ => ⟨S100, .f32⟩
  | .hbm, ⟨42, _⟩ => ⟨S100, .f32⟩
  | .hbm, ⟨43, _⟩ => ⟨S_, .f32⟩
  | .hbm, ⟨44, _⟩ => ⟨S_, .f32⟩
  | .hbm, ⟨45, _⟩ => ⟨S100, .f32⟩
  | .hbm, ⟨46, _⟩ => ⟨S100, .f32⟩
  | .hbm, ⟨47, _⟩ => ⟨S100, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S100, .f32⟩
  | .hbm, ⟨54, _⟩ => ⟨S100, .i1⟩
  | .hbm, ⟨55, _⟩ => ⟨S_, .f32⟩
  | .hbm, ⟨56, _⟩ => ⟨S100, .f32⟩
  | .hbm, ⟨57, _⟩ => ⟨S100, .f32⟩
  | .hbm, ⟨58, _⟩ => ⟨S100, .f32⟩
  | .hbm, ⟨59, _⟩ => ⟨S_, .f32⟩
  | .hbm, ⟨60, _⟩ => ⟨S_, .f32⟩
  | .hbm, ⟨61, _⟩ => ⟨S100, .f32⟩
  | .hbm, ⟨62, _⟩ => ⟨S100, .f32⟩
  | .hbm, ⟨63, _⟩ => ⟨S100, .f32⟩
  | .hbm, ⟨64, _⟩ => ⟨S100, .f32⟩
  | .hbm, ⟨65, _⟩ => ⟨S100, .f32⟩
  | .hbm, ⟨66, _⟩ => ⟨S_, .f32⟩
  | .hbm, ⟨67, _⟩ => ⟨S100, .f32⟩
  | .hbm, ⟨68, _⟩ => ⟨S100, .f32⟩
  | .hbm, ⟨69, _⟩ => ⟨S_, .f32⟩
  | .hbm, ⟨70, _⟩ => ⟨S100, .f32⟩
  | .hbm, ⟨71, _⟩ => ⟨S100, .f32⟩
  | .hbm, ⟨72, _⟩ => ⟨S100, .f32⟩
  | .hbm, ⟨73, _⟩ => ⟨S_, .f32⟩
  | .hbm, ⟨74, _⟩ => ⟨S100, .f32⟩
  | .hbm, ⟨75, _⟩ => ⟨S100, .i1⟩
  | .hbm, ⟨76, _⟩ => ⟨S_, .f32⟩
  | .hbm, ⟨77, _⟩ => ⟨S_, .f32⟩
  | .hbm, ⟨78, _⟩ => ⟨S100, .f32⟩
  | .hbm, ⟨79, _⟩ => ⟨S100, .f32⟩
  | .hbm, ⟨80, _⟩ => ⟨S_, .f32⟩
  | .hbm, ⟨81, _⟩ => ⟨S100, .f32⟩
  | .hbm, ⟨82, _⟩ => ⟨S100, .i1⟩
  | .hbm, ⟨83, _⟩ => ⟨S_, .f32⟩
  | .hbm, ⟨84, _⟩ => ⟨S100, .f32⟩
  | .hbm, ⟨85, _⟩ => ⟨S100, .f32⟩
  | .hbm, ⟨86, _⟩ => ⟨S100, .f32⟩
  | .hbm, ⟨87, _⟩ => ⟨S_, .f32⟩
  | .hbm, ⟨88, _⟩ => ⟨S_, .f32⟩
  | .hbm, ⟨89, _⟩ => ⟨S100, .f32⟩
  | .hbm, ⟨90, _⟩ => ⟨S100, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S1, .f32⟩
  | .hbm, ⟨96, _⟩ => ⟨S100, .f32⟩
  | .hbm, ⟨97, _⟩ => ⟨S100, .f32⟩
  | .hbm, ⟨98, _⟩ => ⟨S100, .f32⟩
  | .hbm, ⟨99, _⟩ => ⟨S_, .f32⟩
  | .hbm, ⟨100, _⟩ => ⟨S_, .f32⟩
  | .hbm, ⟨101, _⟩ => ⟨S1, .f32⟩
  | .hbm, ⟨102, _⟩ => ⟨S100, .f32⟩
  | .hbm, ⟨103, _⟩ => ⟨S100, .f32⟩
  | .hbm, ⟨104, _⟩ => ⟨S100, .f32⟩
  | .hbm, ⟨105, _⟩ => ⟨S100, .f32⟩
  | .hbm, ⟨106, _⟩ => ⟨S100, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .local _ .vmem, ⟨0, _⟩ => ⟨S8192x100, .f32⟩
  | .local _ .vmem, ⟨1, _⟩ => ⟨S8192x100, .f32⟩
  | .local _ .vmem, ⟨2, _⟩ => ⟨S8192x1, .i32⟩
  | .local _ .vmem, ⟨3, _⟩ => ⟨S8192x1, .i32⟩
  | .local _ .vmem, ⟨4, _⟩ => ⟨S1x4x100, .f32⟩
  | .local _ .vmem, ⟨5, _⟩ => ⟨S1x4x100, .f32⟩
  | _, _ => ⟨S1048576x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_call3_v0 : Ref sig .tc := ⟨.hbm, 60, rfl⟩
abbrev main_call3_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_v46 : Ref sig .tc := ⟨.hbm, 74, rfl⟩
abbrev main_v47 : Ref sig .tc := ⟨.hbm, 75, rfl⟩
abbrev main_cst_17 : Ref sig .tc := ⟨.hbm, 76, rfl⟩
abbrev main_call4_v0 : Ref sig .tc := ⟨.hbm, 77, rfl⟩
abbrev main_call4_v1 : Ref sig .tc := ⟨.hbm, 78, rfl⟩
abbrev main_v48 : Ref sig .tc := ⟨.hbm, 79, rfl⟩
abbrev main_cst_18 : Ref sig .tc := ⟨.hbm, 80, rfl⟩
abbrev main_v49 : Ref sig .tc := ⟨.hbm, 81, rfl⟩
abbrev main_v50 : Ref sig .tc := ⟨.hbm, 82, rfl⟩
abbrev main_cst_19 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_20 : Ref sig .tc := ⟨.hbm, 87, rfl⟩
abbrev main_call5_v0 : Ref sig .tc := ⟨.hbm, 88, rfl⟩
abbrev main_call5_v1 : Ref sig .tc := ⟨.hbm, 89, rfl⟩
abbrev main_v54 : Ref sig .tc := ⟨.hbm, 90, rfl⟩
abbrev main_cst_21 : Ref sig .tc := ⟨.hbm, 91, rfl⟩
abbrev main_v55 : Ref sig .tc := ⟨.hbm, 92, rfl⟩
abbrev main_cst_22 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_23 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_24 : Ref sig .tc := ⟨.hbm, 107, rfl⟩
abbrev main_v68 : Ref sig .tc := ⟨.hbm, 108, rfl⟩
abbrev main_cst_25 : Ref sig .tc := ⟨.hbm, 109, rfl⟩
abbrev main_v69 : Ref sig .tc := ⟨.hbm, 110, rfl⟩
abbrev main_v70 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1048576_S1048576x1 : S1048576.ShapeCasts S1048576x1
  inb_S1x4x100_S1x4x100_0_0_0 : ∀ a, (![0, 0, 0] : Fin 3 → Nat) a + S1x4x100.size a ≤ S1x4x100.size a
  h_S1x4x100 : 0 < S1x4x100.numel
  inb_S8192x100_S8192x100_0_0 : ∀ a, (![0, 0] : Fin 2 → Nat) a + S8192x100.size a ≤ S8192x100.size a
  h_S8192x100 : 0 < S8192x100.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x100_S8192 : S8192x100.Reduces [1] S8192
  shapeCasts_S8192_S8192x1 : S8192.ShapeCasts S8192x1
  broadcasts_S8192x1_S8192x100 : S8192x1.Broadcasts S8192x100
  iota_S8192x100_d1_w32 : S8192x100.Iotas .tc 32 [1]
  natLt_1_32 : 1 < 32
  concatenates_S8192x1_S8192x1_S8192x1_S8192x1_S8192x4_d1 : Shape.Concatenates [S8192x1, S8192x1, S8192x1, S8192x1] S8192x4 1
  shapeCasts_S1x4x100_S1x4x100 : S1x4x100.ShapeCasts S1x4x100
  shapeCasts_S4x100_S1x4x100 : S4x100.ShapeCasts S1x4x100
  reducesTo_S2x4x100_S4x100_d0 : S2x4x100.ReducesTo [0] S4x100
  h_S_ : 0 < S_.numel
  slices_S4x100_S1x100_0_0 : S4x100.Slices ![0, 0] S1x100
  shapeCasts_S1x100_S100 : S1x100.ShapeCasts S100
  slices_S4x100_S1x100_1_0 : S4x100.Slices ![1, 0] S1x100
  slices_S4x100_S1x100_2_0 : S4x100.Slices ![2, 0] S1x100
  slices_S4x100_S1x100_3_0 : S4x100.Slices ![3, 0] S1x100
  reducesTo_S100_S_d0 : S100.ReducesTo [0] S_
  bcast_S_S100 : S_.BroadcastsInDim S100 (![] : Fin 0 → Fin S100.rank)
  bcast_S_S1 : S_.BroadcastsInDim S1 (![] : Fin 0 → Fin S1.rank)
  bcast_S1_S100_0 : S1.BroadcastsInDim S100 (![0] : Fin 1 → Fin S100.rank)
  dot_S8192x4_S8192x100_S4x100_0_0_1_1_n_n_wf : DotDims.WF S8192x4 S8192x100 S4x100 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x100.size a ≤ S1048576x100.size a
  hwx0_0 : ∀ i : grid0.Coords, EltTy.bits .f32 = 32 ∨ (Rect.block (s := S1048576x100) S8192x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1048576x1.size a
  hwx0_1 : ∀ i : grid0.Coords, EltTy.bits .i32 = 32 ∨ (Rect.block (s := S1048576x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x100.size a ≤ S2x4x100.size a
  hwx0_2 : ∀ i : grid0.Coords, EltTy.bits .f32 = 32 ∨ (Rect.block (s := S2x4x100) S1x4x100.size (cc0_transform_2 i) (hinb0_2 i)).WholeWords (EltTy.packing .f32)

variable [Facts₀]

def dot_S8192x4_S8192x100_S4x100_0_0_1_1_n_n : DotDims S8192x4 S8192x100 S4x100 where
  lhsContracting := [0]
  rhsContracting := [0]
  lhsNonContracting := [1]
  rhsNonContracting := [1]
  lhsBatch := []
  rhsBatch := []
  wf := dot_S8192x4_S8192x100_S4x100_0_0_1_1_n_n_wf

abbrev win0_0 : Pipeline.Window sig grid0 :=
  Pipeline.Window.ofSpec (Memref.whole main_arg0) S8192x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x100 : Shape := ⟨2, ![1048576, 100]⟩
abbrev S1048576 : Shape := ⟨1, ![1048576]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S100 : Shape := ⟨1, ![100]⟩

abbrev nBuf : Space → Nat
  | .hbm => 205
  | .vmem => 0
  | .smem => 0
  | _ => 0

abbrev hbmTy0_0 (i : Nat) : BufTy := match i % 128 with
  | 0 => ⟨S1048576x100, .f32⟩
  | 1 => ⟨S1048576, .i32⟩
  | 2 => ⟨S_, .f32⟩
  | 3 => ⟨S1048576, .f32⟩
  | 4 => ⟨S_, .f32⟩
  | 5 => ⟨S1048576, .f32⟩
  | 6 => ⟨S1048576, .f32⟩
  | 7 => ⟨S1048576x1, .f32⟩
  | 8 => ⟨S1048576x100, .f32⟩
  | 9 => ⟨S1048576x100, .f32⟩
  | 10 => ⟨S1048576x100, .f32⟩
  | 11 => ⟨S_, .f32⟩
  | 12 => ⟨S1048576, .f32⟩
  | 13 => ⟨S1048576x1, .f32⟩
  | 14 => ⟨S1048576x1, .f32⟩
  | 15 => ⟨S1048576x100, .f32⟩
  | 16 => ⟨S1048576x100, .f32⟩
  | 17 => ⟨S1048576x1, .i32⟩
  | 18 => ⟨S_, .i32⟩
  | 19 => ⟨S1048576x1, .i32⟩
  | 20 => ⟨S1048576x1, .i1⟩
  | 21 => ⟨S_, .i32⟩
  | 22 => ⟨S1048576x1, .i32⟩
  | 23 => ⟨S1048576x1, .i32⟩
  | 24 => ⟨S1048576x1, .i32⟩
  | 25 => ⟨S1048576x1x1, .i32⟩
  | 26 => ⟨S1, .i32⟩
  | 27 => ⟨S_, .i32⟩
  | 28 => ⟨S1048576x1x1, .i32⟩
  | 29 => ⟨S1048576x1x1, .i1⟩
  | 30 => ⟨S1x1x1, .i32⟩
  | 31 => ⟨S1048576x1x1, .i32⟩
  | 32 => ⟨S1048576x1x1, .i1⟩
  | 33 => ⟨S1048576x1x1, .i1⟩
  | 34 => ⟨S_, .i1⟩
  | 35 => ⟨S1048576x1, .i1⟩
  | 36 => ⟨S1048576x1, .f32⟩
  | 37 => ⟨S_, .f32⟩
  | 38 => ⟨S1048576x1, .f32⟩
  | 39 => ⟨S1048576x1, .f32⟩
  | 40 => ⟨S1048576, .f32⟩
  | 41 => ⟨S1048576, .f32⟩
  | 42 => ⟨S_, .f32⟩
  | 43 => ⟨S1048576, .f32⟩
  | 44 => ⟨S_, .f32⟩
  | 45 => ⟨S100, .f32⟩
  | 46 => ⟨S1048576x1, .i32⟩
  | 47 => ⟨S100, .f32⟩
  | 48 => ⟨S_, .f32⟩
  | 49 => ⟨S_, .f32⟩
  | 50 => ⟨S_, .f32⟩
  | 51 => ⟨S100, .f32⟩
  | 52 => ⟨S100, .i1⟩
  | 53 => ⟨S_, .f32⟩
  | 54 => ⟨S100, .f32⟩
  | 55 => ⟨S100, .i1⟩
  | 56 => ⟨S_, .f32⟩
  | 57 => ⟨S_, .f32⟩
  | 58 => ⟨S100, .f32⟩
  | 59 => ⟨S100, .f32⟩
  | 60 => ⟨S100, .f32⟩
  | 61 => ⟨S100, .f32⟩
  | 62 => ⟨S100, .f32⟩
  | 63 => ⟨S_, .f32⟩
  | 64 => ⟨S100, .f32⟩
  | 65 => ⟨S100, .f32⟩
  | 66 => ⟨S_, .f32⟩
  | 67 => ⟨S_, .f32⟩
  | 68 => ⟨S100, .f32⟩
  | 69 => ⟨S100, .f32⟩
  | 70 => ⟨S_, .f32⟩
  | 71 => ⟨S1048576, .f32⟩
  | 72 => ⟨S1048576, .f32⟩
  | 73 => ⟨S1048576, .f32⟩
  | 74 => ⟨S1048576, .f32⟩
  | 75 => ⟨S_, .f32⟩
  | 76 => ⟨S100, .f32⟩
  | 77 => ⟨S1048576x1, .i32⟩
  | 78 => ⟨S100, .f32⟩
  | 79 => ⟨S1048576, .f32⟩
  | 80 => ⟨S_, .f32⟩
  | 81 => ⟨S100, .f32⟩
  | 82 => ⟨S1048576x1, .i32⟩
  | 83 => ⟨S100, .f32⟩
  | 84 => ⟨S_, .f32⟩
  | 85 => ⟨S100, .f32⟩
  | 86 => ⟨S100, .i1⟩
  | 87 => ⟨S_, .f32⟩
  | 88 => ⟨S100, .f32⟩
  | 89 => ⟨S100, .f32⟩
  | 90 => ⟨S100, .f32⟩
  | 91 => ⟨S_, .f32⟩
  | 92 => ⟨S_, .f32⟩
  | 93 => ⟨S100, .f32⟩
  | 94 => ⟨S100, .f32⟩
  | 95 => ⟨S100, .f32⟩
  | 96 => ⟨S100, .f32⟩
  | 97 => ⟨S100, .f32⟩
  | 98 => ⟨S_, .f32⟩
  | 99 => ⟨S100, .f32⟩
  | 100 => ⟨S100, .f32⟩
  | 101 => ⟨S_, .f32⟩
  | 102 => ⟨S100, .f32⟩
  | 103 => ⟨S100, .f32⟩
  | 104 => ⟨S100, .f32⟩
  | 105 => ⟨S_, .f32⟩
  | 106 => ⟨S100, .f32⟩
  | 107 => ⟨S100, .i1⟩
  | 108 => ⟨S_, .f32⟩
  | 109 => ⟨S_, .f32⟩
  | 110 => ⟨S100, .f32⟩
  | 111 => ⟨S100, .f32⟩
  | 112 => ⟨S_, .f32⟩
  | 113 => ⟨S100, .f32⟩
  | 114 => ⟨S100, .i1⟩
  | 115 => ⟨S_, .f32⟩
  | 116 => ⟨S100, .f32⟩
  | 117 => ⟨S100, .f32⟩
  | 118 => ⟨S100, .f32⟩
  | 119 => ⟨S_, .f32⟩
  | 120 => ⟨S_, .f32⟩
  | 121 => ⟨S100, .f32⟩
  | 122 => ⟨S100, .f32⟩
  | 123 => ⟨S100, .f32⟩
  | 124 => ⟨S_, .f32⟩
  | 125 => ⟨S100, .f32⟩
  | 126 => ⟨S1048576x1, .i32⟩
  | 127 => ⟨S100, .f32⟩
  | _ => ⟨S1048576x100, .f32⟩

abbrev hbmTy0_1 (i : Nat) : BufTy := match i % 128 with
  | 0 => ⟨S1048576, .f32⟩
  | 1 => ⟨S_, .f32⟩
  | 2 => ⟨S100, .f32⟩
  | 3 => ⟨S1048576x1, .i32⟩
  | 4 => ⟨S100, .f32⟩
  | 5 => ⟨S_, .f32⟩
  | 6 => ⟨S100, .f32⟩
  | 7 => ⟨S100, .i1⟩
  | 8 => ⟨S_, .f32⟩
  | 9 => ⟨S100, .f32⟩
  | 10 => ⟨S100, .f32⟩
  | 11 => ⟨S100, .f32⟩
  | 12 => ⟨S_, .f32⟩
  | 13 => ⟨S_, .f32⟩
  | 14 => ⟨S100, .f32⟩
  | 15 => ⟨S100, .f32⟩
  | 16 => ⟨S100, .f32⟩
  | 17 => ⟨S100, .f32⟩
  | 18 => ⟨S100, .f32⟩
  | 19 => ⟨S_, .f32⟩
  | 20 => ⟨S100, .f32⟩
  | 21 => ⟨S100, .f32⟩
  | 22 => ⟨S_, .f32⟩
  | 23 => ⟨S100, .f32⟩
  | 24 => ⟨S100, .f32⟩
  | 25 => ⟨S100, .f32⟩
  | 26 => ⟨S_, .f32⟩
  | 27 => ⟨S100, .f32⟩
  | 28 => ⟨S100, .i1⟩
  | 29 => ⟨S_, .f32⟩
  | 30 => ⟨S_, .f32⟩
  | 31 => ⟨S100, .f32⟩
  | 32 => ⟨S100, .f32⟩
  | 33 => ⟨S_, .f32⟩
  | 34 => ⟨S100, .f32⟩
  | 35 => ⟨S100, .i1⟩
  | 36 => ⟨S_, .f32⟩
  | 37 => ⟨S100, .f32⟩
  | 38 => ⟨S100, .f32⟩
  | 39 => ⟨S100, .f32⟩
  | 40 => ⟨S_, .f32⟩
  | 41 => ⟨S_, .f32⟩
  | 42 => ⟨S100, .f32⟩
  | 43 => ⟨S100, .f32⟩
  | 44 => ⟨S_, .f32⟩
  | 45 => ⟨S_, .f32⟩
  | 46 => ⟨S_, .f32⟩
  | 47 => ⟨S_, .f32⟩
  | 48 => ⟨S1, .f32⟩
  | 49 => ⟨S100, .f32⟩
  | 50 => ⟨S100, .f32⟩
  | 51 => ⟨S100, .f32⟩
  | 52 => ⟨S_, .f32⟩
  | 53 => ⟨S_, .f32⟩
  | 54 => ⟨S1, .f32⟩
  | 55 => ⟨S100, .f32⟩
  | 56 => ⟨S100, .f32⟩
  | 57 => ⟨S100, .f32⟩
  | 58 => ⟨S100, .f32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S1048576, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | _ => ⟨S1048576x100, .f32⟩

abbrev hbmTy (i : Nat) : BufTy := match i / 128 with
  | 0 => hbmTy0_0 i
  | 1 => hbmTy0_1 i
  | _ => ⟨S1048576x100, .f32⟩

abbrev bufTy : (tb : Table) → Fin (tcTables nBuf tb) → BufTy
  | .hbm, ⟨i, _⟩ => hbmTy i
  | _, _ => ⟨S1048576x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_cst_2 : Ref sig .tc := ⟨.hbm, 50, rfl⟩
abbrev main_v10 : Ref sig .tc := ⟨.hbm, 51, rfl⟩
abbrev main_v11 : Ref sig .tc := ⟨.hbm, 52, rfl⟩
abbrev main_cst_3 : Ref sig .tc := ⟨.hbm, 53, rfl⟩
abbrev main_v12 : Ref sig .tc := ⟨.hbm, 54, rfl⟩
abbrev main_v13 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_5 : Ref sig .tc := ⟨.hbm, 63, rfl⟩
abbrev main_v18 : Ref sig .tc := ⟨.hbm, 64, rfl⟩
abbrev main_v19 : Ref sig .tc := ⟨.hbm, 65, rfl⟩
abbrev main_cst_6 : Ref sig .tc := ⟨.hbm, 66, rfl⟩
abbrev main_call3_v0 : Ref sig .tc := ⟨.hbm, 67, rfl⟩
abbrev main_call3_v1 : Ref sig .tc := ⟨.hbm, 68, rfl⟩
abbrev main_v20 : Ref sig .tc := ⟨.hbm, 69, rfl⟩
abbrev main_cst_7 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_cst_8 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_9 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_10 : Ref sig .tc := ⟨.hbm, 84, rfl⟩
abbrev main_v32 : Ref sig .tc := ⟨.hbm, 85, rfl⟩
abbrev main_v33 : Ref sig .tc := ⟨.hbm, 86, rfl⟩
abbrev main_cst_11 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_12 : Ref sig .tc := ⟨.hbm, 91, rfl⟩
abbrev main_call4_v0 : Ref sig .tc := ⟨.hbm, 92, rfl⟩
abbrev main_call4_v1 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_13 : Ref sig .tc := ⟨.hbm, 98, rfl⟩
abbrev main_v41 : Ref sig .tc := ⟨.hbm, 99, rfl⟩
abbrev main_v42 : Ref sig .tc := ⟨.hbm, 100, rfl⟩
abbrev main_cst_14 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_15 : Ref sig .tc := ⟨.hbm, 105, rfl⟩
abbrev main_v46 : Ref sig .tc := ⟨.hbm, 106, rfl⟩
abbrev main_v47 : Ref sig .tc := ⟨.hbm, 107, rfl⟩
abbrev main_cst_16 : Ref sig .tc := ⟨.hbm, 108, rfl⟩
abbrev main_call5_v0 : Ref sig .tc := ⟨.hbm, 109, rfl⟩
abbrev main_call5_v1 : Ref sig .tc := ⟨.hbm, 110, rfl⟩
abbrev main_v48 : Ref sig .tc := ⟨.hbm, 111, rfl⟩
abbrev main_cst_17 : Ref sig .tc := ⟨.hbm, 112, rfl⟩
abbrev main_v49 : Ref sig .tc := ⟨.hbm, 113, rfl⟩
abbrev main_v50 : Ref sig .tc := ⟨.hbm, 114, rfl⟩
abbrev main_cst_18 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_19 : Ref sig .tc := ⟨.hbm, 119, rfl⟩
abbrev main_call6_v0 : Ref sig .tc := ⟨.hbm, 120, rfl⟩
abbrev main_call6_v1 : Ref sig .tc := ⟨.hbm, 121, rfl⟩
abbrev main_v54 : Ref sig .tc := ⟨.hbm, 122, rfl⟩
abbrev main_v55 : Ref sig .tc := ⟨.hbm, 123, rfl⟩
abbrev main_cst_20 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_cst_21 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_cst_22 : Ref sig .tc := ⟨.hbm, 133, rfl⟩
abbrev main_v63 : Ref sig .tc := ⟨.hbm, 134, rfl⟩
abbrev main_v64 : Ref sig .tc := ⟨.hbm, 135, rfl⟩
abbrev main_cst_23 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_cst_24 : Ref sig .tc := ⟨.hbm, 140, rfl⟩
abbrev main_call7_v0 : Ref sig .tc := ⟨.hbm, 141, rfl⟩
abbrev main_call7_v1 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_cst_25 : Ref sig .tc := ⟨.hbm, 147, rfl⟩
abbrev main_v72 : Ref sig .tc := ⟨.hbm, 148, rfl⟩
abbrev main_v73 : Ref sig .tc := ⟨.hbm, 149, rfl⟩
abbrev main_cst_26 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_27 : Ref sig .tc := ⟨.hbm, 154, rfl⟩
abbrev main_v77 : Ref sig .tc := ⟨.hbm, 155, rfl⟩
abbrev main_v78 : Ref sig .tc := ⟨.hbm, 156, rfl⟩
abbrev main_cst_28 : Ref sig .tc := ⟨.hbm, 157, rfl⟩
abbrev main_call8_v0 : Ref sig .tc := ⟨.hbm, 158, rfl⟩
abbrev main_call8_v1 : Ref sig .tc := ⟨.hbm, 159, rfl⟩
abbrev main_v79 : Ref sig .tc := ⟨.hbm, 160, rfl⟩
abbrev main_cst_29 : Ref sig .tc := ⟨.hbm, 161, rfl⟩
abbrev main_v80 : Ref sig .tc := ⟨.hbm, 162, rfl⟩
abbrev main_v81 : Ref sig .tc := ⟨.hbm, 163, rfl⟩
abbrev main_cst_30 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_cst_31 : Ref sig .tc := ⟨.hbm, 168, rfl⟩
abbrev main_call9_v0 : Ref sig .tc := ⟨.hbm, 169, rfl⟩
abbrev main_call9_v1 : Ref sig .tc := ⟨.hbm, 170, rfl⟩
abbrev main_v85 : Ref sig .tc := ⟨.hbm, 171, rfl⟩
abbrev main_cst_32 : Ref sig .tc := ⟨.hbm, 172, rfl⟩
abbrev main_v86 : Ref sig .tc := ⟨.hbm, 173, rfl⟩
abbrev main_cst_33 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_cst_34 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_c : Ref sig .tc := ⟨.hbm, 187, rfl⟩
abbrev main_v98 : Ref sig .tc := ⟨.hbm, 188, rfl⟩
abbrev main_v99 : Ref sig .tc := ⟨.hbm, 189, rfl⟩
abbrev main_c_35 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_cst_36 : Ref sig .tc := ⟨.hbm, 196, rfl⟩
abbrev main_v105 : Ref sig .tc := ⟨.hbm, 197, rfl⟩
abbrev main_cst_37 : Ref sig .tc := ⟨.hbm, 198, rfl⟩
abbrev main_v106 : Ref sig .tc := ⟨.hbm, 199, rfl⟩
abbrev main_cst_38 : Ref sig .tc := ⟨.hbm, 200, rfl⟩
abbrev main_v107 : Ref sig .tc := ⟨.hbm, 201, rfl⟩
abbrev main_cst_39 : Ref sig .tc := ⟨.hbm, 202, rfl⟩
abbrev main_v108 : Ref sig .tc := ⟨.hbm, 203, rfl⟩
abbrev main_v109 : Ref sig .tc := ⟨.hbm, 204, rfl⟩

abbrev nD : Nat := 1
abbrev τ : Topo := Topo.v7x

variable {F : FTy → Type} [FloatOps F]

class Facts₀ : Prop where
  reducesTo_S1048576x100_S1048576_d1 : S1048576x100.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x100_0_1 : S1048576x1.BroadcastsInDim S1048576x100 (![0, 1] : Fin 2 → Fin S1048576x100.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  shapeCasts_S1048576x1_S1048576 : S1048576x1.ShapeCasts S1048576
  bcast_S_S100 : S_.BroadcastsInDim S100 (![] : Fin 0 → Fin S100.rank)
  reducesTo_S100_S_d0 : S100.ReducesTo [0] S_
  bcast_S_S1 : S_.BroadcastsInDim S1 (![] : Fin 0 → Fin S1.rank)
  bcast_S1_S100_0 : S1.BroadcastsInDim S100 (![0] : Fin 1 → Fin S100.rank)
  reducesTo_S1048576_S_d0 : S1048576.ReducesTo [0] S_
  gather_S1048576x100_S1048576x1x1_S1048576x1_n_1_0_0_1_2_11_wf : GatherDims.WF S1048576x100 S1048576x1x1 S1048576x1 [] [1] [0] [1] [0] 2 ![1, 1]
  scatter_S100_S1048576x1_S1048576_n_0_0_1_wf : ScatterDims.WF S100 S1048576x1 S1048576 [] [0] [0] 1
  gather_S100_S1048576x1_S1048576_n_0_n_n_0_1_1_wf : GatherDims.WF S100 S1048576x1 S1048576 [] [0] [] [0] [] 1 ![1]

variable [Facts₀]

def gather_S1048576x100_S1048576x1x1_S1048576x1_n_1_0_0_1_2_11 : GatherDims S1048576x100 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x100_S1048576x1x1_S1048576x1_n_1_0_0_1_2_11_wf
def scatter_S100_S1048576x1_S1048576_n_0_0_1 : ScatterDims S100 S1048576x1 S1048576 where
  updateWindowDims := []
  insertedWindowDims := [0]
  scatterDimsToOperandDims := [0]
  indexVectorDim := 1
  wf := scatter_S100_S1048576x1_S1048576_n_0_0_1_wf
def gather_S100_S1048576x1_S1048576_n_0_n_n_0_1_1 : GatherDims S100 S1048576x1 S1048576 where
  offsetDims := []
  collapsedSliceDims := [0]
  operandBatchingDims := []
  startIndicesBatchingDims := []
  startIndexMap := [0]
  indexVectorDim := 1
  sliceSizes := ![1]
  wf := gather_S100_S1048576x1_S1048576_n_0_n_n_0_1_1_wf

class Facts : Prop extends Facts₀ where

variable [Facts]
-- ==== Proof.BRuns.lean ====
/-
  The program around its one grid: a reshape of the targets to a column before it, the grid of 2 x 64 points over
  tiles of 8192 rows, and the host lines after it, which read the [2, 4, 100] statistics the grid leaves.
  Here: the buffers' contents when the grid is entered, the facts about the later lines (they touch device buffers
  only, allocate nothing, and write none of the grid's three arrays), the blocks the grid's windows hand the body,
  how the frame claim's post follows from the grid's run, and the body's one branch: it is taken exactly at the first
  of a core's 64 points.
-/
import proofs.«414543_j23175643529520_3_alg».proof.Proof.Gen.Kernel.Launch
import proofs.«414543_j23175643529520_3_alg».proof.Proof.Gen.Kernel.Skeleton
import proofs.«414543_j23175643529520_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- The host lines after the grid, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Core c's buffer contents when the grid is entered: the launch contents after the one line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- No later line writes one of the grid's three arrays: each writes its own result buffer only. -/
theorem hostOps1_keeps : (hostOps1 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_keeps : (hostOps1_6 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_keeps : (hostOps1_7 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_keeps : (hostOps1_8 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_keeps : (hostOps1_9 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_10_keeps : (hostOps1_10 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_11_keeps : (hostOps1_11 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_12_keeps : (hostOps1_12 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- No later line writes the targets' buffer either. -/
theorem hostOps1_ka1 : (hostOps1 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_ka1 : (hostOps1_1 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_ka1 : (hostOps1_2 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_ka1 : (hostOps1_3 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_ka1 : (hostOps1_4 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_ka1 : (hostOps1_5 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_ka1 : (hostOps1_6 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_ka1 : (hostOps1_7 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_ka1 : (hostOps1_8 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_ka1 : (hostOps1_9 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_10_ka1 : (hostOps1_10 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_11_ka1 : (hostOps1_11 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_12_ka1 : (hostOps1_12 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem tail_ka1 : (tailOpss : List (List (HloOp τ sig (Elt F)))).Forall fun ops => ops.Forall fun op => Proc.devRef .tc main_arg1 ∉ op.writes :=
  ⟨hostOps1_ka1, hostOps1_1_ka1, hostOps1_2_ka1, hostOps1_3_ka1, hostOps1_4_ka1, hostOps1_5_ka1, hostOps1_6_ka1, hostOps1_7_ka1, hostOps1_8_ka1, hostOps1_9_ka1, hostOps1_10_ka1, hostOps1_11_ka1, hostOps1_12_ka1⟩
theorem tail_keeps_arg1 : ∀ op ∈ (tailOpss : List (List (HloOp τ sig (Elt F)))).flatten, Proc.devRef .tc main_arg1 ∉ op.writes := by
  intro op hop
  obtain ⟨ops, hops, hop'⟩ := List.mem_flatten.mp hop
  exact (List.forall_iff_forall_mem.mp ((List.forall_iff_forall_mem.mp tail_ka1) ops hops)) op hop'

theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩
theorem tail_fresh : (tailOpss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩
theorem tail_keeps : (tailOpss : List (List (HloOp τ sig (Elt F)))).Forall fun ops => ops.Forall fun op =>
    ∀ w, Proc.devRef .tc (Pipeline.arrRef spec0 w) ∉ op.writes :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- The program is the line before the grid, the grid, and the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main [hostOps0] tailOpss hostOps0_sub hostOps0_fresh main_chain

/-- The later lines touch the grid's arrays and the buffers that bypass it only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOpss : List (List (HloOp τ sig (Elt F)))), ∀ op ∈ ops, op.fresh = ∅ := fun ops hops op hop =>
  (List.forall_iff_forall_mem.mp ((List.forall_iff_forall_mem.mp tail_fresh) ops hops)) op hop
/-- And write no array of the grid. -/
theorem sfx_keeps : ∀ ops ∈ (tailOpss : List (List (HloOp τ sig (Elt F)))), ∀ op ∈ ops,
    ∀ w, Proc.devRef .tc (Pipeline.arrRef spec0 w) ∉ op.writes := fun ops hops op hop =>
  (List.forall_iff_forall_mem.mp ((List.forall_iff_forall_mem.mp tail_keeps) ops hops)) op hop

/-- The line before the grid leaves both arguments as launched. -/
theorem V_main_arg0 (c : Dev nD) : V m c main_arg0 = m ((c : Thread nD τ).loc main_arg0) := by
  dsimp only [V, V0]; simp only [List.flatten_cons, List.flatten_nil, List.append_nil]; after_results
theorem V_main_arg1 (c : Dev nD) : V m c main_arg1 = m ((c : Thread nD τ).loc main_arg1) := by
  dsimp only [V, V0]; simp only [List.flatten_cons, List.flatten_nil, List.append_nil]; after_results

/-! ## The windows' blocks -/

/-- Window w's block at point t, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the grid's run -/

/-- For any proof data whose arrays are the contents at the grid's entry, a run to the library's post is the frame
    claim's post: the logits are an input array of the grid, the targets a buffer the grid never stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_⟩) h
  · exact ((h c).1 0).trans (((dats 0 c).arrAt_in 0 rfl _).trans ((hA c 0).trans (V_main_arg0 m c)))
  · refine ((h c).2 main_arg1 (by decide)).trans ?_
    unfold Pipeline.afterTail₀
    rw [StableHlo.after_of_forall_not_mem (b := Proc.devRef .tc main_arg1) _ _ (tail_keeps_arg1 (F := F))]
    exact (Pipeline.withArrays_of_ne spec0 c _ _ main_arg1 (by decide)).trans (V_main_arg1 m c)

/-! ## The body's branch -/

/-- The body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds exactly at the first of each core's 64 points. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging buffers the body is called with -/

/-- One staging buffer of the output window, through which its contents are stated. -/
abbrev VO0_2 : View sig .tc .vmem S1x4x100 .f32 := (Memref.whole cc0_stg2_0 : Memref sig .tc .vmem S1x4x100 .f32).view
abbrev ms0_0 (t : Fin cfg0.N) : Memref sig .tc .vmem S8192x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x100 .f32 := win0_2.stage (cfg0.slots t 2)
abbrev hs0_2 (t : Fin cfg0.N) : (ms0_2 t).IsWhole := hstage0_2 ((cfg0.slots t 2).cast nbuf0_2)

end Cert.Kernel.Hand

end
-- ==== Proof.BRunA.lean ====
/-
  The kernel body run on whole staging buffers in the case where its branch is taken (the first of a core's 64 points): the output buffer is reset to zero, then the tile's sums are added to what is read back.
  The run finds the pieces the output buffer ends with; the inputs' buffers are handed back as they were.
-/
import proofs.«414543_j23175643529520_3_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer in this case, with the proof that from the inputs'
    buffers at their contents and the output's at anything the body runs to a continuation that holds the inputs' as they were and the
    output's with those pieces written. -/
noncomputable def kernelRun0_A (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : cond0_0 i)
    (x0 : Vec F S8192x100 .f32) (x1 : Vec F S8192x1 .i32) :
    { L2 : List (View.Piece (Elt F) S1x4x100 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_awb_stats_kernel i arg2 harg2 arg3 harg3 arg4 harg4) K } := by
  refine ⟨?_, fun E K => ?run⟩
  case run =>
    simp only [cc0_awb_stats_kernel_eq_skeleton]; unfold cc0_awb_stats_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BRunB.lean ====
/-
  The kernel body run on whole staging buffers in the case where its branch is not taken (every later point): the tile's sums are added to what the point before left in the output buffer.
  The run finds the pieces the output buffer ends with; the inputs' buffers are handed back as they were.
-/
import proofs.«414543_j23175643529520_3_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer in this case, with the proof that from the inputs'
    buffers at their contents and the output's at its running contents the body runs to a continuation that holds the inputs' as they were and the
    output's with those pieces written. -/
noncomputable def kernelRun0_B (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : ¬cond0_0 i)
    (x0 : Vec F S8192x100 .f32) (x1 : Vec F S8192x1 .i32) (xo2 : Vec F S1x4x100 .f32) :
    { L2 : List (View.Piece (Elt F) S1x4x100 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_awb_stats_kernel i arg2 harg2 arg3 harg3 arg4 harg4) K } := by
  refine ⟨?_, fun E K => ?run⟩
  case run =>
    simp only [cc0_awb_stats_kernel_eq_skeleton]; unfold cc0_awb_stats_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BFrame.lean ====
/-
  What the grid leaves in the [2, 4, 100] statistics, and that the whole program runs.

  At the first of a core's 64 points the body resets the output block and adds the tile's sums; at every later point it
  adds the tile's sums to what the point before left (the block is written back only after the core's last point, so it
  stays in its staging buffer between points). Here: the stores of each case cover the block; what the block holds
  after each point, by recursion on the point; the proof data of the grid; the body's obligation at every point; the run
  of the program, the later host lines included; and the frame claim.
-/
import proofs.«414543_j23175643529520_3_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's stores cover the output block. -/
theorem cover0_A_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : cond0_0 i)
    (x0 : Vec F S8192x100 .f32) (x1 : Vec F S8192x1 .i32) (y : S1x4x100.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x100.size (by sl_kernel_rfl) y

/-- What the first case leaves in the output block: its pieces read back. -/
def out0_A_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : cond0_0 i)
    (x0 : Vec F S8192x100 .f32) (x1 : Vec F S8192x1 .i32) : Vec F S1x4x100 .f32 :=
  VO0_2.read (Elt F) (VO0_2.writes (Elt F) VO0_2.junk (kernelRun0_A c i arg2 harg2 arg3 harg3 arg4 harg4 hc0 x0 x1).1)

/-- The later case's store covers the output block. -/
theorem cover0_B_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : ¬cond0_0 i)
    (x0 : Vec F S8192x100 .f32) (x1 : Vec F S8192x1 .i32) (xo2 : Vec F S1x4x100 .f32) (y : S1x4x100.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x100.size (by sl_kernel_rfl) y

/-- What the later case leaves in the output block, over what the point before left. -/
def out0_B_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : ¬cond0_0 i)
    (x0 : Vec F S8192x100 .f32) (x1 : Vec F S8192x1 .i32) (xo2 : Vec F S1x4x100 .f32) : Vec F S1x4x100 .f32 :=
  VO0_2.read (Elt F) (VO0_2.writes (Elt F) VO0_2.junk (kernelRun0_B c i arg2 harg2 arg3 harg3 arg4 harg4 hc0 x0 x1 xo2).1)

/-! ## What the output block holds after each point -/

/-- The accumulation: the case the point is in, run on the point's blocks, the later case over what the point before left. -/
def outsAt0 (c : Dev nD) : (n : ℕ) → n < cfg0.N → Vec F S1x4x100 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 64 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a core's first point: the first case's contents. -/
theorem outsAt0_A (c : Dev nD) (t : Fin cfg0.N) (h0 : t.val % 64 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: the later case's contents, over what the point before left. -/
theorem outsAt0_B (c : Dev nD) (t : Fin cfg0.N) (h0 : ¬t.val % 64 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The grid's proof data -/

/-- On core c: the arrays as the grid finds them; after the body at point t each input's buffer at its block and the
    output's at the accumulation; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the output's staging buffer holds what the body left at the point before: the buffer was not
    written back between. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body's obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; the point is a core's first or a later one; at a
    later one the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 128 := lt_of_lt_of_eq t.isLt (show cfg0.N = 128 from N_0)
  by_cases h0 : t.val % 64 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each array of the grid at what the library computes from the proof data and every other unscoped buffer as the
    later host lines leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the program runs and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KRuns.lean ====
/-
  The program around its one grid: a reshape of the targets to a column before it, the grid of 2 x 64 points over
  tiles of 8192 rows, and the host lines after it, which read the [2, 4, 100] statistics the grid leaves.
  Here: the buffers' contents when the grid is entered, the facts about the later lines (they touch device buffers
  only, allocate nothing, and write none of the grid's three arrays), the blocks the grid's windows hand the body,
  how the frame claim's post follows from the grid's run, and the body's one branch: it is taken exactly at the first
  of a core's 64 points.
-/
import proofs.«414543_j23175643529520_3_alg».proof.Proof.Gen.KernelIdeal.Launch
import proofs.«414543_j23175643529520_3_alg».proof.Proof.Gen.KernelIdeal.Skeleton
import proofs.«414543_j23175643529520_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- The host lines after the grid, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Core c's buffer contents when the grid is entered: the launch contents after the one line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- No later line writes one of the grid's three arrays: each writes its own result buffer only. -/
theorem hostOps1_keeps : (hostOps1 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_keeps : (hostOps1_6 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_keeps : (hostOps1_7 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_keeps : (hostOps1_8 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_keeps : (hostOps1_9 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_10_keeps : (hostOps1_10 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_11_keeps : (hostOps1_11 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_12_keeps : (hostOps1_12 : List (HloOp τ sig (Elt F))).Forall fun op =>
    ∀ w, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- No later line writes the targets' buffer either. -/
theorem hostOps1_ka1 : (hostOps1 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_ka1 : (hostOps1_1 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_ka1 : (hostOps1_2 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_ka1 : (hostOps1_3 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_ka1 : (hostOps1_4 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_ka1 : (hostOps1_5 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_ka1 : (hostOps1_6 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_ka1 : (hostOps1_7 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_ka1 : (hostOps1_8 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_ka1 : (hostOps1_9 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_10_ka1 : (hostOps1_10 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_11_ka1 : (hostOps1_11 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_12_ka1 : (hostOps1_12 : List (HloOp τ sig (Elt F))).Forall fun op => Proc.devRef .tc main_arg1 ∉ op.writes := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem tail_ka1 : (tailOpss : List (List (HloOp τ sig (Elt F)))).Forall fun ops => ops.Forall fun op => Proc.devRef .tc main_arg1 ∉ op.writes :=
  ⟨hostOps1_ka1, hostOps1_1_ka1, hostOps1_2_ka1, hostOps1_3_ka1, hostOps1_4_ka1, hostOps1_5_ka1, hostOps1_6_ka1, hostOps1_7_ka1, hostOps1_8_ka1, hostOps1_9_ka1, hostOps1_10_ka1, hostOps1_11_ka1, hostOps1_12_ka1⟩
theorem tail_keeps_arg1 : ∀ op ∈ (tailOpss : List (List (HloOp τ sig (Elt F)))).flatten, Proc.devRef .tc main_arg1 ∉ op.writes := by
  intro op hop
  obtain ⟨ops, hops, hop'⟩ := List.mem_flatten.mp hop
  exact (List.forall_iff_forall_mem.mp ((List.forall_iff_forall_mem.mp tail_ka1) ops hops)) op hop'

theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩
theorem tail_fresh : (tailOpss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩
theorem tail_keeps : (tailOpss : List (List (HloOp τ sig (Elt F)))).Forall fun ops => ops.Forall fun op =>
    ∀ w, Proc.devRef .tc (Pipeline.arrRef spec0 w) ∉ op.writes :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- The program is the line before the grid, the grid, and the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main [hostOps0] tailOpss hostOps0_sub hostOps0_fresh main_chain

/-- The later lines touch the grid's arrays and the buffers that bypass it only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOpss : List (List (HloOp τ sig (Elt F)))), ∀ op ∈ ops, op.fresh = ∅ := fun ops hops op hop =>
  (List.forall_iff_forall_mem.mp ((List.forall_iff_forall_mem.mp tail_fresh) ops hops)) op hop
/-- And write no array of the grid. -/
theorem sfx_keeps : ∀ ops ∈ (tailOpss : List (List (HloOp τ sig (Elt F)))), ∀ op ∈ ops,
    ∀ w, Proc.devRef .tc (Pipeline.arrRef spec0 w) ∉ op.writes := fun ops hops op hop =>
  (List.forall_iff_forall_mem.mp ((List.forall_iff_forall_mem.mp tail_keeps) ops hops)) op hop

/-- The line before the grid leaves both arguments as launched. -/
theorem V_main_arg0 (c : Dev nD) : V m c main_arg0 = m ((c : Thread nD τ).loc main_arg0) := by
  dsimp only [V, V0]; simp only [List.flatten_cons, List.flatten_nil, List.append_nil]; after_results
theorem V_main_arg1 (c : Dev nD) : V m c main_arg1 = m ((c : Thread nD τ).loc main_arg1) := by
  dsimp only [V, V0]; simp only [List.flatten_cons, List.flatten_nil, List.append_nil]; after_results

/-! ## The windows' blocks -/

/-- Window w's block at point t, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the grid's run -/

/-- For any proof data whose arrays are the contents at the grid's entry, a run to the library's post is the frame
    claim's post: the logits are an input array of the grid, the targets a buffer the grid never stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_⟩) h
  · exact ((h c).1 0).trans (((dats 0 c).arrAt_in 0 rfl _).trans ((hA c 0).trans (V_main_arg0 m c)))
  · refine ((h c).2 main_arg1 (by decide)).trans ?_
    unfold Pipeline.afterTail₀
    rw [StableHlo.after_of_forall_not_mem (b := Proc.devRef .tc main_arg1) _ _ (tail_keeps_arg1 (F := F))]
    exact (Pipeline.withArrays_of_ne spec0 c _ _ main_arg1 (by decide)).trans (V_main_arg1 m c)

/-! ## The body's branch -/

/-- The body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds exactly at the first of each core's 64 points. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging buffers the body is called with -/

/-- One staging buffer of the output window, through which its contents are stated. -/
abbrev VO0_2 : View sig .tc .vmem S1x4x100 .f32 := (Memref.whole cc0_stg2_0 : Memref sig .tc .vmem S1x4x100 .f32).view
abbrev ms0_0 (t : Fin cfg0.N) : Memref sig .tc .vmem S8192x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x100 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KRunA.lean ====
/-
  The kernel body run on whole staging buffers in the case where its branch is taken (the first of a core's 64 points): the output buffer is reset to zero, then the tile's sums are added to what is read back.
  The run finds the pieces the output buffer ends with; the inputs' buffers are handed back as they were.
-/
import proofs.«414543_j23175643529520_3_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer in this case, with the proof that from the inputs'
    buffers at their contents and the output's at anything the body runs to a continuation that holds the inputs' as they were and the
    output's with those pieces written. -/
noncomputable def kernelRun0_A (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : cond0_0 i)
    (x0 : Vec F S8192x100 .f32) (x1 : Vec F S8192x1 .i32) :
    { L2 : List (View.Piece (Elt F) S1x4x100 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_awb_stats_kernel i arg2 harg2 arg3 harg3 arg4 harg4) K } := by
  refine ⟨?_, fun E K => ?run⟩
  case run =>
    simp only [cc0_awb_stats_kernel_eq_skeleton]; unfold cc0_awb_stats_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KRunB.lean ====
/-
  The kernel body run on whole staging buffers in the case where its branch is not taken (every later point): the tile's sums are added to what the point before left in the output buffer.
  The run finds the pieces the output buffer ends with; the inputs' buffers are handed back as they were.
-/
import proofs.«414543_j23175643529520_3_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer in this case, with the proof that from the inputs'
    buffers at their contents and the output's at its running contents the body runs to a continuation that holds the inputs' as they were and the
    output's with those pieces written. -/
noncomputable def kernelRun0_B (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : ¬cond0_0 i)
    (x0 : Vec F S8192x100 .f32) (x1 : Vec F S8192x1 .i32) (xo2 : Vec F S1x4x100 .f32) :
    { L2 : List (View.Piece (Elt F) S1x4x100 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0_awb_stats_kernel i arg2 harg2 arg3 harg3 arg4 harg4) K } := by
  refine ⟨?_, fun E K => ?run⟩
  case run =>
    simp only [cc0_awb_stats_kernel_eq_skeleton]; unfold cc0_awb_stats_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KFrame.lean ====
/-
  What the grid leaves in the [2, 4, 100] statistics, and that the whole program runs.

  At the first of a core's 64 points the body resets the output block and adds the tile's sums; at every later point it
  adds the tile's sums to what the point before left (the block is written back only after the core's last point, so it
  stays in its staging buffer between points). Here: the stores of each case cover the block; what the block holds
  after each point, by recursion on the point; the proof data of the grid; the body's obligation at every point; the run
  of the program, the later host lines included; and the frame claim.
-/
import proofs.«414543_j23175643529520_3_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's stores cover the output block. -/
theorem cover0_A_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : cond0_0 i)
    (x0 : Vec F S8192x100 .f32) (x1 : Vec F S8192x1 .i32) (y : S1x4x100.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x100.size (by sl_kernel_rfl) y

/-- What the first case leaves in the output block: its pieces read back. -/
def out0_A_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : cond0_0 i)
    (x0 : Vec F S8192x100 .f32) (x1 : Vec F S8192x1 .i32) : Vec F S1x4x100 .f32 :=
  VO0_2.read (Elt F) (VO0_2.writes (Elt F) VO0_2.junk (kernelRun0_A c i arg2 harg2 arg3 harg3 arg4 harg4 hc0 x0 x1).1)

/-- The later case's store covers the output block. -/
theorem cover0_B_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : ¬cond0_0 i)
    (x0 : Vec F S8192x100 .f32) (x1 : Vec F S8192x1 .i32) (xo2 : Vec F S1x4x100 .f32) (y : S1x4x100.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x100.size (by sl_kernel_rfl) y

/-- What the later case leaves in the output block, over what the point before left. -/
def out0_B_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S1x4x100 .f32) (harg4 : arg4.IsWhole) (hc0 : ¬cond0_0 i)
    (x0 : Vec F S8192x100 .f32) (x1 : Vec F S8192x1 .i32) (xo2 : Vec F S1x4x100 .f32) : Vec F S1x4x100 .f32 :=
  VO0_2.read (Elt F) (VO0_2.writes (Elt F) VO0_2.junk (kernelRun0_B c i arg2 harg2 arg3 harg3 arg4 harg4 hc0 x0 x1 xo2).1)

/-! ## What the output block holds after each point -/

/-- The accumulation: the case the point is in, run on the point's blocks, the later case over what the point before left. -/
def outsAt0 (c : Dev nD) : (n : ℕ) → n < cfg0.N → Vec F S1x4x100 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 64 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a core's first point: the first case's contents. -/
theorem outsAt0_A (c : Dev nD) (t : Fin cfg0.N) (h0 : t.val % 64 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: the later case's contents, over what the point before left. -/
theorem outsAt0_B (c : Dev nD) (t : Fin cfg0.N) (h0 : ¬t.val % 64 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The grid's proof data -/

/-- On core c: the arrays as the grid finds them; after the body at point t each input's buffer at its block and the
    output's at the accumulation; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the output's staging buffer holds what the body left at the point before: the buffer was not
    written back between. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body's obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; the point is a core's first or a later one; at a
    later one the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 128 := lt_of_lt_of_eq t.isLt (show cfg0.N = 128 from N_0)
  by_cases h0 : t.val % 64 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each array of the grid at what the library computes from the proof data and every other unscoped buffer as the
    later host lines leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the program runs and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.AwbSpec.lean ====
/-
  The mathematics both programs compute, stated once over the extended reals.

  A row of logits v (a hundred entries) with target class a has a maximum M, a log-sum-exp
  L = log (sum_c exp (v_c - M)), the target's log-probability (v_a - M) - L, its probability p = exp of that, and
  the loss term n = -log (p + eps). Per class c four sums run over the rows whose target is c: the count (a sum of
  ones), the sum of the n, of the p and of the p squared. Everything after that is a function of those four
  length-100 vectors.
-/
import Idealize.ShloMosaic.PureOps
import Idealize.ShloMosaic.PureOps.Ideal
import Idealize.ShloMosaic.Lib.ValueIdx

noncomputable section

namespace Cert.Awb

open Idealize.ShloMosaic Idealize.ShloMosaic.ValueIdx
open scoped BigOperators

/-- The logits' shape, the targets' shape, a per-class vector's shape and the scalar shape. -/
abbrev SX : Shape := ⟨2, ![1048576, 100]⟩
abbrev ST : Shape := ⟨1, ![1048576]⟩
abbrev S100 : Shape := ⟨1, ![100]⟩
abbrev S_ : Shape := ⟨0, ![]⟩

/-- The words of minus infinity, of one and of the loss term's epsilon, as extended reals. -/
abbrev negInf : EReal := Ideal.ofBits .f32 0xFF800000#32
abbrev oneW : EReal := Ideal.ofBits .f32 0x3F800000#32
abbrev epsW : EReal := Ideal.ofBits .f32 0x358637BD#32

/-! ## One row -/

/-- A row's maximum: the fold of max over its hundred entries, from minus infinity. -/
def vMax (v : Fin 100 → EReal) : EReal := (Finset.univ : Finset (Fin 100)).fold max negInf v

/-- A row's log-sum-exp about its maximum. -/
def vLse (v : Fin 100 → EReal) : EReal := Ideal.log (∑ c : Fin 100, Ideal.exp (v c - vMax v))

/-- The log-probability of class a in the row. -/
def vLogp (v : Fin 100 → EReal) (a : Fin 100) : EReal := (v a - vMax v) - vLse v

/-- The probability of class a in the row. -/
def vPt (v : Fin 100 → EReal) (a : Fin 100) : EReal := Ideal.exp (vLogp v a)

/-- The row's loss term: minus the log of the target's probability plus epsilon. -/
def vNegl (v : Fin 100 → EReal) (a : Fin 100) : EReal := -(Ideal.log (vPt v a + epsW))

/-- The four per-row quantities that are summed per class: one, the loss term, the probability, its square. -/
def vCol (k : Fin 4) (v : Fin 100 → EReal) (a : Fin 100) : EReal :=
  match k with
  | 0 => oneW
  | 1 => vNegl v a
  | 2 => vPt v a
  | 3 => vPt v a * vPt v a

/-! ## All rows -/

/-- Every target word is the class index tau i written in 32 bits. -/
def Decodes (t : IVec ST 32) (τ : Fin 1048576 → Fin 100) : Prop :=
  ∀ i : Fin 1048576, t (ix1 i) = BitVec.ofNat 32 (τ i).val

/-- Row i of the logits. -/
def rowOf (x : FVec Ideal SX .f32) (i : Fin 1048576) : Fin 100 → EReal := fun c => x (ix2 i c)

/-- The sum of f over the rows whose target is class c. -/
def classSum (τ : Fin 1048576 → Fin 100) (f : Fin 1048576 → EReal) (c : Fin 100) : EReal :=
  ∑ i : Fin 1048576, if τ i = c then f i else 0

/-- The k-th of the four per-class vectors. -/
def leaf (x : FVec Ideal SX .f32) (τ : Fin 1048576 → Fin 100) (k : Fin 4) : FVec Ideal S100 .f32 :=
  fun j => classSum τ (fun i => vCol k (rowOf x i) (τ i)) (j 0)

end Cert.Awb

end
-- ==== Proof.LibMatmulPrec.lean ====
/-
  A matrix product with ONE contracted axis, into the zero accumulator, read at an entry of a rank-two result — for
  ANY contraction precision the operation carries (over the extended reals the precision does not enter the value).

  At entry (p, n) the product is the sum over the contracted coordinate k of the left operand at L k times the right
  operand at R k, once the operand indices at the contraction position whose one coordinate is k are known to be
  L k and R k (whatever the operands' shapes and whichever of their axes is contracted).
-/
import Idealize.ShloMosaic.Lib.Pipeline.Value
import Idealize.ShloMosaic.Lib.ValueIdx
import Idealize.ShloMosaic.PureOps.Ideal.Laws

noncomputable section

namespace Cert.LibMatmulPrec

open Idealize.ShloMosaic Idealize.ShloMosaic.ValueIdx
open scoped BigOperators

/-- A product with one contracted axis of extent K at any precision `prec`, into the zero accumulator, at entry
    (p, n): the sum over k of the left operand at L k times the right at R k. -/
theorem matmul_zero_ix2_prec {sl sr : Shape} {M N K : ℕ} (D : DotDims sl sr ⟨2, ![M, N]⟩) (prec : Option ContractPrecision)
    (hr : D.contr.rank = 1) (hs : D.contr.size ⟨0, by omega⟩ = K) (l : FVec Ideal sl .f32) (r : FVec Ideal sr .f32)
    (p : Fin M) (n : Fin N) (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D prec l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

end Cert.LibMatmulPrec

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.LibRowReduce.lean ====
/-
  Row reductions kept as a column and broadcast back, read at an entry.

  jnp.max(x, axis=-1, keepdims=True) and jnp.sum(x, axis=-1, keepdims=True) of an [a, b] array lower to a
  reduction over axis 1 into [a], a cast to the column [a, 1], and (where the column meets an [a, c] array) a
  broadcast along the rows. At entry (r, d) of that [a, c] array sits the reduction of row r: the sum of its b
  entries, or their maximum folded from the accumulator's value.
-/
import proofs.«414543_j23175643529520_3_alg».proof.Proof.LibIx2
import Idealize.ShloMosaic.Lib.Pipeline.Value
import Idealize.ShloMosaic.Lib.ValueIdx
import Idealize.ShloMosaic.PureOps.Ideal.Laws

noncomputable section

namespace Cert.LibRowReduce

open Idealize.ShloMosaic Idealize.ShloMosaic.ValueIdx Cert.LibIx2
open scoped BigOperators

/-- A vector [a] cast to the column [a, 1] reads, at (r, u), the vector's entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Over the reduced index r of an [a, b] array reduced along axis 1, the source index with coordinate k on
    that axis is (r, k). -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- The row sums of an [a, b] array, kept as a column and broadcast to [a, c]: at (r, d), the sum of row r. -/
theorem rowSum_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .add [1] ⟨1, ![a]⟩ e acc h hφ hacc) hsc) hb (ix2 r d)
      = ∑ k : Fin b, e (ix2 r k) := by
  rw [broadcastTo_a1_ab_apply, shapeCast_a_a1_apply]
  refine (Ideal.multiReduction_add_single e acc h hφ hacc (ix1 r)).trans ?_
  show ∑ k : Fin b, e (h.lift (ix1 r) k) = _
  exact Finset.sum_congr rfl fun k _ => by rw [lift_row]

/-- The row maxima of an [a, b] array, kept as a column and broadcast to [a, c]: at (r, d), the maximum of row r
    folded from the accumulator's value. -/
theorem rowMax_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .maximumf [1] ⟨1, ![a]⟩ e acc h hφ hacc) hsc) hb (ix2 r d)
      = (Finset.univ : Finset (Fin b)).fold max (Ideal.ofBits φ acc) (fun k => e (ix2 r k)) := by
  rw [broadcastTo_a1_ab_apply, shapeCast_a_a1_apply]
  refine (Ideal.multiReduction_maximumf_single e acc h hφ hacc (ix1 r)).trans ?_
  show (Finset.univ : Finset (Fin b)).fold max (Ideal.ofBits φ acc) (fun k => e (h.lift (ix1 r) k)) = _
  exact congrArg (fun f => (Finset.univ : Finset (Fin b)).fold max (Ideal.ofBits φ acc) f) (funext fun (k : Fin b) => congrArg e (lift_row h r k))

end Cert.LibRowReduce

end
-- ==== Proof.KRows.lean ====
/-
  The kernel body's arithmetic read at an entry, over the extended reals.

  One tile is 8192 rows of a hundred logits with a column of 8192 target words. Per row the body takes the row's
  maximum M, the log-sum-exp L = log (sum_c exp (x_c - M)) about it, the logit at the row's target (the row's sum
  against the mask "lane c is the target"), the target's probability p = exp ((x_target - M) - L) and the loss term
  0 - log (p + eps); it lays the four columns one, loss term, p, p * p side by side as an [8192, 4] array and
  multiplies it, contracting the rows, with the [8192, 100] one-hot array of the targets. Entry (k, c) of that
  product is the sum, over the rows whose target is c, of the k-th column, and the body adds it to the accumulator.
-/
import proofs.«414543_j23175643529520_3_alg».proof.Proof.Gen.KernelIdeal.Skeleton
import proofs.«414543_j23175643529520_3_alg».proof.Proof.AwbSpec
import proofs.«414543_j23175643529520_3_alg».proof.Proof.LibMatmulPrec
import proofs.«414543_j23175643529520_3_alg».proof.Proof.LibRowReduce
import proofs.«414543_j23175643529520_3_alg».proof.Proof.LibIx2
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Rows

open Cert.KernelIdeal Cert.KernelIdeal.Gen Cert.Awb Idealize.ShloMosaic Idealize.ShloMosaic.ValueIdx
open Cert.LibIx2 Cert.LibRowReduce Cert.LibMatmulPrec
open scoped BigOperators

/-! ## The body's intermediate vectors, named -/

section Named
variable (xb : FVec Ideal S8192x100 .f32) (tb : IVec S8192x1 32)

/-- The row maxima as a column. -/
def maxCol : FVec Ideal S8192x1 .f32 :=
  shapeCast S8192x1 (multiReduction (F := Ideal) .maximumf [1] S8192 xb 0xFF800000#32 reduces_S8192x100_S8192 (.inl rfl) rfl)
    shapeCasts_S8192_S8192x1

/-- The rows' log-sum-exp about their maxima, as a column. -/
def lseCol : FVec Ideal S8192x1 .f32 :=
  log (shapeCast S8192x1
    (multiReduction (F := Ideal) .add [1] S8192
      (exp (subf xb (broadcastTo S8192x100 (maxCol xb) broadcasts_S8192x1_S8192x100)))
      0x00000000#32 reduces_S8192x100_S8192 (.inl rfl) rfl)
    shapeCasts_S8192_S8192x1)

/-- The mask "lane c is the row's target word". -/
def mask : IVec S8192x100 1 :=
  cmpi .eq (iota .tc S8192x100 32 [1] iota_S8192x100_d1_w32)
    (broadcastTo S8192x100 (shapeCast S8192x1 tb shapeCasts_S8192x1_S8192x1) broadcasts_S8192x1_S8192x100)

/-- The logit at the row's target, as a column: the row's sum against the mask. -/
def tgtCol : FVec Ideal S8192x1 .f32 :=
  shapeCast S8192x1
    (multiReduction (F := Ideal) .add [1] S8192
      (select (mask tb) xb (broadcast S8192x100 (Scalar.ofBits (F := Ideal) .f32 0x00000000#32)))
      0x00000000#32 reduces_S8192x100_S8192 (.inl rfl) rfl)
    shapeCasts_S8192_S8192x1

/-- The target's probability, as a column. -/
def ptCol : FVec Ideal S8192x1 .f32 :=
  exp (subf (subf (tgtCol xb tb) (maxCol xb)) (lseCol xb))

/-- The loss term, as a column. -/
def neglCol : FVec Ideal S8192x1 .f32 :=
  subf (broadcast S8192x1 (Scalar.ofBits (F := Ideal) .f32 0x00000000#32))
    (log (addf (ptCol xb tb) (broadcast S8192x1 (Scalar.ofBits (F := Ideal) .f32 0x358637BD#32))))

/-- The four columns side by side. -/
def cols : FVec Ideal S8192x4 .f32 :=
  concatenate S8192x4 1
    [⟨S8192x1, broadcast S8192x1 (Scalar.ofBits (F := Ideal) .f32 0x3F800000#32)⟩, ⟨S8192x1, neglCol xb tb⟩,
      ⟨S8192x1, ptCol xb tb⟩, ⟨S8192x1, mulf (ptCol xb tb) (ptCol xb tb)⟩]
    concatenates_S8192x1_S8192x1_S8192x1_S8192x1_S8192x4_d1

/-- The one-hot array of the targets. -/
def onehot : FVec Ideal S8192x100 .f32 :=
  sitofp .f32 (extui 32 (mask tb) natLt_1_32)

end Named

/-- The body's value is the accumulator plus the product of the four columns with the one-hot array. -/
theorem pay2_eq (xb : Vec Ideal S8192x100 .f32) (tb : Vec Ideal S8192x1 .i32) (acc : Vec Ideal S1x4x100 .f32) :
    k0_pay2 (F := Ideal) xb tb acc
      = addf (shapeCast S1x4x100 acc shapeCasts_S1x4x100_S1x4x100)
          (shapeCast S1x4x100
            (matmul dot_S8192x4_S8192x100_S4x100_0_0_1_1_n_n (some .fp32) (cols xb tb) (onehot tb)
              (constant (F := Ideal) S4x100 .f32 0x00000000#32))
            shapeCasts_S4x100_S1x4x100) := rfl

/-- The value stored before the first tile is zero everywhere. -/
theorem pay1_apply (j : S1x4x100.Idx) : k0_pay1 (F := Ideal) j = 0 := by
  show Ideal.ofBits .f32 0x00000000#32 = 0
  exact Ideal.ofBits_zero_f32

/-! ## Words and pointwise readings -/

/-- Two class numbers below a hundred with the same 32-bit word are equal. -/
theorem ofNat_inj_100 (a b : Fin 100) (h : BitVec.ofNat 32 a.val = BitVec.ofNat 32 b.val) : a = b := by
  have e : ∀ n : ℕ, n < 100 → n % 2 ^ 32 = n := fun n hn => Nat.mod_eq_of_lt (lt_of_lt_of_le hn (by norm_num))
  have := congrArg BitVec.toNat h
  rw [BitVec.toNat_ofNat, BitVec.toNat_ofNat, e _ a.isLt, e _ b.isLt] at this
  exact Fin.ext this

/-- A select on the bit of a decided proposition is the `if`. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- A logarithm at an index is the logarithm of the element … -/
theorem log_apply {s : Shape} {φ : FTy} (a : FVec Ideal s φ) (i : s.Idx) : log a i = Ideal.log (a i) := rfl
/-- … and an exponential the exponential. -/
theorem exp_apply {s : Shape} {φ : FTy} (a : FVec Ideal s φ) (i : s.Idx) : exp a i = Ideal.exp (a i) := rfl

/-- An integer comparison at an index compares the elements. -/
theorem cmpi_apply {s : Shape} {w : ℕ} (p : CmpIPredicate) (a b : IVec s w) (i : s.Idx) :
    cmpi p a b i = IntOp.cmpi p (a i) (b i) := rfl

/-! ## Row reductions kept as a column, read at an entry -/

/-- The row sums of an [a, b] array as a column: at (r, u), the sum of row r. -/
theorem rowSum_col_apply {φ : FTy} {a b : ℕ} (e : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hsc : (⟨1, ![a]⟩ : Shape).ShapeCasts ⟨2, ![a, 1]⟩) (r : Fin a) (u : Fin 1) :
    shapeCast ⟨2, ![a, 1]⟩ (multiReduction .add [1] ⟨1, ![a]⟩ e acc h hφ hacc) hsc (ix2 r u)
      = ∑ k : Fin b, e (ix2 r k) := by
  rw [shapeCast_a_a1_apply]
  refine (Ideal.multiReduction_add_single e acc h hφ hacc (ix1 r)).trans ?_
  show ∑ k : Fin b, e (h.lift (ix1 r) k) = _
  exact Finset.sum_congr rfl fun k _ => by rw [lift_row]

/-- The row maxima of an [a, b] array as a column: at (r, u), the maximum of row r folded from the accumulator. -/
theorem rowMax_col_apply {φ : FTy} {a b : ℕ} (e : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hsc : (⟨1, ![a]⟩ : Shape).ShapeCasts ⟨2, ![a, 1]⟩) (r : Fin a) (u : Fin 1) :
    shapeCast ⟨2, ![a, 1]⟩ (multiReduction .maximumf [1] ⟨1, ![a]⟩ e acc h hφ hacc) hsc (ix2 r u)
      = (Finset.univ : Finset (Fin b)).fold max (Ideal.ofBits φ acc) (fun k => e (ix2 r k)) := by
  rw [shapeCast_a_a1_apply]
  refine (Ideal.multiReduction_maximumf_single e acc h hφ hacc (ix1 r)).trans ?_
  show (Finset.univ : Finset (Fin b)).fold max (Ideal.ofBits φ acc) (fun k => e (h.lift (ix1 r) k)) = _
  exact congrArg (fun f => (Finset.univ : Finset (Fin b)).fold max (Ideal.ofBits φ acc) f)
    (funext fun (k : Fin b) => congrArg e (lift_row h r k))

/-! ## The named vectors at an entry -/

section Entries
variable (xb : FVec Ideal S8192x100 .f32) (tb : IVec S8192x1 32) (σ : Fin 8192 → Fin 100)
  (hσ : ∀ r : Fin 8192, tb (ix2 r (0 : Fin 1)) = BitVec.ofNat 32 (σ r).val)
include hσ

/-- The mask is set exactly on the target's lane. -/
theorem mask_apply (r : Fin 8192) (c : Fin 100) : mask tb (ix2 r c) = if c = σ r then 1#1 else 0#1 := by
  unfold mask
  rw [cmpi_apply, iota_single_apply, broadcastTo_a1_ab_apply, shapeCast_self, hσ]
  show BitVec.ofBool (BitVec.ofNat 32 c.val == BitVec.ofNat 32 (σ r).val) = _
  by_cases h : c = σ r
  · rw [if_pos h, h]; simp
  · rw [if_neg h]
    have hne : ¬ BitVec.ofNat 32 c.val = BitVec.ofNat 32 (σ r).val := fun e => h (ofNat_inj_100 _ _ e)
    rw [beq_false_of_ne hne]
    rfl

/-- The one-hot array is one on the target's lane and zero elsewhere. -/
theorem onehot_apply (r : Fin 8192) (c : Fin 100) : onehot tb (ix2 r c) = if c = σ r then 1 else 0 := by
  unfold onehot
  rw [sitofp_apply, extui_apply, mask_apply tb σ hσ]
  by_cases h : c = σ r
  · rw [if_pos h, if_pos h]
    show (((BitVec.setWidth 32 1#1).toInt : ℝ) : EReal) = 1
    have e : (BitVec.setWidth 32 1#1).toInt = 1 := by decide
    rw [e, Int.cast_one, EReal.coe_one]
  · rw [if_neg h, if_neg h]
    show (((BitVec.setWidth 32 0#1).toInt : ℝ) : EReal) = 0
    have e : (BitVec.setWidth 32 0#1).toInt = 0 := by decide
    rw [e, Int.cast_zero, EReal.coe_zero]

omit hσ in
/-- The column of row maxima holds each row's maximum. -/
theorem maxCol_apply (r : Fin 8192) (u : Fin 1) : maxCol xb (ix2 r u) = vMax (fun c => xb (ix2 r c)) := by
  unfold maxCol
  exact rowMax_col_apply xb _ _ _ _ _ r u

omit hσ in
/-- The log-sum-exp column holds each row's log-sum-exp about its maximum. -/
theorem lseCol_apply (r : Fin 8192) (u : Fin 1) : lseCol xb (ix2 r u) = vLse (fun c => xb (ix2 r c)) := by
  unfold lseCol
  rw [log_apply]
  refine (congrArg Ideal.log (rowSum_col_apply _ _ _ _ _ _ r u)).trans ?_
  unfold vLse
  refine congrArg Ideal.log (Finset.sum_congr rfl fun k _ => ?_)
  rw [exp_apply, subf_apply, broadcastTo_a1_ab_apply, maxCol_apply]

/-- The row's sum against the mask is the logit at the target. -/
theorem tgtCol_apply (r : Fin 8192) (u : Fin 1) : tgtCol xb tb (ix2 r u) = xb (ix2 r (σ r)) := by
  unfold tgtCol
  refine (rowSum_col_apply _ _ _ _ _ _ r u).trans ?_
  have hterm : ∀ k : Fin 100,
      select (mask tb) xb (broadcast S8192x100 (Scalar.ofBits (F := Ideal) .f32 0x00000000#32)) (ix2 r k)
        = if k = σ r then xb (ix2 r k) else 0 := fun k => by
    rw [select_apply, mask_apply tb σ hσ, select_ite, broadcast_apply]
    show (if k = σ r then xb (ix2 r k) else Ideal.ofBits .f32 0x00000000#32) = _
    rw [Ideal.ofBits_zero_f32]
  rw [Finset.sum_congr rfl fun k _ => hterm k, Finset.sum_ite_eq' Finset.univ (σ r) fun k => xb (ix2 r k),
    if_pos (Finset.mem_univ _)]

/-- The probability column holds the target's probability. -/
theorem ptCol_apply (r : Fin 8192) (u : Fin 1) : ptCol xb tb (ix2 r u) = vPt (fun c => xb (ix2 r c)) (σ r) := by
  unfold ptCol
  show Ideal.exp ((tgtCol xb tb (ix2 r u) - maxCol xb (ix2 r u)) - lseCol xb (ix2 r u)) = _
  rw [tgtCol_apply xb tb σ hσ, maxCol_apply, lseCol_apply]
  rfl

/-- The loss column holds the row's loss term. -/
theorem neglCol_apply (r : Fin 8192) (u : Fin 1) : neglCol xb tb (ix2 r u) = vNegl (fun c => xb (ix2 r c)) (σ r) := by
  unfold neglCol
  show Ideal.ofBits .f32 0x00000000#32 - Ideal.log (ptCol xb tb (ix2 r u) + Ideal.ofBits .f32 0x358637BD#32) = _
  rw [Ideal.ofBits_zero_f32, zero_sub, ptCol_apply xb tb σ hσ]
  rfl

end Entries

/-! ## Four columns side by side, read at a column -/

/-- Off the concatenated axis the piece's index (r, 0) and the result's index (r, k) have the same coordinate. -/
theorem col_hi (r : Fin 8192) (k : Fin 4) (b : Fin S8192x1.rank)
    (hb : b.cast (rfl : S8192x1.rank = S8192x4.rank) ≠ (1 : Fin S8192x4.rank)) :
    ((ix2 r (0 : Fin 1) : S8192x1.Idx) b).val = ((ix2 r k : S8192x4.Idx) (b.cast rfl)).val := by
  match b with
  | ⟨0, _⟩ => rfl
  | ⟨1, _⟩ => exact absurd (Fin.ext rfl) hb

section Concat
variable {α : Type} (x0 x1 x2 x3 : S8192x1.Idx → α)
  (h : Shape.Concatenates [S8192x1, S8192x1, S8192x1, S8192x1] S8192x4 1) (r : Fin 8192)

/-- Column 0 of the four columns side by side is the first. -/
theorem concat4_apply_0 :
    concatenate S8192x4 1 [⟨S8192x1, x0⟩, ⟨S8192x1, x1⟩, ⟨S8192x1, x2⟩, ⟨S8192x1, x3⟩] h (ix2 r (0 : Fin 4))
      = x0 (ix2 r (0 : Fin 1)) :=
  concatenate_apply_piece (1 : Fin S8192x4.rank) [⟨S8192x1, x0⟩, ⟨S8192x1, x1⟩, ⟨S8192x1, x2⟩, ⟨S8192x1, x3⟩] h
    (ix2 r (0 : Fin 4)) 0 (by simp) S8192x1 x0 rfl rfl 0 (by first | rfl | simp)
    (ix2 r (0 : Fin 1)) (col_hi r 0) rfl

/-- Column 1 is the second. -/
theorem concat4_apply_1 :
    concatenate S8192x4 1 [⟨S8192x1, x0⟩, ⟨S8192x1, x1⟩, ⟨S8192x1, x2⟩, ⟨S8192x1, x3⟩] h (ix2 r (1 : Fin 4))
      = x1 (ix2 r (0 : Fin 1)) :=
  concatenate_apply_piece (1 : Fin S8192x4.rank) [⟨S8192x1, x0⟩, ⟨S8192x1, x1⟩, ⟨S8192x1, x2⟩, ⟨S8192x1, x3⟩] h
    (ix2 r (1 : Fin 4)) 1 (by simp) S8192x1 x1 rfl rfl 1 (by first | rfl | simp)
    (ix2 r (0 : Fin 1)) (col_hi r 1) rfl

/-- Column 2 is the third. -/
theorem concat4_apply_2 :
    concatenate S8192x4 1 [⟨S8192x1, x0⟩, ⟨S8192x1, x1⟩, ⟨S8192x1, x2⟩, ⟨S8192x1, x3⟩] h (ix2 r (2 : Fin 4))
      = x2 (ix2 r (0 : Fin 1)) :=
  concatenate_apply_piece (1 : Fin S8192x4.rank) [⟨S8192x1, x0⟩, ⟨S8192x1, x1⟩, ⟨S8192x1, x2⟩, ⟨S8192x1, x3⟩] h
    (ix2 r (2 : Fin 4)) 2 (by simp) S8192x1 x2 rfl rfl 2 (by first | rfl | simp)
    (ix2 r (0 : Fin 1)) (col_hi r 2) rfl

/-- Column 3 is the fourth. -/
theorem concat4_apply_3 :
    concatenate S8192x4 1 [⟨S8192x1, x0⟩, ⟨S8192x1, x1⟩, ⟨S8192x1, x2⟩, ⟨S8192x1, x3⟩] h (ix2 r (3 : Fin 4))
      = x3 (ix2 r (0 : Fin 1)) :=
  concatenate_apply_piece (1 : Fin S8192x4.rank) [⟨S8192x1, x0⟩, ⟨S8192x1, x1⟩, ⟨S8192x1, x2⟩, ⟨S8192x1, x3⟩] h
    (ix2 r (3 : Fin 4)) 3 (by simp) S8192x1 x3 rfl rfl 3 (by first | rfl | simp)
    (ix2 r (0 : Fin 1)) (col_hi r 3) rfl

end Concat

/-- The four columns at (r, k): the k-th per-row quantity of row r at its target. -/
theorem cols_apply (xb : FVec Ideal S8192x100 .f32) (tb : IVec S8192x1 32) (σ : Fin 8192 → Fin 100)
    (hσ : ∀ r : Fin 8192, tb (ix2 r (0 : Fin 1)) = BitVec.ofNat 32 (σ r).val) (r : Fin 8192) (k : Fin 4) :
    cols xb tb (ix2 r k) = vCol k (fun c => xb (ix2 r c)) (σ r) := by
  unfold cols
  match k with
  | 0 => exact (concat4_apply_0 _ _ _ _ _ r).trans rfl
  | 1 => exact (concat4_apply_1 _ _ _ _ _ r).trans (neglCol_apply xb tb σ hσ r 0)
  | 2 => exact (concat4_apply_2 _ _ _ _ _ r).trans (ptCol_apply xb tb σ hσ r 0)
  | 3 =>
    refine (concat4_apply_3 _ _ _ _ _ r).trans ?_
    show ptCol xb tb (ix2 r (0 : Fin 1)) * ptCol xb tb (ix2 r (0 : Fin 1))
      = vPt (fun c => xb (ix2 r c)) (σ r) * vPt (fun c => xb (ix2 r c)) (σ r)
    rw [ptCol_apply xb tb σ hσ]

/-! ## The product contracting the rows -/

/-- The product's dimension numbers: the rows of both operands are contracted. -/
abbrev D : DotDims S8192x4 S8192x100 S4x100 := dot_S8192x4_S8192x100_S4x100_0_0_1_1_n_n

theorem lhs_0 (j : S4x100.Idx) (q : D.contr.Idx) : (D.lhsIdx j q 0 : ℕ) = q ⟨0, by decide⟩ := by
  first
    | exact D.lhsIdx_val_of_single (cl := (0 : Fin S8192x4.rank)) rfl j q
    | (simp [DotDims.lhsIdx, D, dot_S8192x4_S8192x100_S4x100_0_0_1_1_n_n]; done)
    | (simp [DotDims.lhsIdx, D, dot_S8192x4_S8192x100_S4x100_0_0_1_1_n_n]; rfl)
theorem lhs_1 (j : S4x100.Idx) (q : D.contr.Idx) : (D.lhsIdx j q 1 : ℕ) = j 0 := by
  first
    | (simp [DotDims.lhsIdx, D, dot_S8192x4_S8192x100_S4x100_0_0_1_1_n_n]; done)
    | (simp [DotDims.lhsIdx, D, dot_S8192x4_S8192x100_S4x100_0_0_1_1_n_n]; rfl)
theorem rhs_0 (j : S4x100.Idx) (q : D.contr.Idx) : (D.rhsIdx j q 0 : ℕ) = q ⟨0, by decide⟩ := by
  first
    | exact D.rhsIdx_val_of_single (cr := (0 : Fin S8192x100.rank)) rfl j q
    | (simp [DotDims.rhsIdx, D, dot_S8192x4_S8192x100_S4x100_0_0_1_1_n_n]; done)
    | (simp [DotDims.rhsIdx, D, dot_S8192x4_S8192x100_S4x100_0_0_1_1_n_n]; rfl)
theorem rhs_1 (j : S4x100.Idx) (q : D.contr.Idx) : (D.rhsIdx j q 1 : ℕ) = j 1 := by
  first
    | (simp [DotDims.rhsIdx, D, dot_S8192x4_S8192x100_S4x100_0_0_1_1_n_n]; done)
    | (simp [DotDims.rhsIdx, D, dot_S8192x4_S8192x100_S4x100_0_0_1_1_n_n]; rfl)

/-- At result entry (p, n) and contracted row k the left operand is read at (k, p) … -/
theorem lhs_eq (p : Fin 4) (n : Fin 100) (k : Fin 8192) (q : D.contr.Idx) (hq : (q ⟨0, by decide⟩ : ℕ) = k.val) :
    D.lhsIdx (ix2 p n) q = ix2 k p := by
  apply Shape.idx_ext₂
  · exact (lhs_0 _ _).trans hq
  · exact lhs_1 _ _

/-- … and the right operand at (k, n). -/
theorem rhs_eq (p : Fin 4) (n : Fin 100) (k : Fin 8192) (q : D.contr.Idx) (hq : (q ⟨0, by decide⟩ : ℕ) = k.val) :
    D.rhsIdx (ix2 p n) q = ix2 k n := by
  apply Shape.idx_ext₂
  · exact (rhs_0 _ _).trans hq
  · exact rhs_1 _ _

/-! ## The body at an entry -/

/-- The body's value at (0, k, c): the accumulator's entry plus the sum, over the tile's rows whose target is c,
    of the k-th per-row quantity. -/
theorem pay2_apply (xb : Vec Ideal S8192x100 .f32) (tb : Vec Ideal S8192x1 .i32) (acc : Vec Ideal S1x4x100 .f32)
    (σ : Fin 8192 → Fin 100) (hσ : ∀ r : Fin 8192, tb (ix2 r (0 : Fin 1)) = BitVec.ofNat 32 (σ r).val)
    (k : Fin 4) (c : Fin 100) :
    k0_pay2 (F := Ideal) xb tb acc (ix3 (0 : Fin 1) k c)
      = acc (ix3 (0 : Fin 1) k c) + ∑ r : Fin 8192, (if σ r = c then Cert.Awb.vCol k (fun c' => xb (ix2 r c')) (σ r) else 0) := by
  rw [pay2_eq, addf_apply, shapeCast_self, shapeCast_ab_1ab_apply]
  refine congrArg (acc (ix3 (0 : Fin 1) k c) + ·) ?_
  refine (matmul_zero_ix2_prec (M := 4) (N := 100) (K := 8192) dot_S8192x4_S8192x100_S4x100_0_0_1_1_n_n (some .fp32) rfl rfl
    (cols xb tb) (onehot tb) k c (fun r : Fin 8192 => ix2 r k) (fun r : Fin 8192 => ix2 r c) (fun r q hq => lhs_eq k c r q hq) (fun r q hq => rhs_eq k c r q hq)).trans ?_
  refine Finset.sum_congr rfl fun (r : Fin 8192) _ => ?_
  rw [cols_apply xb tb σ hσ, onehot_apply tb σ hσ]
  by_cases h : σ r = c
  · rw [if_pos h, if_pos h.symm, mul_one]
  · rw [if_neg h, if_neg (fun e => h e.symm), mul_zero]

end Cert.KernelIdeal.Rows

end
-- ==== Proof.KAcc.lean ====
/-
  What the grid leaves in the [2, 4, 100] statistics, as sums over the rows.

  Tile n (of 128) is the 8192 rows from 8192 n on. Point t of the grid works on tile t; points 0..63 belong to core 0,
  points 64..127 to core 1. After point t the output block holds the sum, over the tiles of t's core up to t, of the
  tile's four per-class sums; the block is written back after each core's last point, so entry (p, k, c) of the array
  ends at the sum over core p's 64 tiles, that is over 64 x 8192 rows, of column k's value on the rows whose target is c.
-/
import proofs.«414543_j23175643529520_3_alg».proof.Proof.KFrame
import proofs.«414543_j23175643529520_3_alg».proof.Proof.KRows
import proofs.«414543_j23175643529520_3_alg».proof.Proof.AwbSpec
import proofs.«414543_j23175643529520_3_alg».proof.Proof.LibRowReduce
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Acc

open Cert.KernelIdeal Cert.KernelIdeal.Gen Cert.KernelIdeal.Hand Cert.KernelIdeal.Rows Cert.Awb
open Idealize.ShloMosaic Idealize.ShloMosaic.TcCoe Idealize.ShloMosaic.ValueIdx Idealize.SL.Sem
open Idealize.ShloMosaic.Pipeline (Dat)
open scoped BigOperators

/-! ## Each case's stores, read back as the body's arithmetic (any float family) -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later point leaves the body's arithmetic of the two input blocks over what the output buffer held. -/
theorem out_B (c : Dev nD) (i : grid0.Coords) (a2 : Memref sig .tc .vmem S8192x100 .f32) (h2 : a2.IsWhole)
    (a3 : Memref sig .tc .vmem S8192x1 .i32) (h3 : a3.IsWhole) (a4 : Memref sig .tc .vmem S1x4x100 .f32) (h4 : a4.IsWhole)
    (hc : ¬cond0_0 i) (x0 : Vec F S8192x100 .f32) (x1 : Vec F S8192x1 .i32) (xo : Vec F S1x4x100 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S8192x100) hz2,
    View.ld_unit_zero (S := S8192x1) hz2, View.ld_unit_zero (S := S1x4x100) hz3]

/-- A core's first point resets the buffer to the zero block, reads it back, and leaves the body's arithmetic over it. -/
theorem out_A (c : Dev nD) (i : grid0.Coords) (a2 : Memref sig .tc .vmem S8192x100 .f32) (h2 : a2.IsWhole)
    (a3 : Memref sig .tc .vmem S8192x1 .i32) (h3 : a3.IsWhole) (a4 : Memref sig .tc .vmem S1x4x100 .f32) (h4 : a4.IsWhole)
    (hc : cond0_0 i) (x0 : Vec F S8192x100 .f32) (x1 : Vec F S8192x1 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x4x100) hz3, View.readCov_unit_zero (S := S1x4x100) _ hz3]
  simp only [View.readAt_eq_ld, h2.read_unread, h3.read_unread, View.ld_unit_zero (S := S8192x100) hz2,
    View.ld_unit_zero (S := S8192x1) hz2, View.ld_unit_zero (S := S1x4x100) hz3, View.readCov_unit_zero (S := S1x4x100) _ hz3]

end Pieces

/-! ## Over the extended reals: blocks, the running sum, the array -/

section Ideal

variable (m : (ℓ : Loc nD τ sig) → Buf (Elt Ideal) ℓ) (c : Dev nD)

/-- The logits and the targets as launched, on core c. -/
abbrev xarr : FVec Ideal SX .f32 := m ((c : Thread nD τ).loc main_arg0)
abbrev tarr : IVec ST 32 := m ((c : Thread nD τ).loc main_arg1)

/-- Row r of tile n is row 8192 n + r of the array. -/
abbrev rowIx (n : Fin 128) (r : Fin 8192) : Fin 1048576 := ⟨n.val * 8192 + r.val, by have := n.isLt; have := r.isLt; omega⟩

/-- A point of the grid as a tile number. -/
abbrev tileOf (t : Fin cfg0.N) : Fin 128 := ⟨t.val, lt_of_lt_of_eq t.isLt (show cfg0.N = 128 from N_0)⟩

/-- Where each window's block sits at point t: the logits' and the targets' at tile t, the statistics' at core t / 64. -/
theorem idx_facts : ∀ t : Fin cfg0.N, win0_0.index t 0 = t.val ∧ win0_0.index t 1 = 0 ∧ win0_1.index t 0 = t.val ∧ win0_1.index t 1 = 0
    ∧ win0_2.index t 0 = t.val / 64 ∧ win0_2.index t 1 = 0 ∧ win0_2.index t 2 = 0 :=
  (by decide +kernel : ∀ t : Fin grid0.N, win0_0.index t 0 = t.val ∧ win0_0.index t 1 = 0 ∧ win0_1.index t 0 = t.val ∧ win0_1.index t 1 = 0
    ∧ win0_2.index t 0 = t.val / 64 ∧ win0_2.index t 1 = 0 ∧ win0_2.index t 2 = 0)

/-- The logits' block at point t, read at (r, c'): the array's row 8192 t + r. -/
theorem iblk0_apply (t : Fin cfg0.N) (r : Fin 8192) (c' : Fin 100) :
    (iblk m c 0 t : Vec Ideal S8192x100 .f32) (ix2 r c') = xarr m c (ix2 (rowIx (tileOf t) r) c') := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 8192 + 1 * r.val = t.val * 8192 + r.val; rw [(idx_facts t).1]; omega
  | ⟨1, _⟩ => show win0_0.index t 1 * 100 + 1 * c'.val = c'.val; rw [(idx_facts t).2.1]; omega

/-- The targets as a column: the line before the grid is a reshape of the targets. -/
theorem V_main_v0 : (V m c main_v0 : IVec S1048576x1 32) = shapeCast S1048576x1 (tarr m c) shapeCasts_S1048576_S1048576x1 := by
  dsimp only [V, V0]; simp only [List.flatten_cons, List.flatten_nil, List.append_nil]; after_results; rfl

/-- The targets' block at point t, read at (r, 0): the target of row 8192 t + r. -/
theorem iblk1_apply (t : Fin cfg0.N) (r : Fin 8192) :
    (iblk m c 1 t : Vec Ideal S8192x1 .i32) (ix2 r (0 : Fin 1)) = tarr m c (ix1 (rowIx (tileOf t) r)) := by
  unfold iblk
  rw [View.read_apply]
  show V m c main_v0 _ = _
  rw [V_main_v0]
  refine (congrArg (shapeCast S1048576x1 (tarr m c) shapeCasts_S1048576_S1048576x1)
    (?_ : _ = (ix2 (rowIx (tileOf t) r) (0 : Fin 1) : S1048576x1.Idx))).trans (Cert.LibRowReduce.shapeCast_a_a1_apply _ _ _ _)
  funext a
  apply Fin.ext
  match a with
  | ⟨0, _⟩ => show win0_1.index t 0 * 8192 + 1 * r.val = t.val * 8192 + r.val; rw [(idx_facts t).2.2.1]; omega
  | ⟨1, _⟩ => show win0_1.index t 1 * 1 + 1 * 0 = 0; rw [(idx_facts t).2.2.2.1]

variable (τ' : Fin 1048576 → Fin 100)

/-- Tile n's sum of column k over its rows whose target is class cc. -/
def tileSum (n : Fin 128) (k : Fin 4) (cc : Fin 100) : EReal :=
  ∑ r : Fin 8192, if τ' (rowIx n r) = cc then vCol k (rowOf (xarr m c) (rowIx n r)) (τ' (rowIx n r)) else 0

/-- The same over the naturals, zero past the last tile. -/
def tileSumN (s : ℕ) (k : Fin 4) (cc : Fin 100) : EReal := if h : s < 128 then tileSum m c τ' ⟨s, h⟩ k cc else 0

variable (hτ : Decodes (tarr m c) τ')
include hτ

/-- The body's arithmetic on point t's blocks over an accumulator: the accumulator plus tile t's sums. -/
theorem pay_at (t : Fin cfg0.N) (acc : Vec Ideal S1x4x100 .f32) (k : Fin 4) (cc : Fin 100) :
    k0_pay2 (F := Ideal) (iblk m c 0 t) (iblk m c 1 t) acc (ix3 (0 : Fin 1) k cc) = acc (ix3 (0 : Fin 1) k cc) + tileSum m c τ' (tileOf t) k cc := by
  rw [pay2_apply (iblk m c 0 t) (iblk m c 1 t) acc (fun r => τ' (rowIx (tileOf t) r)) (fun r => (iblk1_apply m c t r).trans (hτ _)) k cc]
  refine congrArg (fun s => acc (ix3 (0 : Fin 1) k cc) + s) ?_
  unfold tileSum
  refine Finset.sum_congr rfl fun r _ => ?_
  have e : (fun c' : Fin 100 => (iblk m c 0 t : Vec Ideal S8192x100 .f32) (ix2 r c')) = rowOf (xarr m c) (rowIx (tileOf t) r) :=
    funext fun c' => iblk0_apply m c t r c'
  rw [e]

/-- After point n the output block holds the sum of the tiles of n's core up to n. -/
theorem outsAt_eq : ∀ (n : ℕ) (h : n < cfg0.N) (k : Fin 4) (cc : Fin 100),
    outsAt0 m c n h (ix3 (0 : Fin 1) k cc) = ∑ s ∈ Finset.Icc (64 * (n / 64)) n, tileSumN m c τ' s k cc
  | 0, h, k, cc => by
    rw [outsAt0_A m c ⟨0, h⟩ rfl, out_A, pay_at m c τ' hτ ⟨0, h⟩, pay1_apply, zero_add]
    simp [tileSumN, tileOf]
  | n + 1, h, k, cc => by
    have hN : cfg0.N = 128 := N_0
    by_cases h0 : (n + 1) % 64 = 0
    · rw [outsAt0_A m c ⟨n + 1, h⟩ h0, out_A, pay_at m c τ' hτ ⟨n + 1, h⟩, pay1_apply, zero_add]
      have e : 64 * ((n + 1) / 64) = n + 1 := by omega
      rw [e, Finset.Icc_self, Finset.sum_singleton]
      have : n + 1 < 128 := by omega
      simp [tileSumN, tileOf, this]
    · rw [outsAt0_B m c ⟨n + 1, h⟩ h0, out_B, pay_at m c τ' hτ ⟨n + 1, h⟩]
      show outsAt0 m c n _ (ix3 (0 : Fin 1) k cc) + _ = _
      rw [outsAt_eq n (Nat.lt_of_succ_lt h) k cc]
      have e : 64 * ((n + 1) / 64) = 64 * (n / 64) := by omega
      have hle : 64 * (n / 64) ≤ n + 1 := by omega
      rw [e, Finset.sum_Icc_succ_top hle]
      have : n + 1 < 128 := by omega
      simp [tileSumN, tileOf, this]

omit hτ in
/-- The naturals from 64 p to 64 p + 63 are core p's 64 tiles. -/
theorem sum_core (p : ℕ) (f : ℕ → EReal) :
    ∑ s ∈ Finset.Icc (64 * p) (64 * p + 63), f s = ∑ q : Fin 64, f (p * 64 + q.val) := by
  have e : Finset.Icc (64 * p) (64 * p + 63) = Finset.Ico (64 * p) (64 * p + 64) := by
    ext s; simp only [Finset.mem_Icc, Finset.mem_Ico]; omega
  rw [e, Finset.sum_Ico_eq_sum_range, show 64 * p + 64 - 64 * p = 64 by omega, Finset.sum_range]
  refine Finset.sum_congr rfl fun q _ => ?_
  rw [Nat.mul_comm 64 p]

omit hτ in
/-- Entry (p, k, cc) of the statistics: the sum over core p's 64 tiles. -/
def Gfun (p : Fin 2) (k : Fin 4) (cc : Fin 100) : EReal := ∑ q : Fin 64, tileSumN m c τ' (p.val * 64 + q.val) k cc
omit hτ in
/-- The statistics the grid leaves. -/
def G : FVec Ideal S2x4x100 .f32 := fun j => Gfun m c τ' (j 0) (j 1) (j 2)

omit hτ in
/-- The output window is never clipped: its block at every point has the full extents. -/
theorem xsize_facts : ∀ t : Fin cfg0.N, win0_2.xsize (grid0.coords t) 0 = 1 ∧ win0_2.xsize (grid0.coords t) 1 = 4 ∧ win0_2.xsize (grid0.coords t) 2 = 100 :=
  (by decide +kernel : ∀ t : Fin grid0.N, win0_2.xsize (grid0.coords t) 0 = 1 ∧ win0_2.xsize (grid0.coords t) 1 = 4 ∧ win0_2.xsize (grid0.coords t) 2 = 100)

/-- What a core's last point writes back is that core's block of the statistics. -/
theorem flushed_eq (t : Fin cfg0.N) (hf : (cfg0.win 2).flush t = true) :
    (dats m 0 c).flushed 2 t = ((cfg0.win 2).blk t).view.read (Elt Ideal) (G m c τ') := by
  have hN : cfg0.N = 128 := N_0
  have h63 : t.val % 64 = 63 := (flush0_2 t).mp hf
  have hlt : t.val < 128 := lt_of_lt_of_eq t.isLt hN
  show (cfg0.win 2).cut (grid0.coords t) ((dats m 0 c).after 2 t) = _
  rw [after0_2]
  funext (y : S1x4x100.Idx)
  rw [View.read_apply]
  obtain ⟨a, k, cc, rfl⟩ : ∃ (a : Fin 1) (k : Fin 4) (cc : Fin 100), y = ix3 a k cc := ⟨y 0, y 1, y 2, eq_ix3 y⟩
  obtain rfl : a = 0 := Subsingleton.elim _ _
  have e : (((cfg0.win 2).blk t).view.emb (ix3 (0 : Fin 1) k cc)) = (ix3 (⟨t.val / 64, by omega⟩ : Fin 2) k cc : S2x4x100.Idx) := by
    funext a
    apply Fin.ext
    match a with
    | ⟨0, _⟩ => show win0_2.index t 0 * 1 + 1 * 0 = t.val / 64; rw [(idx_facts t).2.2.2.2.1]; omega
    | ⟨1, _⟩ => show win0_2.index t 1 * 4 + 1 * k.val = k.val; rw [(idx_facts t).2.2.2.2.2.1]; omega
    | ⟨2, _⟩ => show win0_2.index t 2 * 100 + 1 * cc.val = cc.val; rw [(idx_facts t).2.2.2.2.2.2]; omega
  rw [e]
  show outsAt0 m c t.val t.isLt (ix3 (0 : Fin 1) k cc) = Gfun m c τ' ⟨t.val / 64, _⟩ k cc
  rw [outsAt_eq m c τ' hτ t.val t.isLt k cc]
  unfold Gfun
  have eI : Finset.Icc (64 * (t.val / 64)) t.val = Finset.Icc (64 * (t.val / 64)) (64 * (t.val / 64) + 63) := by
    congr 1; omega
  rw [eI]
  exact sum_core (t.val / 64) _

/-- So the statistics end at the sums over each core's tiles. -/
theorem final_stats : (dats m 0 c).arrAt 2 cfg0.N = G m c τ' :=
  (dats m 0 c).arrAt_eq_of_cover 2 (G m c τ') (flushed_eq m c τ' hτ) fun i => by
    have hN : cfg0.N = 128 := N_0
    have h0 : (i 0 : ℕ) < 2 := (i 0).isLt
    have h1 : (i 1 : ℕ) < 4 := (i 1).isLt
    have h2 : (i 2 : ℕ) < 100 := (i 2).isLt
    have ht : (i 0 : ℕ) * 64 + 63 < cfg0.N := by rw [hN]; omega
    refine ⟨⟨(i 0 : ℕ) * 64 + 63, ht⟩, (flush0_2 _).mpr (by show ((i 0 : ℕ) * 64 + 63) % 64 = 63; omega), ?_⟩
    show i ∈ ((View.whole main_v1).slice (win0_2.rect ⟨(i 0 : ℕ) * 64 + 63, ht⟩)).set
    rw [View.set_slice_whole, Rect.mem_set_unit]
    intro a
    have hi := idx_facts ⟨(i 0 : ℕ) * 64 + 63, ht⟩
    have hx := xsize_facts ⟨(i 0 : ℕ) * 64 + 63, ht⟩
    match a with
    | ⟨0, _⟩ =>
      show win0_2.index ⟨(i 0 : ℕ) * 64 + 63, ht⟩ 0 * win0_2.size 0 ≤ (i 0 : ℕ) ∧ (i 0 : ℕ) < win0_2.index ⟨(i 0 : ℕ) * 64 + 63, ht⟩ 0 * win0_2.size 0 + win0_2.xsize (grid0.coords ⟨(i 0 : ℕ) * 64 + 63, ht⟩) 0
      rw [hi.2.2.2.2.1, hx.1, show win0_2.size 0 = 1 from rfl]; dsimp only; omega
    | ⟨1, _⟩ =>
      show win0_2.index ⟨(i 0 : ℕ) * 64 + 63, ht⟩ 1 * win0_2.size 1 ≤ (i 1 : ℕ) ∧ (i 1 : ℕ) < win0_2.index ⟨(i 0 : ℕ) * 64 + 63, ht⟩ 1 * win0_2.size 1 + win0_2.xsize (grid0.coords ⟨(i 0 : ℕ) * 64 + 63, ht⟩) 1
      rw [hi.2.2.2.2.2.1, hx.2.1]; omega
    | ⟨2, _⟩ =>
      show win0_2.index ⟨(i 0 : ℕ) * 64 + 63, ht⟩ 2 * win0_2.size 2 ≤ (i 2 : ℕ) ∧ (i 2 : ℕ) < win0_2.index ⟨(i 0 : ℕ) * 64 + 63, ht⟩ 2 * win0_2.size 2 + win0_2.xsize (grid0.coords ⟨(i 0 : ℕ) * 64 + 63, ht⟩) 2
      rw [hi.2.2.2.2.2.2, hx.2.2]; omega

end Ideal

end Cert.KernelIdeal.Acc

end
-- ==== Proof.AwbTail.lean ====
/-
  The part both programs share after the four per-class vectors are known.

  From the class counts cnt and the per-class sums snl (of the loss term), sp (of the probability) and sp2 (of its
  square), all of length one hundred:
    Alpha   = where(cnt > 0, log(max_c cnt / where(cnt > 0, cnt, 1)) + 1, 0)
    mean(s) = where(cnt > 0, s / max(cnt, 1), 1)
    loss1   = (sum_c mean(snl)_c * Alpha_c) / 100
    p_avg   = mean(sp)
    var     = (sp2 - cnt * p_avg * p_avg) / max(cnt - 1, 1)
    p_std   = where(cnt > 1, sqrt(max(where(cnt > 1, var, 1), 0)), 0)
    l2c     = (p_std / p_avg) * softmax(Alpha)
  One program ends with loss1 + (sum_c l2c_c * cnt_c) / 1048576, the other with loss1 + (sum_i g_i) / 1048576 for a
  length-1048576 vector g. The definitions are stated for any float family and spell the operations one by one; the
  three closing lemmas read the two results at the extended reals.
-/
import Idealize.ShloMosaic.PureOps
import Idealize.ShloMosaic.PureOps.Ideal
import Idealize.ShloMosaic.PureOps.Ideal.Laws
import Idealize.ShloMosaic.Lib.ValueIdx
import proofs.«414543_j23175643529520_3_alg».proof.Proof.AwbSpec

noncomputable section

namespace Cert.Awb

open Idealize.ShloMosaic Idealize.ShloMosaic.ValueIdx
open scoped BigOperators

variable {F : FTy → Type} [FloatOps F]

/-! ## Shape facts -/

/-- The one-entry vector shape a scalar passes through on its way to a length-100 vector. -/
abbrev S1v : Shape := ⟨1, ![1]⟩

theorem bc_S_S100 : S_.BroadcastsInDim S100 (![] : Fin 0 → Fin S100.rank) := by decide
theorem bc_S_S1 : S_.BroadcastsInDim S1v (![] : Fin 0 → Fin S1v.rank) := by decide
theorem bc_S1_S100 : S1v.BroadcastsInDim S100 (![0] : Fin 1 → Fin S100.rank) := by decide
theorem red_S100 : S100.ReducesTo [0] S_ := by decide
theorem red_ST : ST.ReducesTo [0] S_ := by decide
theorem pos_S_ : 0 < S_.numel := by decide

/-! ## The shared operations -/

/-- A scalar word as a rank-zero value. -/
def kW (b : BitVec 32) : FVec F S_ .f32 := constant S_ .f32 b

/-- A scalar spread over the hundred classes. -/
def splat (s : FVec F S_ .f32) : FVec F S100 .f32 := broadcastInDim S100 ![] bc_S_S100 s

/-- where(c, a, s) with a scalar third operand: the scalar is converted (an identity), spread, and selected. -/
def whereS (c : IVec S100 1) (a : FVec F S100 .f32) (s : FVec F S_ .f32) : FVec F S100 .f32 :=
  select c a (broadcastInDim S100 ![] bc_S_S100 (id s))

/-- cnt > the scalar word b, classwise. -/
def gtW (cnt : FVec F S100 .f32) (b : BitVec 32) : IVec S100 1 :=
  cmpf (F := F) .ogt cnt (splat (kW b))

/-- A scalar spread through a one-entry vector to the hundred classes. -/
def splat2 (s : FVec F S_ .f32) : FVec F S100 .f32 :=
  broadcastInDim S100 ![0] bc_S1_S100 (broadcastInDim S1v ![] bc_S_S1 s)

/-- The largest entry, folded from minus infinity. -/
def vmax (v : FVec F S100 .f32) : FVec F S_ .f32 :=
  Host.reduce (FloatOps.maximumf (F := F) (φ := .f32)) v (kW 0xFF800000#32) red_S100 pos_S_

/-- The sum of the entries from zero. -/
def vsum (v : FVec F S100 .f32) : FVec F S_ .f32 :=
  Host.reduceAdd v (kW 0x00000000#32) red_S100 pos_S_

/-- Alpha = where(cnt > 0, log(max cnt / where(cnt > 0, cnt, 1)) + 1, 0). -/
def alphaOf (cnt : FVec F S100 .f32) : FVec F S100 .f32 :=
  whereS (gtW cnt 0x00000000#32)
    (addf (Host.log (Host.divf (splat (vmax cnt)) (whereS (gtW cnt 0x00000000#32) cnt (kW 0x3F800000#32))))
      (splat (kW 0x3F800000#32)))
    (kW 0x00000000#32)

/-- mean(s) = where(cnt > 0, s / max(cnt, 1), 1). -/
def meanOf (cnt s : FVec F S100 .f32) : FVec F S100 .f32 :=
  whereS (gtW cnt 0x00000000#32) (Host.divf s (maximumf cnt (splat (kW 0x3F800000#32)))) (kW 0x3F800000#32)

/-- loss1 = (sum_c mean(snl)_c * Alpha_c) / 100. -/
def loss1Of (cnt snl : FVec F S100 .f32) : FVec F S_ .f32 :=
  Host.divf (vsum (mulf (meanOf cnt snl) (alphaOf cnt))) (kW 0x42C80000#32)

/-- var = (sp2 - cnt * p_avg * p_avg) / max(cnt - 1, 1). -/
def varOf (cnt sp sp2 : FVec F S100 .f32) : FVec F S100 .f32 :=
  Host.divf (subf sp2 (mulf (mulf cnt (meanOf cnt sp)) (meanOf cnt sp)))
    (maximumf (subf cnt (splat (kW 0x3F800000#32))) (splat (kW 0x3F800000#32)))

/-- p_std = where(cnt > 1, sqrt(max(where(cnt > 1, var, 1), 0)), 0). -/
def pstdOf (cnt sp sp2 : FVec F S100 .f32) : FVec F S100 .f32 :=
  whereS (gtW cnt 0x3F800000#32)
    (Host.sqrt (maximumf (whereS (gtW cnt 0x3F800000#32) (varOf cnt sp sp2) (kW 0x3F800000#32)) (splat (kW 0x00000000#32))))
    (kW 0x00000000#32)

/-- The shifted exponentials of a vector: exp(v - max(-inf, max v)). -/
def expShift (v : FVec F S100 .f32) : FVec F S100 .f32 :=
  Host.exp (subf v (splat2 (maximumf (kW 0xFF800000#32) (vmax v))))

/-- softmax(v) = exp(v - max) / sum exp(v - max). -/
def softmaxOf (v : FVec F S100 .f32) : FVec F S100 .f32 :=
  Host.divf (expShift v) (splat2 (vsum (expShift v)))

/-- l2c = (p_std / p_avg) * softmax(Alpha). -/
def l2cOf (cnt sp sp2 : FVec F S100 .f32) : FVec F S100 .f32 :=
  mulf (Host.divf (pstdOf cnt sp sp2) (meanOf cnt sp)) (softmaxOf (alphaOf cnt))

/-- One program's result: loss1 + (sum_c l2c_c * cnt_c) / 1048576. -/
def kernelOut (cnt snl sp sp2 : FVec F S100 .f32) : FVec F S_ .f32 :=
  addf (loss1Of cnt snl)
    (Host.divf (Host.reduceAdd (mulf (l2cOf cnt sp sp2) cnt) (constant S_ .f32 0x00000000#32) red_S100 pos_S_)
      (constant S_ .f32 0x49800000#32))

/-- The other program's result: loss1 + (sum_i g_i) / 1048576. -/
def refOut (cnt snl : FVec F S100 .f32) (g : FVec F ST .f32) : FVec F S_ .f32 :=
  addf (loss1Of cnt snl)
    (Host.divf (Host.reduceAdd g (constant S_ .f32 0x00000000#32) red_ST pos_S_)
      (constant S_ .f32 0x49800000#32))

/-! ## The two results at the extended reals -/

/-- A rank-one index set is its one coordinate's range … -/
def idxEquiv1 (n : Nat) : Fin n ≃ (⟨1, ![n]⟩ : Shape).Idx where
  toFun := ix1
  invFun j := j 0
  left_inv _ := rfl
  right_inv j := (eq_ix1 j).symm

/-- … so a sum over it is the sum over the coordinate. -/
theorem sum_idx1 {M : Type*} [AddCommMonoid M] {n : Nat} (f : (⟨1, ![n]⟩ : Shape).Idx → M) :
    ∑ j, f j = ∑ c : Fin n, f (ix1 c) :=
  ((idxEquiv1 n).sum_comp f).symm

/-- A sum of a rank-one vector into the scalar shape, at the extended reals: the initial value plus the entries' sum. -/
theorem hostSum_rank1 {n : Nat} (h : (⟨1, ![n]⟩ : Shape).ReducesTo [0] S_) (x : FVec Ideal ⟨1, ![n]⟩ .f32) (b : BitVec 32) :
    Host.reduceAdd (F := Ideal) x (constant (F := Ideal) S_ .f32 b) h pos_S_ ix0
      = Ideal.ofBits .f32 b + ∑ c : Fin n, x (ix1 c) := by
  refine (Ideal.hostReduceAdd_total h (fun b => b.elim0) x (Ideal.ofBits .f32 b) ix0).trans ?_
  rw [sum_idx1]

theorem kernelOut_ideal (cnt snl sp sp2 : FVec Ideal S100 .f32) :
    kernelOut cnt snl sp sp2 ix0
      = loss1Of cnt snl ix0
        + Ideal.div (Ideal.ofBits .f32 0x00000000#32 + ∑ c : Fin 100, l2cOf cnt sp sp2 (ix1 c) * cnt (ix1 c))
            (Ideal.ofBits .f32 0x49800000#32) := by
  show loss1Of cnt snl ix0
      + Ideal.div (Host.reduceAdd (F := Ideal) (mulf (l2cOf cnt sp sp2) cnt) (constant (F := Ideal) S_ .f32 0x00000000#32) red_S100 pos_S_ ix0)
          (Ideal.ofBits .f32 0x49800000#32) = _
  rw [hostSum_rank1]
  rfl

theorem refOut_ideal (cnt snl : FVec Ideal S100 .f32) (g : FVec Ideal ST .f32) :
    refOut cnt snl g ix0
      = loss1Of cnt snl ix0
        + Ideal.div (Ideal.ofBits .f32 0x00000000#32 + ∑ i : Fin 1048576, g (ix1 i)) (Ideal.ofBits .f32 0x49800000#32) := by
  show loss1Of cnt snl ix0
      + Ideal.div (Host.reduceAdd (F := Ideal) g (constant (F := Ideal) S_ .f32 0x00000000#32) red_ST pos_S_ ix0)
          (Ideal.ofBits .f32 0x49800000#32) = _
  rw [hostSum_rank1]

end Cert.Awb

end
-- ==== Proof.KTail.lean ====
/-
  The host operations that follow the launched region, read as the shared tail.

  The region leaves a [2, 4, 100] array of statistics (two partial sums of the four per-class vectors). The host
  operations add the two partial sums, cut the [4, 100] result into its four rows (the class counts, the per-class
  sums of the loss term, of the probability and of its square) and apply the shared tail to them: the last operation's
  result is that tail at the four rows. At the extended reals a row's entry is the two partial sums' entries added.
-/
import proofs.«414543_j23175643529520_3_alg».proof.Proof.Gen.KernelIdeal.Launch
import proofs.«414543_j23175643529520_3_alg».proof.Proof.AwbTail
import Idealize.ShloMosaic.Lib.StableHlo.Run
import Idealize.ShloMosaic.Lib.ValueLayout

noncomputable section

namespace Cert.KernelIdeal.Tail

open Cert.KernelIdeal Cert.KernelIdeal.Gen Cert.Awb
open Idealize.ShloMosaic Idealize.ShloMosaic.TcCoe Idealize.ShloMosaic.ValueIdx Idealize.SL.Sem
open scoped BigOperators

variable {F : FTy → Type} [FloatOps F]

/-- The two partial sums added: the [4, 100] array of per-class statistics. -/
def stat4 (stats : FVec F S2x4x100 .f32) : FVec F S4x100 .f32 :=
  Host.reduceAdd stats (constant S_ .f32 0x00000000#32) Gen.reducesTo_S2x4x100_S4x100_d0 Gen.h_S_

/-- Row k of the statistics as a length-100 vector: the [1, 100] slice at row k, cast to [100]. -/
def statRow (k : Fin 4) (stats : FVec F S2x4x100 .f32) : FVec F S100 .f32 :=
  match k with
  | 0 => shapeCast S100 (extractStridedSlice S1x100 ![0, 0] (stat4 stats) Gen.slices_S4x100_S1x100_0_0) Gen.shapeCasts_S1x100_S100
  | 1 => shapeCast S100 (extractStridedSlice S1x100 ![1, 0] (stat4 stats) Gen.slices_S4x100_S1x100_1_0) Gen.shapeCasts_S1x100_S100
  | 2 => shapeCast S100 (extractStridedSlice S1x100 ![2, 0] (stat4 stats) Gen.slices_S4x100_S1x100_2_0) Gen.shapeCasts_S1x100_S100
  | 3 => shapeCast S100 (extractStridedSlice S1x100 ![3, 0] (stat4 stats) Gen.slices_S4x100_S1x100_3_0) Gen.shapeCasts_S1x100_S100

set_option maxHeartbeats 1000000 in
/-- The last host operation's result is the shared tail at the four rows of the statistics. -/
theorem tail_result (W : Valuation τ sig (Elt F)) :
    (StableHlo.after (List.flatten [hostOps1, hostOps1_1, hostOps1_2, hostOps1_3, hostOps1_4, hostOps1_5, hostOps1_6, hostOps1_7,
        hostOps1_8, hostOps1_9, hostOps1_10, hostOps1_11, hostOps1_12]) W (Proc.devRef .tc main_v70) : FVec F S_ .f32)
      = kernelOut (statRow 0 (W (Proc.devRef .tc main_v1))) (statRow 1 (W (Proc.devRef .tc main_v1)))
          (statRow 2 (W (Proc.devRef .tc main_v1))) (statRow 3 (W (Proc.devRef .tc main_v1))) := by
  simp only [List.flatten_cons, List.flatten_nil, List.append_nil, List.cons_append, List.nil_append]
  after_results_simp
  (try simp only [StableHlo.TRef.ofBuf, StableHlo.TRef.toBuf, cast_eq])
  rfl

/-- Over entry (k, c) of the [4, 100] sum, the source entry with coordinate d on the summed axis is (d, k, c). -/
theorem lift_stat (h : S2x4x100.Reduces [0] S4x100) (k : Fin 4) (c : Fin 100) (d : Fin 2) :
    h.lift (ix2 k c) d = ix3 d k c := by
  funext a
  match a with
  | ⟨0, _⟩ => exact Fin.ext rfl
  | ⟨1, _⟩ => exact Fin.ext rfl
  | ⟨2, _⟩ => exact Fin.ext rfl

/-- The [4, 100] sum at the extended reals: zero's word plus the two partial sums' entries. -/
theorem stat4_ideal (stats : FVec Ideal S2x4x100 .f32) (k : Fin 4) (c : Fin 100) :
    stat4 stats (ix2 k c)
      = Ideal.ofBits .f32 0x00000000#32 + (stats (ix3 (0 : Fin 2) k c) + stats (ix3 (1 : Fin 2) k c)) := by
  have h : S2x4x100.Reduces [0] S4x100 := by decide
  refine (Ideal.hostReduceAdd_single Gen.reducesTo_S2x4x100_S4x100_d0 h stats (Ideal.ofBits .f32 0x00000000#32) (ix2 k c)).trans ?_
  refine congrArg (fun z => Ideal.ofBits .f32 0x00000000#32 + z) ?_
  show ∑ d : Fin 2, stats (h.lift (ix2 k c) d) = _
  rw [Fin.sum_univ_two, lift_stat, lift_stat]

/-- A row's entry at the extended reals. -/
theorem statRow_ideal (k : Fin 4) (stats : FVec Ideal S2x4x100 .f32) (c : Fin 100) :
    statRow k stats (ix1 c)
      = Ideal.ofBits .f32 0x00000000#32 + (stats (ix3 (0 : Fin 2) k c) + stats (ix3 (1 : Fin 2) k c)) := by
  match k with
  | 0 =>
    show shapeCast ⟨1, ![100]⟩ (extractStridedSlice ⟨2, ![1, 100]⟩ ![0, 0] (stat4 stats) Gen.slices_S4x100_S1x100_0_0) Gen.shapeCasts_S1x100_S100 (ix1 c) = _
    rw [shapeCast_1a_a_apply, slice2_axis0_apply 0 (stat4 stats) _ (0 : Fin 1) c (0 : Fin 4) rfl]
    exact stat4_ideal stats 0 c
  | 1 =>
    show shapeCast ⟨1, ![100]⟩ (extractStridedSlice ⟨2, ![1, 100]⟩ ![1, 0] (stat4 stats) Gen.slices_S4x100_S1x100_1_0) Gen.shapeCasts_S1x100_S100 (ix1 c) = _
    rw [shapeCast_1a_a_apply, slice2_axis0_apply 1 (stat4 stats) _ (0 : Fin 1) c (1 : Fin 4) rfl]
    exact stat4_ideal stats 1 c
  | 2 =>
    show shapeCast ⟨1, ![100]⟩ (extractStridedSlice ⟨2, ![1, 100]⟩ ![2, 0] (stat4 stats) Gen.slices_S4x100_S1x100_2_0) Gen.shapeCasts_S1x100_S100 (ix1 c) = _
    rw [shapeCast_1a_a_apply, slice2_axis0_apply 2 (stat4 stats) _ (0 : Fin 1) c (2 : Fin 4) rfl]
    exact stat4_ideal stats 2 c
  | 3 =>
    show shapeCast ⟨1, ![100]⟩ (extractStridedSlice ⟨2, ![1, 100]⟩ ![3, 0] (stat4 stats) Gen.slices_S4x100_S1x100_3_0) Gen.shapeCasts_S1x100_S100 (ix1 c) = _
    rw [shapeCast_1a_a_apply, slice2_axis0_apply 3 (stat4 stats) _ (0 : Fin 1) c (3 : Fin 4) rfl]
    exact stat4_ideal stats 3 c

end Cert.KernelIdeal.Tail

end
-- ==== Proof.AwbSums.lean ====
/-
  Sums over the extended reals that the row-tiled accumulations rest on: a sum over a product range regrouped into
  blocks, a sum of a per-class value over the rows regrouped by class, and the three words (one, zero, minus
  infinity) as extended reals. The extended reals are an additive commutative monoid, so every regrouping of a finite
  sum holds; they are not a semiring (distributivity fails at the infinities), so the weighting by a class count goes
  through n • a = (n : EReal) * a, which holds for every extended real a.
-/
import Mathlib.Algebra.BigOperators.Fin
import Mathlib.Algebra.BigOperators.Ring.Finset
import Mathlib.Data.EReal.Operations
import Mathlib.Logic.Equiv.Fin.Basic
import Idealize.ShloMosaic.PureOps.Ideal
import proofs.«414543_j23175643529520_3_alg».proof.Proof.AwbSpec

noncomputable section

namespace Cert.Awb.Sums

open Idealize.ShloMosaic
open scoped BigOperators

/-! ## Blocks -/

/-- Position b of block a, among m blocks of n, is below m * n. -/
theorem block_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- A sum over N = m * n positions is the sum over the m blocks of the sums over each block's n positions: the
    pairs (a, b) correspond to the positions a * n + b one to one. -/
theorem sum_blocks {M : Type*} [AddCommMonoid M] (m n N : ℕ) (h : m * n = N) (f : Fin N → M) :
    ∑ a : Fin m, ∑ b : Fin n, f ⟨a.val * n + b.val, h ▸ block_lt a b⟩ = ∑ i : Fin N, f i := by
  subst h
  rw [← Equiv.sum_comp finProdFinEquiv f, Fintype.sum_prod_type]
  refine Finset.sum_congr rfl fun a _ => Finset.sum_congr rfl fun b _ => ?_
  congr 1
  apply Fin.ext
  show a.val * n + b.val = b.val + n * a.val
  rw [Nat.mul_comm, Nat.add_comm]

/-- The 1,048,576 rows are 128 tiles of 8192 rows. -/
theorem sum_rows_by_tile (f : Fin 1048576 → EReal) :
    ∑ n : Fin 128, ∑ r : Fin 8192, f ⟨n.val * 8192 + r.val, by omega⟩ = ∑ i : Fin 1048576, f i :=
  sum_blocks 128 8192 1048576 (by norm_num) f

/-- The 128 tiles are 2 cores of 64 tiles. -/
theorem sum_tiles_by_core (g : Fin 128 → EReal) :
    ∑ p : Fin 2, ∑ j : Fin 64, g ⟨p.val * 64 + j.val, by omega⟩ = ∑ n : Fin 128, g n :=
  sum_blocks 2 64 128 (by norm_num) g

/-! ## Classes -/

/-- Summing a per-class value over the rows' targets is weighting it by the class counts. The rows are grouped by
    their target; within the group of class c every term is L c, so the group's sum is (its size) • L c, which is
    L c times the size as an extended real; and the size is the sum of ones over the rows whose target is c. -/
theorem sum_by_class (L : Fin 100 → EReal) (τ : Fin 1048576 → Fin 100) :
    ∑ i : Fin 1048576, L (τ i)
      = ∑ c : Fin 100, L c * (∑ i : Fin 1048576, if τ i = c then (1 : EReal) else 0) := by
  rw [← Finset.sum_fiberwise' Finset.univ τ L]
  refine Finset.sum_congr rfl fun c _ => ?_
  rw [Finset.sum_const, EReal.nsmul_eq_mul, Finset.sum_boole, mul_comm]

/-! ## Words -/

/-- The word 0x3F800000 is the real one. -/
theorem oneW_eq : Cert.Awb.oneW = 1 := by
  show Ideal.ofBits .f32 0x3F800000#32 = 1
  simp [Ideal.ofBits, Ideal.ieee, -EReal.coe_mul]; norm_num

/-- The word of all zeros is zero. -/
theorem zeroW_eq : Ideal.ofBits .f32 0x00000000#32 = 0 := by
  simp [Ideal.ofBits, Ideal.ieee]

/-- The word 0xFF800000 is minus infinity, the least extended real. -/
theorem negInf_eq : Cert.Awb.negInf = ⊥ := by
  show Ideal.ofBits .f32 0xFF800000#32 = ⊥
  simp [Ideal.ofBits, Ideal.ieee]

/-- A fold of max from minus infinity is unchanged by one more max with minus infinity. -/
theorem max_negInf_fold (v : Fin 100 → EReal) : max Cert.Awb.negInf (Cert.Awb.vMax v) = Cert.Awb.vMax v := by
  rw [negInf_eq]
  exact max_eq_right bot_le

end Cert.Awb.Sums

end
-- ==== Proof.KValue.lean ====
/-
  The kernel program's result: the closing formula of the four per-class vectors.

  The statistics' row k, summed over the two cores, is the sum over all 128 tiles, that is over all 1,048,576 rows, of
  column k's value on the rows whose target is the class: the k-th per-class vector. The later host lines apply the
  shared closing formula to those four vectors.
-/
import proofs.«414543_j23175643529520_3_alg».proof.Proof.KAcc
import proofs.«414543_j23175643529520_3_alg».proof.Proof.KTail
import proofs.«414543_j23175643529520_3_alg».proof.Proof.AwbSums

set_option maxRecDepth 16384

noncomputable section

namespace Cert.KernelIdeal.Out

open Cert.KernelIdeal Cert.KernelIdeal.Gen Cert.KernelIdeal.Hand Cert.KernelIdeal.Acc Cert.KernelIdeal.Tail Cert.Awb Cert.Awb.Sums
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- Row k of the statistics, summed over the two cores, is the k-th per-class vector. -/
theorem statRow_G (c : Dev nD) (τ' : Fin 1048576 → Fin 100) (k : Fin 4) :
    statRow k (G m c τ') = leaf (xarr m c) τ' k := by
  funext j
  obtain ⟨cc, rfl⟩ : ∃ cc : Fin 100, j = ix1 cc := ⟨j 0, eq_ix1 j⟩
  rw [statRow_ideal, zeroW_eq, zero_add]
  show Gfun m c τ' 0 k cc + Gfun m c τ' 1 k cc = classSum τ' (fun i => vCol k (rowOf (xarr m c) i) (τ' i)) cc
  have hG : ∀ p : Fin 2, Gfun m c τ' p k cc
      = ∑ q : Fin 64, tileSum m c τ' ⟨p.val * 64 + q.val, by have := p.isLt; have := q.isLt; omega⟩ k cc := fun p =>
    Finset.sum_congr rfl fun q _ => by
      unfold tileSumN
      rw [dif_pos (by have := p.isLt; have := q.isLt; omega)]
  unfold classSum
  rw [← sum_rows_by_tile (fun i => if τ' i = cc then vCol k (rowOf (xarr m c) i) (τ' i) else 0),
    ← sum_tiles_by_core (fun n => ∑ r : Fin 8192, if τ' ⟨n.val * 8192 + r.val, by have := n.isLt; have := r.isLt; omega⟩ = cc
      then vCol k (rowOf (xarr m c) ⟨n.val * 8192 + r.val, by have := n.isLt; have := r.isLt; omega⟩) (τ' ⟨n.val * 8192 + r.val, by have := n.isLt; have := r.isLt; omega⟩) else 0),
    Fin.sum_univ_two, hG 0, hG 1]
  rfl

/-- The result buffer after the later host lines: the closing formula of the four per-class vectors. -/
theorem result_eq (c : Dev nD) (τ' : Fin 1048576 → Fin 100) (hτ : Decodes (tarr m c) τ') :
    Pipeline.afterTail₀ cfgs (dats m) 0 (V0 m) tailOpss c main_v70
      = kernelOut (leaf (xarr m c) τ' 0) (leaf (xarr m c) τ' 1) (leaf (xarr m c) τ' 2) (leaf (xarr m c) τ' 3) := by
  unfold Pipeline.afterTail₀
  have hW : Pipeline.withArrays spec0 c (V0 m c) (fun w => (dats m 0 c).arrAt w cfg0.N) (Proc.devRef .tc main_v1) = G m c τ' :=
    (Pipeline.withArrays_arr spec0 launch0.win.arr_inj c _ _ 2).trans (final_stats m c τ' hτ)
  refine (tail_result _).trans ?_
  rw [hW, statRow_G, statRow_G, statRow_G, statRow_G]

/-- The kernel program runs; its result ends at the closing formula of the four per-class vectors of its arguments,
    and its arguments end as launched. -/
theorem run (τ' : Dev nD → Fin 1048576 → Fin 100) (hτ : ∀ c, Decodes (tarr m c) (τ' c)) :
    θ_run defs (onTc (τ := τ) (main (F := Ideal))) ⟨m, fun _ => 0, ρ⟩ fun r => ∀ c : Dev nD,
      r.2.mem ((c.tc : Thread nD τ).loc main_v70)
        = kernelOut (leaf (xarr m c) (τ' c) 0) (leaf (xarr m c) (τ' c) 1) (leaf (xarr m c) (τ' c) 2) (leaf (xarr m c) (τ' c) 3)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_⟩) (run_main m ρ)
  · exact ((h c).2 main_v70 (by decide)).trans (result_eq m c (τ' c) (hτ c))
  · exact ((h c).1 0).trans (((dats m 0 c).arrAt_in 0 rfl _).trans ((A_eq m c 0).trans (V_main_arg0 m c)))
  · refine ((h c).2 main_arg1 (by decide)).trans ?_
    unfold Pipeline.afterTail₀
    rw [StableHlo.after_of_forall_not_mem (b := Proc.devRef .tc main_arg1) _ _ (tail_keeps_arg1 (F := Ideal))]
    exact (Pipeline.withArrays_of_ne spec0 c _ _ main_arg1 (by decide)).trans (V_main_arg1 m c)

end Cert.KernelIdeal.Out

end
-- ==== Proof.RTail.lean ====
/-
  The reference program's last stages, read as the shared tail.

  The reference scatters the per-row quantities into the four per-class vectors, applies the shared tail to them,
  gathers the per-class weights l2c back at every row's target and ends with loss1 plus the mean of the gathered
  weights. Its result is the shared tail's second form at the class counts, the per-class sums of the loss term and
  the gathered vector; its per-class weights are the shared l2c at the counts and the per-class sums of the
  probability and of its square.
-/
import proofs.«414543_j23175643529520_3_alg».proof.Proof.RefReadP
import proofs.«414543_j23175643529520_3_alg».proof.Proof.AwbTail

noncomputable section

namespace Cert.ReferenceIdeal.Tail

open Cert.ReferenceIdeal Cert.ReferenceIdeal.ReadP Cert.Awb
open Idealize.ShloMosaic Idealize.ShloMosaic.TcCoe Idealize.SL.Sem

variable {F : FTy → Type} [FloatOps F]

/-- The reference's result is loss1 plus the mean of the gathered per-class weights. -/
theorem ref_result (x0 : (⟨S1048576x100, .f32⟩ : BufTy).Contents (Elt F)) (x1 : (⟨S1048576, .i32⟩ : BufTy).Contents (Elt F)) :
    (val_main_v109 (F := F) x0 x1 : FVec F S_ .f32)
      = refOut (val_main_v8 (F := F) x1) (val_main_v27 (F := F) x0 x1) (val_main_v104 (F := F) x0 x1) := by
  rfl

/-- The reference's per-class weights are the shared l2c. -/
theorem ref_l2c (x0 : (⟨S1048576x100, .f32⟩ : BufTy).Contents (Elt F)) (x1 : (⟨S1048576, .i32⟩ : BufTy).Contents (Elt F)) :
    (val_main_v97 (F := F) x0 x1 : FVec F S100 .f32)
      = l2cOf (val_main_v8 (F := F) x1) (val_main_v58 (F := F) x0 x1) (val_main_v62 (F := F) x0 x1) := by
  rfl

end Cert.ReferenceIdeal.Tail

end
-- ==== Proof.LibRowScatter.lean ====
/-
  Row scatter-adds and a row gather read at an entry.

  `segment_sum(v, ids)` and `x.at[ids].add(v)` along the LEADING axis lower to `stablehlo.scatter` with an `add` body, the
  scatter indices reshaped to `[R, 1]` (index vector on axis 1), the leading operand axis inserted and named by the
  index map, every other operand axis a window axis taken whole.  Update row `r` lands on operand row `ids[r, 0]`, read
  as a SIGNED integer and NOT clamped: a row whose index is negative or ≥ N is dropped.  So entry `n` (or `(n, b)`) of the
  result is the operand's entry plus the sum of the update entries of the rows `r` with `ids[r, 0] = n`.
  `x[ids]` for a rank-one operand lowers to `stablehlo.gather` with the same `[R, 1]` start indices: result entry `r` is
  operand entry `ids[r, 0]` read signed and clamped into `[0, N − 1]`.
-/
import Idealize.ShloMosaic.Lib.ValueIdx
import Idealize.ShloMosaic.PureOps.Ideal
import Idealize.ShloMosaic.PureOps.Ideal.Laws
import Idealize.ShloMosaic.PureOps.Contract

noncomputable section

namespace Cert.LibRowScatter

open Idealize.ShloMosaic Idealize.ShloMosaic.ValueIdx
open scoped BigOperators

/-- The dimension numbers of a leading-axis scatter of `[R]` updates into `[N]` by scatter indices `[R, 1]`. -/
abbrev rowSDims1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a leading-axis scatter of `[R, B]` update rows into `[N, B]` by scatter indices `[R, 1]`. -/
abbrev rowSDims2 (N B R : Nat) (wf : ScatterDims.WF ⟨2, ![N, B]⟩ ⟨2, ![R, 1]⟩ ⟨2, ![R, B]⟩ [1] [0] [0] 1) :
    ScatterDims ⟨2, ![N, B]⟩ ⟨2, ![R, 1]⟩ ⟨2, ![R, B]⟩ where
  updateWindowDims := [1]
  insertedWindowDims := [0]
  scatterDimsToOperandDims := [0]
  indexVectorDim := 1
  wf := wf

/-- The rows of the updates that land on operand row `n`: those whose index, read signed, is `n`. -/
abbrev hits {R w : Nat} (idx : IVec ⟨2, ![R, 1]⟩ w) (n : Nat) : Finset (Fin R) :=
  Finset.univ.filter fun r : Fin R => (idx (ix2 r (0 : Fin 1))).toInt = (n : Int)

/-- On the operand's one axis the window of update row `r` starts at the row's index, read signed. -/
theorem rowSDims1_start {N R w : Nat}
    (wf : ScatterDims.WF ⟨1, ![N]⟩ ⟨2, ![R, 1]⟩ ⟨1, ![R]⟩ [] [0] [0] 1)
    (idx : IVec ⟨2, ![R, 1]⟩ w) (r : Fin R) :
    (rowSDims1 N R wf).start (ix1 r) idx ⟨0, Nat.one_pos⟩ = (idx (ix2 r (0 : Fin 1))).toInt := by
  unfold ScatterDims.start
  rw [dif_pos (show (⟨0, Nat.one_pos⟩ : Fin 1) ∈ (rowSDims1 N R wf).scatterDimsToOperandDims from List.mem_singleton.mpr rfl)]
  have hsi : (rowSDims1 N R wf).siIdx (ix1 r) ⟨List.idxOf (⟨0, Nat.one_pos⟩ : Fin 1) (rowSDims1 N R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The operand's one axis is inserted: an update row has no window coordinate on it. -/
theorem rowSDims1_window {N R : Nat}
    (wf : ScatterDims.WF ⟨1, ![N]⟩ ⟨2, ![R, 1]⟩ ⟨1, ![R]⟩ [] [0] [0] 1) (r : Fin R) :
    (rowSDims1 N R wf).window (ix1 r) ⟨0, Nat.one_pos⟩ = 0 := by
  unfold ScatterDims.window
  rw [dif_neg]
  intro h
  simp [ScatterDims.sKept, Shape.kept] at h

/-- Update row `r` lands at its index read signed: start plus window coordinate on the operand's one axis. -/
theorem rowSDims1_land {N R w : Nat}
    (wf : ScatterDims.WF ⟨1, ![N]⟩ ⟨2, ![R, 1]⟩ ⟨1, ![R]⟩ [] [0] [0] 1)
    (idx : IVec ⟨2, ![R, 1]⟩ w) (r : Fin R) (a : Fin 1) :
    (rowSDims1 N R wf).start (ix1 r) idx a + ((rowSDims1 N R wf).window (ix1 r) a : Int)
      = (idx (ix2 r (0 : Fin 1))).toInt := by
  match a with
  | ⟨0, _⟩ => rw [rowSDims1_start, rowSDims1_window]; simp

/-- Update row `r` lands on operand entry `n` exactly when its index, read signed, is `n`: a negative index or one
    past the operand's end lands nowhere. -/
theorem rowSDims1_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (rowSDims1 N R wf).resultIdx? (ix1 r) idx = some (ix1 n)
      ↔ (idx (ix2 r (0 : Fin 1))).toInt = (n.val : Int) := by
  unfold ScatterDims.resultIdx?
  constructor
  · intro h
    split at h
    · have h0 := congrArg Fin.val (congrFun (Option.some.inj h) ⟨0, Nat.one_pos⟩)
      rename_i hc
      have hc0 := (hc ⟨0, Nat.one_pos⟩).1
      rw [rowSDims1_land] at hc0
      have h1 : ((rowSDims1 N R wf).start (ix1 r) idx ⟨0, Nat.one_pos⟩
          + ((rowSDims1 N R wf).window (ix1 r) ⟨0, Nat.one_pos⟩ : Int)).toNat = n.val := h0
      rw [rowSDims1_land] at h1
      omega
    · exact absurd h (by simp)
  · intro h
    have hc : ∀ a : Fin 1, 0 ≤ (rowSDims1 N R wf).start (ix1 r) idx a + ((rowSDims1 N R wf).window (ix1 r) a : Int)
        ∧ (rowSDims1 N R wf).start (ix1 r) idx a + ((rowSDims1 N R wf).window (ix1 r) a : Int)
          < (((⟨1, ![N]⟩ : Shape).size a : Nat) : Int) := by
      intro a
      rw [rowSDims1_land, h]
      match a with
      | ⟨0, _⟩ =>
        refine ⟨by omega, ?_⟩
        show (n.val : Int) < ((N : Nat) : Int)
        have := n.isLt
        omega
    rw [dif_pos hc]
    congr 1
    funext a
    match a with
    | ⟨0, _⟩ =>
      refine Fin.ext ?_
      show ((rowSDims1 N R wf).start (ix1 r) idx ⟨0, Nat.one_pos⟩
          + ((rowSDims1 N R wf).window (ix1 r) ⟨0, Nat.one_pos⟩ : Int)).toNat = n.val
      rw [rowSDims1_land, h]
      omega

/-- Entry `n` of the accumulating row scatter into `[N]`: the operand's entry plus the updates of the rows that land on it. -/
theorem rowScatterAdd1_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (rowSDims1 N R wf) x idx upd (ix1 n)
      = x (ix1 n) + ∑ r ∈ hits idx n.val, upd (ix1 r) := by
  unfold Host.scatterAdd
  rw [Ideal.hostScatterAdd_def]
  unfold Ideal.hostScatterAdd
  congr 1
  refine Finset.sum_nbij' (fun j => (j 0 : Fin R)) (fun r => ix1 r) ?_ ?_ ?_ ?_ ?_
  · intro j hj
    have h := (Finset.mem_filter.mp hj).2
    rw [eq_ix1 j] at h
    exact Finset.mem_filter.mpr ⟨Finset.mem_univ _, (rowSDims1_resultIdx_iff wf idx (j 0) n).mp h⟩
  · intro r hr
    exact Finset.mem_filter.mpr ⟨Finset.mem_univ _, (rowSDims1_resultIdx_iff wf idx r n).mpr (Finset.mem_filter.mp hr).2⟩
  · intro j _
    exact (eq_ix1 j).symm
  · intro r _
    rfl
  · intro j _
    exact congrArg upd (eq_ix1 j)

/-- On the row axis the window of update entry `(r, b')` starts at row `r`'s index, read signed. -/
theorem rowSDims2_start_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩ = (idx (ix2 r (0 : Fin 1))).toInt := by
  unfold ScatterDims.start
  rw [dif_pos (show (⟨0, Nat.zero_lt_two⟩ : Fin 2) ∈ (rowSDims2 N B R wf).scatterDimsToOperandDims from List.mem_singleton.mpr rfl)]
  have hsi : (rowSDims2 N B R wf).siIdx (ix2 r b') ⟨List.idxOf (⟨0, Nat.zero_lt_two⟩ : Fin 2) (rowSDims2 N B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The column axis is not named by the index map: the window starts at `0` there. -/
theorem rowSDims2_start_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩ = 0 := by
  unfold ScatterDims.start
  rw [dif_neg (fun h => absurd (congrArg Fin.val (List.mem_singleton.mp h)) (Nat.succ_ne_zero _))]

/-- The row axis is inserted: an update entry has no window coordinate on it. -/
theorem rowSDims2_window_row {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨0, Nat.zero_lt_two⟩ = 0 := by
  unfold ScatterDims.window
  rw [dif_neg]
  intro h
  simp [ScatterDims.sKept, Shape.kept] at h

/-- On the column axis the window coordinate of update entry `(r, b')` is `b'`. -/
theorem rowSDims2_window_col {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨1, Nat.one_lt_two⟩ = b'.val := by
  unfold ScatterDims.window
  rw [dif_pos (show (⟨1, Nat.one_lt_two⟩ : Fin 2) ∈ (rowSDims2 N B R wf).sKept by simp [ScatterDims.sKept, Shape.kept])]
  rfl

/-- Update entry `(r, b')` lands on the row its index names, read signed. -/
theorem rowSDims2_land_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩
        + ((rowSDims2 N B R wf).window (ix2 r b') ⟨0, Nat.zero_lt_two⟩ : Int)
      = (idx (ix2 r (0 : Fin 1))).toInt := by
  rw [rowSDims2_start_row, rowSDims2_window_row]; simp

/-- Update entry `(r, b')` lands on column `b'`. -/
theorem rowSDims2_land_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩
        + ((rowSDims2 N B R wf).window (ix2 r b') ⟨1, Nat.one_lt_two⟩ : Int)
      = (b'.val : Int) := by
  rw [rowSDims2_start_col, rowSDims2_window_col]; simp

/-- Update entry `(r, b')` lands on operand entry `(n, b)` exactly when row `r`'s index, read signed, is `n` and
    `b' = b`. -/
theorem rowSDims2_resultIdx_iff {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) (n : Fin N) (b : Fin B) :
    (rowSDims2 N B R wf).resultIdx? (ix2 r b') idx = some (ix2 n b)
      ↔ (idx (ix2 r (0 : Fin 1))).toInt = (n.val : Int) ∧ b' = b := by
  unfold ScatterDims.resultIdx?
  constructor
  · intro h
    split at h
    · rename_i hc
      have h0 := congrArg Fin.val (congrFun (Option.some.inj h) ⟨0, Nat.zero_lt_two⟩)
      have h1 := congrArg Fin.val (congrFun (Option.some.inj h) ⟨1, Nat.one_lt_two⟩)
      have hc0 := (hc ⟨0, Nat.zero_lt_two⟩).1
      rw [rowSDims2_land_row] at hc0
      have e0 : ((rowSDims2 N B R wf).start (ix2 r b') idx ⟨0, Nat.zero_lt_two⟩
          + ((rowSDims2 N B R wf).window (ix2 r b') ⟨0, Nat.zero_lt_two⟩ : Int)).toNat = n.val := h0
      have e1 : ((rowSDims2 N B R wf).start (ix2 r b') idx ⟨1, Nat.one_lt_two⟩
          + ((rowSDims2 N B R wf).window (ix2 r b') ⟨1, Nat.one_lt_two⟩ : Int)).toNat = b.val := h1
      rw [rowSDims2_land_row] at e0
      rw [rowSDims2_land_col] at e1
      exact ⟨by omega, Fin.ext (by omega)⟩
    · exact absurd h (by simp)
  · rintro ⟨h, rfl⟩
    have hc : ∀ a : Fin 2, 0 ≤ (rowSDims2 N B R wf).start (ix2 r b') idx a + ((rowSDims2 N B R wf).window (ix2 r b') a : Int)
        ∧ (rowSDims2 N B R wf).start (ix2 r b') idx a + ((rowSDims2 N B R wf).window (ix2 r b') a : Int)
          < (((⟨2, ![N, B]⟩ : Shape).size a : Nat) : Int) := by
      intro a
      match a with
      | ⟨0, _⟩ =>
        rw [rowSDims2_land_row, h]
        refine ⟨by omega, ?_⟩
        show (n.val : Int) < ((N : Nat) : Int)
        have := n.isLt
        omega
      | ⟨1, _⟩ =>
        rw [rowSDims2_land_col]
        refine ⟨by omega, ?_⟩
        show (b'.val : Int) < ((B : Nat) : Int)
        have := b'.isLt
        omega
    rw [dif_pos hc]
    congr 1
    funext a
    match a with
    | ⟨0, _⟩ =>
      refine Fin.ext ?_
      show ((rowSDims2 N B R wf).start (ix2 r b') idx ⟨0, Nat.zero_lt_two⟩
          + ((rowSDims2 N B R wf).window (ix2 r b') ⟨0, Nat.zero_lt_two⟩ : Int)).toNat = n.val
      rw [rowSDims2_land_row, h]
      omega
    | ⟨1, _⟩ =>
      refine Fin.ext ?_
      show ((rowSDims2 N B R wf).start (ix2 r b') idx ⟨1, Nat.one_lt_two⟩
          + ((rowSDims2 N B R wf).window (ix2 r b') ⟨1, Nat.one_lt_two⟩ : Int)).toNat = b'.val
      rw [rowSDims2_land_col]
      omega

/-- Entry `(n, b)` of the accumulating row scatter into `[N, B]`: the operand's entry plus column `b` of the update rows
    that land on row `n`. -/
theorem rowScatterAdd2_apply {N B R w : Nat} {φ : FTy}
    (wf : ScatterDims.WF ⟨2, ![N, B]⟩ ⟨2, ![R, 1]⟩ ⟨2, ![R, B]⟩ [1] [0] [0] 1)
    (x : FVec Ideal ⟨2, ![N, B]⟩ φ) (idx : IVec ⟨2, ![R, 1]⟩ w) (upd : FVec Ideal ⟨2, ![R, B]⟩ φ) (n : Fin N) (b : Fin B) :
    Host.scatterAdd (rowSDims2 N B R wf) x idx upd (ix2 n b)
      = x (ix2 n b) + ∑ r ∈ hits idx n.val, upd (ix2 r b) := by
  unfold Host.scatterAdd
  rw [Ideal.hostScatterAdd_def]
  unfold Ideal.hostScatterAdd
  congr 1
  have hland : ∀ j : (⟨2, ![R, B]⟩ : Shape).Idx,
      (rowSDims2 N B R wf).resultIdx? j idx = some (ix2 n b) →
        (idx (ix2 (j 0) (0 : Fin 1))).toInt = (n.val : Int) ∧ j = ix2 (j 0) b := by
    intro j h
    rw [eq_ix2 j] at h
    obtain ⟨h0, h1⟩ := (rowSDims2_resultIdx_iff wf idx (j 0) (j 1) n b).mp h
    refine ⟨h0, ?_⟩
    rw [← h1]
    exact eq_ix2 j
  refine Finset.sum_nbij' (fun j => (j 0 : Fin R)) (fun r => ix2 r b) ?_ ?_ ?_ ?_ ?_
  · intro j hj
    exact Finset.mem_filter.mpr ⟨Finset.mem_univ _, (hland j (Finset.mem_filter.mp hj).2).1⟩
  · intro r hr
    exact Finset.mem_filter.mpr ⟨Finset.mem_univ _,
      (rowSDims2_resultIdx_iff wf idx r b n b).mpr ⟨(Finset.mem_filter.mp hr).2, rfl⟩⟩
  · intro j hj
    exact (hland j (Finset.mem_filter.mp hj).2).2.symm
  · intro r _
    rfl
  · intro j hj
    exact congrArg upd (hland j (Finset.mem_filter.mp hj).2).2

/-- The dimension numbers of a gather out of `[N]` by start indices `[R, 1]`. -/
abbrev rowDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result entry `r` of the gather out of `[N]` is operand entry `clamp idx[r, 0]`. -/
theorem rowGather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (rowDims1 N R wf) x idx (ix1 r)
      = x (ix1 ⟨min (idx (ix2 r (0 : Fin 1))).toInt.toNat (N - 1), by omega⟩) := by
  unfold Host.gather
  congr 1
  funext ax
  refine Fin.ext ?_
  show (rowDims1 N R wf).start (ix1 r) idx ax + (rowDims1 N R wf).batchCoord (ix1 r) ax
    + (rowDims1 N R wf).offCoord (ix1 r) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 1) ∈ (rowDims1 N R wf).startIndexMap from List.mem_singleton.mpr rfl)]
    have hsi : (rowDims1 N R wf).siIdx (ix1 r) ⟨List.idxOf (⟨0, by decide⟩ : Fin 1) (rowDims1 N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl

end Cert.LibRowScatter

end
-- ==== Proof.LibTakeFill.lean ====
/-
  General facts about a row gather that fills out-of-range rows (`jnp.take` in its default mode), for indices that are
  in range.

  Such a take lowers to: wrap negative indices (`select (w < 0) (w + n) w`), gather with the wrapped indices, and select
  between the gathered rows and a fill row by the mask "0 ≤ wrapped index ≤ n − 1", reduced by `and` over the index
  vector's one component and broadcast along the row. When every index is in range the wrap is the identity, every mask
  bit is one, and the select returns the gathered rows.
-/
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-- A select whose mask is 1 everywhere is its first branch. -/
theorem select_of_all_one {S : Shape} {α : Type} (M : IVec S 1) (G Fill : S.Idx → α) (hM : ∀ i, M i = 1#1) :
    select M G Fill = G :=
  funext fun i => by rw [select_apply, hM i, select_one]

/-- THE FILLING SELECT: with every index between its bounds, the rows gathered are what the select returns. -/
theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

/-- The wrap of negative indices leaves a nonnegative index alone. -/
theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

/-- Below `n` is at most `n − 1`, read signed. -/
theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.RLeaves.lean ====
/-
  The reference's four per-class sums and its final gather, read at an entry.

  A per-class sum of per-row values is printed as a scatter-add into a vector of a hundred zeros: the targets stand as a
  column of indices, row i's value lands on the entry its target names, read as a signed integer. With every target the
  32-bit word of a class index below a hundred, the rows that land on class c are exactly the rows whose target is c, so
  entry c is the sum over all rows of "the value if the target is c, else nothing". The four sums differ only in the
  per-row value: the word of one, the loss term, the probability, the probability squared.
  The final gather reads a per-class vector back at every row's target: the index column is the target wrapped when
  negative (it is not), read signed and clamped to the last class (it is below it), so row i reads entry tau i.
-/
import proofs.«414543_j23175643529520_3_alg».proof.Proof.RefReadP
import proofs.«414543_j23175643529520_3_alg».proof.Proof.AwbSpec
import proofs.«414543_j23175643529520_3_alg».proof.Proof.LibRowScatter
import proofs.«414543_j23175643529520_3_alg».proof.Proof.LibTakeFill
import Idealize.ShloMosaic.PureOps.Ideal
import Idealize.ShloMosaic.PureOps.Ideal.Laws
import Idealize.ShloMosaic.Lib.ValueIdx
import Idealize.ShloMosaic.Lib.Affine

noncomputable section

namespace Cert.ReferenceIdeal.Leaves

open Cert.ReferenceIdeal Cert.ReferenceIdeal.Gen Cert.Awb Cert.LibRowScatter Idealize.ShloMosaic Idealize.ShloMosaic.ValueIdx
open scoped BigOperators

/-! ## Words -/

/-- A class index written in 32 bits reads back, signed, as itself. -/
theorem toInt_class (a : Fin 100) : (BitVec.ofNat 32 a.val).toInt = (a.val : Int) := by
  have h := a.isLt
  have e : a.val % 2 ^ 32 = a.val := Nat.mod_eq_of_lt (by omega)
  rw [BitVec.toInt_eq_toNat_cond, BitVec.toNat_ofNat, e, if_pos (by omega)]

/-- Two class indices are the same class exactly when they are the same number. -/
theorem class_eq_iff (a c : Fin 100) : ((a.val : Int) = (c.val : Int)) ↔ a = c := by
  constructor
  · intro h
    exact Fin.ext (by omega)
  · intro h
    rw [h]

/-! ## The scatter-add as a per-class sum -/

/-- The printed scatter record is the leading-axis row scatter of 1048576 updates into a hundred entries. -/
theorem scatter_rec :
    scatter_S100_S1048576x1_S1048576_n_0_0_1 = rowSDims1 100 1048576 scatter_S100_S1048576x1_S1048576_n_0_0_1_wf := rfl

/-- A scatter-add into zeros by the target column: entry c is the sum of the updates over the rows whose target is c. -/
theorem segment_sum_apply (t : IVec ST 32) (τ : Fin 1048576 → Fin 100) (hτ : Decodes t τ)
    (z : FVec Ideal S100 .f32) (hz : ∀ c : Fin 100, z (ix1 c) = 0)
    (idx : IVec S1048576x1 32) (hidx : ∀ i : Fin 1048576, idx (ix2 i (0 : Fin 1)) = t (ix1 i))
    (upd : FVec Ideal ST .f32) (f : Fin 1048576 → EReal) (hf : ∀ i : Fin 1048576, upd (ix1 i) = f i) (c : Fin 100) :
    Host.scatterAdd scatter_S100_S1048576x1_S1048576_n_0_0_1 z idx upd (ix1 c) = classSum τ f c := by
  rw [scatter_rec, rowScatterAdd1_apply, hz c, zero_add]
  unfold classSum
  rw [Finset.sum_filter]
  refine Finset.sum_congr rfl fun i _ => ?_
  have hi : ((idx (ix2 i (0 : Fin 1))).toInt = ((c.val : Nat) : Int)) ↔ τ i = c := by
    rw [hidx i, hτ i, toInt_class]
    exact class_eq_iff (τ i) c
  rw [hf i]
  by_cases h : τ i = c
  · rw [if_pos h, if_pos (hi.mpr h)]
  · rw [if_neg h, if_neg (fun h' => h (hi.mp h'))]

/-! ## The gather at a row's target -/

/-- The printed gather record is the rank-one row gather of 1048576 rows out of a hundred entries. -/
theorem gather_rec :
    gather_S100_S1048576x1_S1048576_n_0_n_n_0_1_1
      = rowDims1 100 1048576 gather_S100_S1048576x1_S1048576_n_0_n_n_0_1_1_wf := rfl

/-- A gather out of a per-class vector by an index column that holds the targets: row i reads entry tau i. -/
theorem gather_class_apply (t : IVec ST 32) (τ : Fin 1048576 → Fin 100) (hτ : Decodes t τ)
    (L : FVec Ideal S100 .f32) (idx : IVec S1048576x1 32)
    (hidx : ∀ i : Fin 1048576, idx (ix2 i (0 : Fin 1)) = t (ix1 i)) (i : Fin 1048576) :
    Host.gather gather_S100_S1048576x1_S1048576_n_0_n_n_0_1_1 L idx (ix1 i) = L (ix1 (τ i)) := by
  rw [gather_rec, rowGather1_apply (by decide : 0 < 100)]
  congr 2
  refine Fin.ext ?_
  show min (idx (ix2 i (0 : Fin 1))).toInt.toNat (100 - 1) = (τ i).val
  rw [hidx i, hτ i, toInt_class]
  have h := (τ i).isLt
  omega

/-! ## The reference's stages -/

section Stages

open Cert.ReferenceIdeal.ReadP

/-- The column of a row's index names the row. -/
theorem col_row (i : Fin 1048576) : idx_main_v7 (ix2 i (0 : Fin 1)) = ix1 i := by
  funext a
  match a with
  | ⟨0, _⟩ => rfl

/-- A per-class vector of zero words is zero at every class. -/
theorem zeros_apply (c : Fin 100) : val_main_v6 (F := Ideal) (ix1 c) = 0 := by
  rw [val_main_v6_apply, val_main_cst_0_apply, Ideal.ofBits_def, Ideal.ofBits_zero_f32]

variable (x : FVec Ideal SX .f32) (t : IVec ST 32) (τ : Fin 1048576 → Fin 100) (hτ : Decodes t τ)

/-- The k-th per-class vector at class c is the per-class sum of the k-th per-row quantity. -/
theorem leaf_apply (k : Fin 4) (c : Fin 100) :
    leaf x τ k (ix1 c) = classSum τ (fun i => vCol k (rowOf x i) (τ i)) c := rfl

/-- The target column at row i is the target word. -/
theorem column_apply (i : Fin 1048576) : val_main_v7 (F := Ideal) t (ix2 i (0 : Fin 1)) = t (ix1 i) := by
  rw [val_main_v7_apply, col_row]

include hτ

/-- The count per class: the sum of the word of one over the rows whose target is the class. -/
theorem leaf0 (c : Fin 100) : val_main_v8 (F := Ideal) t (ix1 c) = leaf x τ 0 (ix1 c) := by
  rw [leaf_apply]
  unfold val_main_v8
  refine segment_sum_apply t τ hτ _ zeros_apply _ (column_apply t) _ _ (fun i => ?_) c
  rw [val_main_v5_apply, val_main_cst_apply, Ideal.ofBits_def]
  rfl

/-- The loss term summed per class. -/
theorem leaf1 (hn : ∀ i : Fin 1048576, val_main_v24 (F := Ideal) x t (ix1 i) = vNegl (rowOf x i) (τ i)) (c : Fin 100) :
    val_main_v27 (F := Ideal) x t (ix1 c) = leaf x τ 1 (ix1 c) := by
  rw [leaf_apply]
  unfold val_main_v27
  refine segment_sum_apply t τ hτ _ zeros_apply _ (column_apply t) _ _ (fun i => ?_) c
  rw [hn i]
  rfl

/-- The probability summed per class. -/
theorem leaf2 (hp : ∀ i : Fin 1048576, val_main_v4 (F := Ideal) x t (ix1 i) = vPt (rowOf x i) (τ i)) (c : Fin 100) :
    val_main_v58 (F := Ideal) x t (ix1 c) = leaf x τ 2 (ix1 c) := by
  rw [leaf_apply]
  unfold val_main_v58
  refine segment_sum_apply t τ hτ _ zeros_apply _ (column_apply t) _ _ (fun i => ?_) c
  rw [hp i]
  rfl

/-- The squared probability summed per class. -/
theorem leaf3 (hp : ∀ i : Fin 1048576, val_main_v4 (F := Ideal) x t (ix1 i) = vPt (rowOf x i) (τ i)) (c : Fin 100) :
    val_main_v62 (F := Ideal) x t (ix1 c) = leaf x τ 3 (ix1 c) := by
  rw [leaf_apply]
  unfold val_main_v62
  refine segment_sum_apply t τ hτ _ zeros_apply _ (column_apply t) _ _ (fun i => ?_) c
  rw [val_main_v59_apply, hp i, Ideal.mulf_def]
  rfl

/-- The wrapped target is the target: a class index is not negative. -/
theorem wrapped_apply (i : Fin 1048576) : val_main_v103 (F := Ideal) t (ix2 i (0 : Fin 1)) = t (ix1 i) := by
  have e : idx_main_v103 (ix2 i (0 : Fin 1)) = ix1 i := col_row i
  rw [val_main_v103_apply, e, val_main_v102_apply, val_main_v99_apply, val_main_v101_apply, val_main_v98_apply,
    val_main_v100_apply, val_main_c_apply, val_main_c_35_apply]
  refine LibTakeFill.wrap_of_nonneg _ _ (IntOp.cmpi_sge.2 ?_)
  rw [hτ i, toInt_class, BitVec.toInt_zero]
  omega

/-- The final gather reads a per-class vector at every row's target. -/
theorem gather_apply (L : FVec Ideal S100 .f32) (i : Fin 1048576) :
    Host.gather gather_S100_S1048576x1_S1048576_n_0_n_n_0_1_1 L (val_main_v103 (F := Ideal) t) (ix1 i) = L (ix1 (τ i)) :=
  gather_class_apply t τ hτ L _ (wrapped_apply t τ hτ) i

end Stages

end Cert.ReferenceIdeal.Leaves

end
-- ==== Proof.RRows.lean ====
/-
  The reference's per-row quantities, read at a row, over the extended reals.

  Row i of the logits has a maximum M (folded from minus infinity), shifted entries x_c - M, the log of the sum of their
  exponentials, and so the log-probabilities (x_c - M) - log (sum_c exp (x_c - M)). The target word of row i is the class
  index tau i written in 32 bits: it is non-negative and at most 99, so the wrap of negative indices leaves it alone, both
  bounds of the take's mask hold on every row, and the batched row gather reads the log-probability at (i, tau i). Its
  exponential is the target's probability; minus the log of that plus epsilon is the row's loss term.
-/
import proofs.«414543_j23175643529520_3_alg».proof.Proof.RefReadP
import proofs.«414543_j23175643529520_3_alg».proof.Proof.AwbSpec
import proofs.«414543_j23175643529520_3_alg».proof.Proof.LibTakeFill
import proofs.«414543_j23175643529520_3_alg».proof.Proof.LibRowReduce
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.Rows

open Cert.ReferenceIdeal Cert.ReferenceIdeal.Gen Cert.ReferenceIdeal.ReadP Cert.Awb Idealize.ShloMosaic Idealize.ShloMosaic.ValueIdx
open scoped BigOperators

/-! ## The batched row gather read at a row -/

/-- The dimension numbers of the gather along each row: operand [n, 100] batched on axis 0, one start index per row. -/
abbrev gd : GatherDims S1048576x100 S1048576x1x1 S1048576x1 := gather_S1048576x100_S1048576x1x1_S1048576x1_n_1_0_0_1_2_11

/-- The batched row gather at row i reads the operand at (i, c), c the row's start index read signed and clamped into
    [0, 99]. -/
theorem gather_row_apply {α : Type} (x : S1048576x100.Idx → α) (idx : IVec S1048576x1x1 32) (i : Fin 1048576) (c : Fin 100)
    (hc : min (idx (ix3 i (0 : Fin 1) (0 : Fin 1))).toInt.toNat 99 = c.val) :
    Host.gather gd x idx (ix2 i (0 : Fin 1)) = x (ix2 i c) := by
  unfold Host.gather
  congr 1
  funext a
  refine Fin.ext ?_
  match a with
  | ⟨0, _⟩ =>
    have hs : GatherDims.start gd (ix2 i (0 : Fin 1)) idx (0 : Fin 2) = 0 :=
      GatherDims.start_batching gd _ idx _ (List.mem_singleton.mpr rfl)
    have ho : GatherDims.offCoord gd (ix2 i (0 : Fin 1)) (0 : Fin 2) = 0 :=
      GatherDims.offCoord_eq_zero gd _ _ (fun h => ((GatherDims.mem_sKept gd _).mp h).2 (List.mem_singleton.mpr rfl))
    have hb : GatherDims.batchCoord gd (ix2 i (0 : Fin 1)) (0 : Fin 2) = i.val := rfl
    show GatherDims.start gd (ix2 i (0 : Fin 1)) idx (0 : Fin 2) + GatherDims.batchCoord gd (ix2 i (0 : Fin 1)) (0 : Fin 2)
      + GatherDims.offCoord gd (ix2 i (0 : Fin 1)) (0 : Fin 2) = i.val
    rw [hs, ho, hb, Nat.zero_add, Nat.add_zero]
  | ⟨1, _⟩ =>
    have hb : GatherDims.batchCoord gd (ix2 i (0 : Fin 1)) (1 : Fin 2) = 0 :=
      GatherDims.batchCoord_eq_zero gd _ _ (fun h => absurd (List.mem_singleton.mp h) (by decide))
    have ho : GatherDims.offCoord gd (ix2 i (0 : Fin 1)) (1 : Fin 2) = 0 :=
      GatherDims.offCoord_eq_zero gd _ _ (fun h => ((GatherDims.mem_sKept gd _).mp h).1 (List.mem_singleton.mpr rfl))
    have hs : GatherDims.start gd (ix2 i (0 : Fin 1)) idx (1 : Fin 2)
        = min (idx (ix3 i (0 : Fin 1) (0 : Fin 1))).toInt.toNat 99 := by
      unfold GatherDims.start
      rw [dif_pos (show (1 : Fin 2) ∈ gd.startIndexMap from List.mem_singleton.mpr rfl)]
      have hsi : gd.siIdx (ix2 i (0 : Fin 1)) ⟨List.idxOf (1 : Fin 2) gd.startIndexMap,
          List.idxOf_lt_length_iff.2 (List.mem_singleton.mpr rfl)⟩ = ix3 i (0 : Fin 1) (0 : Fin 1) := by
        funext b; refine Fin.ext ?_
        match b with
        | ⟨0, _⟩ => rfl
        | ⟨1, _⟩ => rfl
        | ⟨2, _⟩ => rfl
      rw [hsi]
      rfl
    show GatherDims.start gd (ix2 i (0 : Fin 1)) idx (1 : Fin 2) + GatherDims.batchCoord gd (ix2 i (0 : Fin 1)) (1 : Fin 2)
      + GatherDims.offCoord gd (ix2 i (0 : Fin 1)) (1 : Fin 2) = c.val
    rw [hs, hb, ho]
    exact hc

/-! ## Where each layout operation reads -/

theorem idx_c0v3 (i : Fin 1048576) (b : Fin 1) : idx_main_call0_v3 (ix2 i b) = ix1 i := by
  funext a; match a with | ⟨0, _⟩ => rfl
theorem idx_c0v4 (i : Fin 1048576) (c : Fin 100) : idx_main_call0_v4 (ix2 i c) = ix2 i (0 : Fin 1) := by
  funext a; match a with | ⟨0, _⟩ => rfl | ⟨1, _⟩ => rfl
theorem idx_c0v7 (i : Fin 1048576) (k : Fin 100) : idx_main_call0_v7 (ix1 i) k = ix2 i k := by
  funext a; match a with | ⟨0, _⟩ => rfl | ⟨1, _⟩ => rfl
theorem idx_c0v8 (i : Fin 1048576) (b : Fin 1) : idx_main_call0_v8 (ix2 i b) = ix1 i := by
  funext a; match a with | ⟨0, _⟩ => rfl
theorem idx_c0v10 (i : Fin 1048576) (c : Fin 100) : idx_main_call0_v10 (ix2 i c) = ix2 i (0 : Fin 1) := by
  funext a; match a with | ⟨0, _⟩ => rfl | ⟨1, _⟩ => rfl
theorem idx_v1 (i : Fin 1048576) (b : Fin 1) : idx_main_v1 (ix2 i b) = ix1 i := by
  funext a; match a with | ⟨0, _⟩ => rfl
theorem idx_c1v5 (i : Fin 1048576) (b c : Fin 1) : idx_main_call1_v5 (ix3 i b c) = ix2 i (0 : Fin 1) := by
  funext a
  match a with
  | ⟨0, _⟩ =>
    refine Fin.ext ?_
    show ((i.val * 1 + b.val) * 1 + c.val) / 1 = i.val
    have hb := b.isLt
    have hc := c.isLt
    omega
  | ⟨1, _⟩ => rfl
theorem idx_v3 (i : Fin 1048576) : idx_main_v3 (ix1 i) = ix2 i (0 : Fin 1) := by
  funext a
  match a with
  | ⟨0, _⟩ =>
    refine Fin.ext ?_
    show i.val / 1 = i.val
    exact Nat.div_one _
  | ⟨1, _⟩ => rfl

/-! ## The log-softmax of a row -/

section Logp
variable (x : (⟨S1048576x100, .f32⟩ : BufTy).Contents (Elt Ideal))

/-- Minus infinity is below the fold. -/
theorem negInf_le_vMax (v : Fin 100 → EReal) : negInf ≤ vMax v :=
  (Finset.le_fold_max negInf).mpr (Or.inl le_rfl)

/-- The row maximum of row i. -/
theorem rowmax_apply (i : Fin 1048576) : val_main_call0_v0 (F := Ideal) x (ix1 i) = vMax (rowOf x i) := by
  unfold val_main_call0_v0
  rw [Host.reduce_eq_fold_single (α := Ideal .f32) (s := S1048576x100) (t := S1048576) (a := (1 : Fin 2))
    (FloatOps.maximumf (F := Ideal) (φ := .f32)) x (val_main_call0_cst (F := Ideal)) reducesTo_S1048576x100_S1048576_d1
    (by decide) h_S_ (ix1 i)]
  exact congrArg (fun f => (Finset.univ : Finset (Fin 100)).fold max negInf f)
    (funext fun k : Fin 100 => congrArg x (Cert.LibRowReduce.lift_row _ i k))

/-- The maximum with minus infinity is the row maximum still. -/
theorem max_apply (i : Fin 1048576) : val_main_call0_v2 (F := Ideal) x (ix1 i) = vMax (rowOf x i) := by
  rw [val_main_call0_v2_apply, val_main_call0_v1_apply, val_main_call0_cst_0_apply, rowmax_apply]
  exact max_eq_right (negInf_le_vMax _)

/-- Broadcast along the row. -/
theorem bmax_apply (i : Fin 1048576) (c : Fin 100) : val_main_call0_v4 (F := Ideal) x (ix2 i c) = vMax (rowOf x i) := by
  rw [val_main_call0_v4_apply, idx_c0v4, val_main_call0_v3_apply, idx_c0v3, max_apply]

/-- The shifted entry. -/
theorem shift_apply (i : Fin 1048576) (c : Fin 100) :
    val_main_call0_v5 (F := Ideal) x (ix2 i c) = rowOf x i c - vMax (rowOf x i) := by
  rw [val_main_call0_v5_apply, bmax_apply]
  rfl

/-- The sum of the exponentials of the shifted entries of row i. -/
theorem sumexp_apply (i : Fin 1048576) :
    val_main_call0_v7 (F := Ideal) x (ix1 i) = ∑ c : Fin 100, Ideal.exp (rowOf x i c - vMax (rowOf x i)) := by
  rw [val_main_call0_v7_apply, val_main_call0_cst_1_apply]
  show Ideal.ofBits .f32 0x00000000#32 + _ = _
  rw [Ideal.ofBits_zero_f32, zero_add]
  refine Finset.sum_congr rfl fun k _ => ?_
  rw [idx_c0v7, val_main_call0_v6_apply, shift_apply]
  rfl

/-- The log-sum-exp of row i, as the column entry. -/
theorem lse_apply (i : Fin 1048576) : val_main_call0_v9 (F := Ideal) x (ix2 i (0 : Fin 1)) = vLse (rowOf x i) := by
  rw [val_main_call0_v9_apply, val_main_call0_v8_apply, idx_c0v8, sumexp_apply]
  rfl

/-- The log-probability of class c in row i. -/
theorem logp_apply (i : Fin 1048576) (c : Fin 100) : val_main_v0 (F := Ideal) x (ix2 i c) = vLogp (rowOf x i) c := by
  rw [val_main_v0_apply, shift_apply, val_main_call0_v10_apply, idx_c0v10, lse_apply]
  rfl

end Logp

/-! ## The target word -/

/-- A class index written in 32 bits is non-negative … -/
theorem sge0 (n : Nat) (hn : n < 100) : IntOp.cmpi .sge (BitVec.ofNat 32 n) 0#32 = 1#1 := by
  rw [IntOp.cmpi_sge, StableHlo.Predicate.toInt_ofNat_small n (by omega)]
  have h0 : (0#32 : BitVec 32).toInt = 0 := by decide
  rw [h0]
  omega

/-- … and at most 99. -/
theorem sle99 (n : Nat) (hn : n < 100) : IntOp.cmpi .sle (BitVec.ofNat 32 n) 99#32 = 1#1 := by
  rw [IntOp.cmpi_sle, StableHlo.Predicate.toInt_ofNat_small n (by omega)]
  have h99 : (99#32 : BitVec 32).toInt = 99 := by decide
  rw [h99]
  omega

section Take
variable (t : (⟨S1048576, .i32⟩ : BufTy).Contents (Elt Ideal)) (τ : Fin 1048576 → Fin 100) (hτ : Decodes t τ)
include hτ

/-- The target as a column. -/
theorem word_apply (i : Fin 1048576) (b : Fin 1) : val_main_v1 (F := Ideal) t (ix2 i b) = BitVec.ofNat 32 (τ i).val := by
  rw [val_main_v1_apply, idx_v1]
  exact hτ i

/-- The wrap of negative indices leaves it alone. -/
theorem wrapped_apply (i : Fin 1048576) (b : Fin 1) :
    val_main_call1_v4 (F := Ideal) t (ix2 i b) = BitVec.ofNat 32 (τ i).val := by
  rw [val_main_call1_v4_apply, val_main_call1_v1_apply, val_main_call1_v3_apply, val_main_call1_v0_apply,
    val_main_call1_c_apply, val_main_call1_v2_apply, val_main_call1_c_0_apply, word_apply t τ hτ]
  exact Cert.LibTakeFill.wrap_of_nonneg _ _ (sge0 _ (τ i).isLt)

/-- The start index of row i. -/
theorem start_apply (i : Fin 1048576) (b c : Fin 1) :
    val_main_call1_v5 (F := Ideal) t (ix3 i b c) = BitVec.ofNat 32 (τ i).val := by
  rw [val_main_call1_v5_apply, idx_c1v5]
  exact wrapped_apply t τ hτ i 0

/-- Both bounds hold on every row. -/
theorem mask_apply (i : Fin 1048576) (b c : Fin 1) : val_main_call1_v11 (F := Ideal) t (ix3 i b c) = 1#1 := by
  rw [val_main_call1_v11_apply, val_main_call1_v7_apply, val_main_call1_v10_apply, start_apply t τ hτ,
    val_main_call1_v6_apply, val_main_call1_c_2_apply, val_main_call1_v9_apply, val_main_call1_v8_apply,
    val_main_call1_c_1_apply, sge0 _ (τ i).isLt, sle99 _ (τ i).isLt]
  decide

/-- So the reduced mask is 1 everywhere. -/
theorem allmask_apply (j : S1048576x1.Idx) : val_main_call1_v12 (F := Ideal) t j = 1#1 := by
  unfold val_main_call1_v12
  exact Cert.LibTakeFill.reduce_andi_of_all _ _ reducesTo_S1048576x1x1_S1048576x1_d2 h_S_
    (fun k => (congrArg (val_main_call1_v11 (F := Ideal) t) (eq_ix3 k)).trans (mask_apply t τ hτ (k 0) (k 1) (k 2))) rfl j

/-- The start index, read signed and clamped, is tau i. -/
theorem clamp_eq (i : Fin 1048576) :
    min (val_main_call1_v5 (F := Ideal) t (ix3 i (0 : Fin 1) (0 : Fin 1))).toInt.toNat 99 = (τ i).val := by
  have hn := (τ i).isLt
  rw [start_apply t τ hτ, StableHlo.Predicate.toInt_ofNat_small _ (by omega)]
  omega

end Take

/-! ## The target's log-probability, probability and loss term -/

section Rows
variable (x : (⟨S1048576x100, .f32⟩ : BufTy).Contents (Elt Ideal)) (t : (⟨S1048576, .i32⟩ : BufTy).Contents (Elt Ideal))
  (τ : Fin 1048576 → Fin 100) (hτ : Decodes t τ)
include hτ

/-- The take along the row reads the target's log-probability. -/
theorem taken_apply (i : Fin 1048576) : val_main_v2 (F := Ideal) x t (ix2 i (0 : Fin 1)) = vLogp (rowOf x i) (τ i) := by
  rw [val_main_v2_apply, allmask_apply t τ hτ, select_one]
  unfold val_main_call1_v13
  exact (gather_row_apply _ _ i (τ i) (clamp_eq t τ hτ i)).trans (logp_apply x i (τ i))

theorem pt_apply' (i : Fin 1048576) : val_main_v4 (F := Ideal) x t (ix1 i) = vPt (rowOf x i) (τ i) := by
  rw [val_main_v4_apply, val_main_v3_apply, idx_v3, taken_apply x t τ hτ]
  rfl

theorem negl_apply' (i : Fin 1048576) : val_main_v24 (F := Ideal) x t (ix1 i) = vNegl (rowOf x i) (τ i) := by
  rw [val_main_v24_apply, val_main_v23_apply, val_main_v22_apply, pt_apply' x t τ hτ, val_main_v21_apply,
    val_main_cst_7_apply]
  rfl

end Rows

/-- The target's probability in row i. -/
theorem pt_apply (x : FVec Ideal SX .f32) (t : IVec ST 32) (τ : Fin 1048576 → Fin 100) (hτ : Decodes t τ) (i : Fin 1048576) :
    val_main_v4 (F := Ideal) x t (ix1 i) = vPt (rowOf x i) (τ i) :=
  pt_apply' x t τ hτ i

/-- The loss term of row i. -/
theorem negl_apply (x : FVec Ideal SX .f32) (t : IVec ST 32) (τ : Fin 1048576 → Fin 100) (hτ : Decodes t τ) (i : Fin 1048576) :
    val_main_v24 (F := Ideal) x t (ix1 i) = vNegl (rowOf x i) (τ i) :=
  negl_apply' x t τ hτ i

end Cert.ReferenceIdeal.Rows

end
-- ==== Proof.RValue.lean ====
/-
  The reference program's result: the same closing formula, with the per-class value read at each row's target.

  Its four scatter-adds are the four per-class vectors; its gather reads the per-class value at the rows' targets; its
  last lines are the shared closing formula over the rows.
-/
import proofs.«414543_j23175643529520_3_alg».proof.Proof.RTail
import proofs.«414543_j23175643529520_3_alg».proof.Proof.RLeaves
import proofs.«414543_j23175643529520_3_alg».proof.Proof.RRows

noncomputable section

namespace Cert.ReferenceIdeal.Out

open Cert.ReferenceIdeal Cert.ReferenceIdeal.ReadP Cert.ReferenceIdeal.Tail Cert.ReferenceIdeal.Leaves Cert.ReferenceIdeal.Rows Cert.Awb
open Idealize.ShloMosaic Idealize.ShloMosaic.ValueIdx
open scoped BigOperators

/-- The last stage of the reference is the closing formula of the four per-class vectors, the per-class value read at
    the rows' targets. -/
theorem value_eq (x : FVec Ideal SX .f32) (t : IVec ST 32) (τ' : Fin 1048576 → Fin 100) (hτ : Decodes t τ') :
    (val_main_v109 (F := Ideal) x t : FVec Ideal S_ .f32)
      = refOut (leaf x τ' 0) (leaf x τ' 1) (fun j => l2cOf (leaf x τ' 0) (leaf x τ' 2) (leaf x τ' 3) (ix1 (τ' (j 0)))) := by
  have h0 : (val_main_v8 (F := Ideal) t : FVec Ideal S100 .f32) = leaf x τ' 0 := funext fun j => by
    obtain ⟨cc, rfl⟩ : ∃ cc : Fin 100, j = ix1 cc := ⟨j 0, eq_ix1 j⟩
    exact leaf0 x t τ' hτ cc
  have h1 : (val_main_v27 (F := Ideal) x t : FVec Ideal S100 .f32) = leaf x τ' 1 := funext fun j => by
    obtain ⟨cc, rfl⟩ : ∃ cc : Fin 100, j = ix1 cc := ⟨j 0, eq_ix1 j⟩
    exact leaf1 x t τ' hτ (negl_apply x t τ' hτ) cc
  have h2 : (val_main_v58 (F := Ideal) x t : FVec Ideal S100 .f32) = leaf x τ' 2 := funext fun j => by
    obtain ⟨cc, rfl⟩ : ∃ cc : Fin 100, j = ix1 cc := ⟨j 0, eq_ix1 j⟩
    exact leaf2 x t τ' hτ (pt_apply x t τ' hτ) cc
  have h3 : (val_main_v62 (F := Ideal) x t : FVec Ideal S100 .f32) = leaf x τ' 3 := funext fun j => by
    obtain ⟨cc, rfl⟩ : ∃ cc : Fin 100, j = ix1 cc := ⟨j 0, eq_ix1 j⟩
    exact leaf3 x t τ' hτ (pt_apply x t τ' hτ) cc
  have hg : (val_main_v104 (F := Ideal) x t : FVec Ideal ST .f32)
      = fun j => l2cOf (leaf x τ' 0) (leaf x τ' 2) (leaf x τ' 3) (ix1 (τ' (j 0))) := funext fun j => by
    obtain ⟨i, rfl⟩ : ∃ i : Fin 1048576, j = ix1 i := ⟨j 0, eq_ix1 j⟩
    show Host.gather gather_S100_S1048576x1_S1048576_n_0_n_n_0_1_1 (val_main_v97 (F := Ideal) x t) (val_main_v103 (F := Ideal) t) (ix1 i) = _
    rw [gather_apply t τ' hτ, ref_l2c, h0, h2, h3]
  rw [ref_result, h0, h1, hg]

end Cert.ReferenceIdeal.Out

end
-- ==== Proof.RefRunH.lean ====
import proofs.«414543_j23175643529520_3_alg».proof.Proof.Gen.ReferenceIdeal
import proofs.«414543_j23175643529520_3_alg».proof.Proof.RefReadP
import proofs.«414543_j23175643529520_3_alg».proof.Proof.RefRunP
import Idealize.ShloMosaic.Lib.StableHlo.Run

/-! # The reference program's run, read against its stage functions

The reference's @main is a straight line of 203 host operations in single-assignment form: every
operation writes one buffer of its own and reads buffers written earlier (or the two arguments).
`StableHlo.run_seq` gives each buffer's final contents as the fold `after ops W` of the operations'
results over the launch contents `W`. Read as a term that fold is a TREE: a buffer read by several
later operations is repeated at each reader. The stage functions `ReadP.val_<buffer>` state the same
values as a DAG: each is its operation's function applied to the stage functions of the operands.

This module reads the fold against the stages ONE OPERATION AT A TIME, sharing what is already known.
A list of facts `Γ` records, for the buffers met so far, the stage value each one holds; `Holds W Γ n`
says the valuation `W` agrees with the list and every recorded buffer has an index below `n`. Running
one operation `y := f a b` from a valuation that agrees with `Γ` gives a valuation that agrees with
`⟨y, f va vb⟩ :: Γ`, where `va`, `vb` are what `Γ` records for `a`, `b`: the operation writes `y` only,
and the program numbers its buffers in the order it writes them, so `y`'s index is at least `n` and `y`
is none of the recorded buffers, which therefore keep their contents. The value `f va vb` is recorded AS
the stage function of `y` (they agree by unfolding that one definition), so no term ever grows. At the
end of the line the result buffer's fact is in the list. -/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-! ## Facts about a valuation, and one operation's step -/

section Known

variable {tp : Topo} {sg : RefSig} {Val : EltTy → Type}

/-- A TensorCore reference together with contents of its type. -/
abbrev Fact (sg : RefSig) (Val : EltTy → Type) : Type := Σ r : Ref sg .tc, r.ty.Contents Val

/-- The valuation holds, at every reference the list records, the contents recorded; and every recorded reference has
    an index below `n` (the program numbers its buffers in the order it writes them, so the next buffer written, of index
    `n` or more, is none of the recorded ones). -/
structure Holds (W : Valuation tp sg Val) (Γ : List (Fact sg Val)) (n : Nat) : Prop where
  val : ∀ p ∈ Γ, W (Proc.devRef (τ := tp) .tc p.1) = p.2
  lt : ∀ p ∈ Γ, p.1.idx.val < n

theorem Holds.nil (W : Valuation tp sg Val) (n : Nat) : Holds W ([] : List (Fact sg Val)) n :=
  ⟨fun _ h => (nomatch h), fun _ h => (nomatch h)⟩

/-- A fact the valuation satisfies may be put in front of the list. -/
theorem Holds.cons {W : Valuation tp sg Val} {Γ : List (Fact sg Val)} {n : Nat} {y : Ref sg .tc} {vy : y.ty.Contents Val}
    (hy : W (Proc.devRef (τ := tp) .tc y) = vy) (hn : y.idx.val < n) (hΓ : Holds W Γ n) : Holds W (⟨y, vy⟩ :: Γ) n := by
  refine ⟨fun p hp => ?_, fun p hp => ?_⟩
  · rcases List.mem_cons.mp hp with rfl | hp
    · exact hy
    · exact hΓ.val p hp
  · rcases List.mem_cons.mp hp with rfl | hp
    · exact hn
    · exact hΓ.lt p hp

/-- An operation that writes the one buffer `y`, of index `n` or more, to `vy`: afterwards the valuation holds
    `⟨y, vy⟩` as well as all it held before (every recorded buffer has a smaller index, so is another buffer). -/
theorem Holds.write {op : HloOp tp sg Val} {W : Valuation tp sg Val} {Γ : List (Fact sg Val)} {n : Nat} {y : Ref sg .tc}
    {vy : y.ty.Contents Val} (hΓ : Holds W Γ n) (hw : op.writes = {Proc.devRef (τ := tp) .tc y}) (hn : n ≤ y.idx.val)
    (hy : op.result W (Proc.devRef (τ := tp) .tc y) = vy) : Holds (op.result W) (⟨y, vy⟩ :: Γ) (y.idx.val + 1) := by
  refine ⟨fun p hp => ?_, fun p hp => ?_⟩
  · rcases List.mem_cons.mp hp with rfl | hp
    · exact hy
    · have hne : p.1 ≠ y := fun e => by
        have := hΓ.lt p hp
        rw [e] at this
        omega
      rw [op.result_of_not_mem W (by rw [hw, Finset.mem_singleton]; exact devRef_ne_of_ne hne)]
      exact hΓ.val p hp
  · rcases List.mem_cons.mp hp with rfl | hp
    · exact Nat.lt_succ_self _
    · exact Nat.lt_succ_of_lt (Nat.lt_of_lt_of_le (hΓ.lt p hp) hn)

/-! ### The builders' steps

One lemma per builder the program uses. Each runs the head operation of a line from a valuation that holds `Γ`,
reads the operands' contents off `Γ` (`k‹operand›`: the fact is in the list), and hands the rest of the line a
valuation that holds the new fact as well. `vy` is the value to RECORD for the result; `e` says the operation's
function gives it at the operands' recorded values. -/

theorem step_nullary {y : Ref sg .tc} {v : y.ty.Contents Val} {hy} {rest : List (HloOp tp sg Val)}
    {W : Valuation tp sg Val} {Γ : List (Fact sg Val)} {n : Nat} {r : DevRef tp sg} {res : r.ty.Contents Val}
    (vy : y.ty.Contents Val) (hΓ : Holds W Γ n) (hn : n ≤ y.idx.val) (e : v = vy)
    (k : ∀ W' : Valuation tp sg Val, Holds W' (⟨y, vy⟩ :: Γ) (y.idx.val + 1) → after rest W' r = res) :
    after (nullary y v hy :: rest) W r = res :=
  k _ (hΓ.write (nullary_writes ..) hn ((nullary_result y v hy W).trans e))

theorem step_unary {x y : Ref sg .tc} {f : x.ty.Contents Val → y.ty.Contents Val} {hx hy} {rest : List (HloOp tp sg Val)}
    {W : Valuation tp sg Val} {Γ : List (Fact sg Val)} {n : Nat} {r : DevRef tp sg} {res : r.ty.Contents Val}
    (vy : y.ty.Contents Val) {vx : x.ty.Contents Val} (hΓ : Holds W Γ n) (kx : (⟨x, vx⟩ : Fact sg Val) ∈ Γ)
    (hn : n ≤ y.idx.val) (e : f vx = vy)
    (k : ∀ W' : Valuation tp sg Val, Holds W' (⟨y, vy⟩ :: Γ) (y.idx.val + 1) → after rest W' r = res) :
    after (unary x y f hx hy :: rest) W r = res :=
  k _ (hΓ.write (unary_writes ..) hn ((unary_result x y f hx hy W).trans ((congrArg f (hΓ.val _ kx)).trans e)))

theorem step_binary {a b y : Ref sg .tc} {f : a.ty.Contents Val → b.ty.Contents Val → y.ty.Contents Val} {ha hb hy}
    {rest : List (HloOp tp sg Val)} {W : Valuation tp sg Val} {Γ : List (Fact sg Val)} {n : Nat} {r : DevRef tp sg}
    {res : r.ty.Contents Val} (vy : y.ty.Contents Val) {va : a.ty.Contents Val} {vb : b.ty.Contents Val}
    (hΓ : Holds W Γ n) (ka : (⟨a, va⟩ : Fact sg Val) ∈ Γ) (kb : (⟨b, vb⟩ : Fact sg Val) ∈ Γ)
    (hn : n ≤ y.idx.val) (e : f va vb = vy)
    (k : ∀ W' : Valuation tp sg Val, Holds W' (⟨y, vy⟩ :: Γ) (y.idx.val + 1) → after rest W' r = res) :
    after (binary a b y f ha hb hy :: rest) W r = res :=
  k _ (hΓ.write (binary_writes ..) hn
    ((binary_result a b y f ha hb hy W).trans ((congrArg₂ f (hΓ.val _ ka) (hΓ.val _ kb)).trans e)))

theorem step_ternary {c a b y : Ref sg .tc}
    {f : c.ty.Contents Val → a.ty.Contents Val → b.ty.Contents Val → y.ty.Contents Val} {hc ha hb hy}
    {rest : List (HloOp tp sg Val)} {W : Valuation tp sg Val} {Γ : List (Fact sg Val)} {n : Nat} {r : DevRef tp sg}
    {res : r.ty.Contents Val} (vy : y.ty.Contents Val) {vc : c.ty.Contents Val} {va : a.ty.Contents Val}
    {vb : b.ty.Contents Val} (hΓ : Holds W Γ n) (kc : (⟨c, vc⟩ : Fact sg Val) ∈ Γ) (ka : (⟨a, va⟩ : Fact sg Val) ∈ Γ)
    (kb : (⟨b, vb⟩ : Fact sg Val) ∈ Γ) (hn : n ≤ y.idx.val) (e : f vc va vb = vy)
    (k : ∀ W' : Valuation tp sg Val, Holds W' (⟨y, vy⟩ :: Γ) (y.idx.val + 1) → after rest W' r = res) :
    after (ternary c a b y f hc ha hb hy :: rest) W r = res :=
  k _ (hΓ.write (ternary_writes ..) hn
    ((ternary_result c a b y f hc ha hb hy W).trans
      ((congr (congrArg₂ f (hΓ.val _ kc) (hΓ.val _ ka)) (hΓ.val _ kb)).trans e)))

theorem step_reshape {x y : Ref sg .tc} {he : x.ty.elt = y.ty.elt} {hn' : x.ty.shape.ShapeCasts y.ty.shape} {hx hy}
    {rest : List (HloOp tp sg Val)} {W : Valuation tp sg Val} {Γ : List (Fact sg Val)} {n : Nat} {r : DevRef tp sg}
    {res : r.ty.Contents Val} (vy : y.ty.Contents Val) {vx : x.ty.Contents Val} (hΓ : Holds W Γ n)
    (kx : (⟨x, vx⟩ : Fact sg Val) ∈ Γ) (hn : n ≤ y.idx.val)
    (e : (fun i => he ▸ shapeCast y.ty.shape vx hn' i) = vy)
    (k : ∀ W' : Valuation tp sg Val, Holds W' (⟨y, vy⟩ :: Γ) (y.idx.val + 1) → after rest W' r = res) :
    after (reshape (Val := Val) x y he hn' hx hy :: rest) W r = res :=
  k _ (hΓ.write (reshape_writes ..) hn
    ((reshape_result x y he hn' hx hy W).trans
      ((congrArg (fun u : x.ty.Contents Val => fun i => he ▸ shapeCast y.ty.shape u hn' i) (hΓ.val _ kx)).trans e)))

/-! ### Typed references

An inlined callee's operation is spelt over typed references: its function is stated at the carried types and moved to
the buffers' own types along `ty_eq`. Contents at the two types that are the same term (`HEq`) are carried to one
another by those transports, so a typed operation's step is the untyped one with a function free of transports. -/

theorem ofBuf_of_heq {T : BufTy} {x : TRef sg T} {u : x.ref.ty.Contents Val} {v : T.Contents Val} (h : HEq u v) :
    x.ofBuf u = v := by
  obtain ⟨r, rfl, _, _⟩ := x
  exact eq_of_heq h

theorem toBuf_of_heq {T : BufTy} {x : TRef sg T} {v : T.Contents Val} {u : x.ref.ty.Contents Val} (h : HEq v u) :
    x.toBuf v = u := by
  obtain ⟨r, rfl, _, _⟩ := x
  exact eq_of_heq h

theorem step_Tnullary {Ty : BufTy} {y : TRef sg Ty} {v : Ty.Contents Val} {rest : List (HloOp tp sg Val)}
    {W : Valuation tp sg Val} {Γ : List (Fact sg Val)} {n : Nat} {r : DevRef tp sg} {res : r.ty.Contents Val}
    (vy : Ty.Contents Val) {vy' : y.ref.ty.Contents Val} (hΓ : Holds W Γ n) (hy : HEq vy vy') (hn : n ≤ y.ref.idx.val)
    (e : v = vy)
    (k : ∀ W' : Valuation tp sg Val, Holds W' (⟨y.ref, vy'⟩ :: Γ) (y.ref.idx.val + 1) → after rest W' r = res) :
    after (TRef.nullary y v :: rest) W r = res :=
  step_nullary vy' hΓ hn (by rw [e]; exact toBuf_of_heq hy) k

theorem step_Tunary {Tx Ty : BufTy} {x : TRef sg Tx} {y : TRef sg Ty} {g : Tx.Contents Val → Ty.Contents Val}
    {rest : List (HloOp tp sg Val)} {W : Valuation tp sg Val} {Γ : List (Fact sg Val)} {n : Nat} {r : DevRef tp sg}
    {res : r.ty.Contents Val} (vy : Ty.Contents Val) {vy' : y.ref.ty.Contents Val} {vx' : x.ref.ty.Contents Val}
    {vx : Tx.Contents Val} (hΓ : Holds W Γ n) (kx : (⟨x.ref, vx'⟩ : Fact sg Val) ∈ Γ) (hx : HEq vx' vx)
    (hy : HEq vy vy') (hn : n ≤ y.ref.idx.val) (e : g vx = vy)
    (k : ∀ W' : Valuation tp sg Val, Holds W' (⟨y.ref, vy'⟩ :: Γ) (y.ref.idx.val + 1) → after rest W' r = res) :
    after (TRef.unary x y g :: rest) W r = res :=
  step_unary vy' hΓ kx hn (by rw [ofBuf_of_heq hx, e]; exact toBuf_of_heq hy) k

theorem step_Tbinary {Ta Tb Ty : BufTy} {a : TRef sg Ta} {b : TRef sg Tb} {y : TRef sg Ty}
    {g : Ta.Contents Val → Tb.Contents Val → Ty.Contents Val}
    {rest : List (HloOp tp sg Val)} {W : Valuation tp sg Val} {Γ : List (Fact sg Val)} {n : Nat} {r : DevRef tp sg}
    {res : r.ty.Contents Val} (vy : Ty.Contents Val) {vy' : y.ref.ty.Contents Val} {va' : a.ref.ty.Contents Val}
    {va : Ta.Contents Val} {vb' : b.ref.ty.Contents Val} {vb : Tb.Contents Val} (hΓ : Holds W Γ n)
    (ka : (⟨a.ref, va'⟩ : Fact sg Val) ∈ Γ) (kb : (⟨b.ref, vb'⟩ : Fact sg Val) ∈ Γ) (ha : HEq va' va) (hb : HEq vb' vb)
    (hy : HEq vy vy') (hn : n ≤ y.ref.idx.val) (e : g va vb = vy)
    (k : ∀ W' : Valuation tp sg Val, Holds W' (⟨y.ref, vy'⟩ :: Γ) (y.ref.idx.val + 1) → after rest W' r = res) :
    after (TRef.binary a b y g :: rest) W r = res :=
  step_binary vy' hΓ ka kb hn (by rw [ofBuf_of_heq ha, ofBuf_of_heq hb, e]; exact toBuf_of_heq hy) k

theorem step_Tternary {Tc Ta Tb Ty : BufTy} {c : TRef sg Tc} {a : TRef sg Ta} {b : TRef sg Tb} {y : TRef sg Ty}
    {g : Tc.Contents Val → Ta.Contents Val → Tb.Contents Val → Ty.Contents Val}
    {rest : List (HloOp tp sg Val)} {W : Valuation tp sg Val} {Γ : List (Fact sg Val)} {n : Nat} {r : DevRef tp sg}
    {res : r.ty.Contents Val} (vy : Ty.Contents Val) {vy' : y.ref.ty.Contents Val} {vc' : c.ref.ty.Contents Val}
    {vc : Tc.Contents Val} {va' : a.ref.ty.Contents Val} {va : Ta.Contents Val} {vb' : b.ref.ty.Contents Val}
    {vb : Tb.Contents Val} (hΓ : Holds W Γ n) (kc : (⟨c.ref, vc'⟩ : Fact sg Val) ∈ Γ)
    (ka : (⟨a.ref, va'⟩ : Fact sg Val) ∈ Γ) (kb : (⟨b.ref, vb'⟩ : Fact sg Val) ∈ Γ) (hc : HEq vc' vc) (ha : HEq va' va)
    (hb : HEq vb' vb) (hy : HEq vy vy') (hn : n ≤ y.ref.idx.val) (e : g vc va vb = vy)
    (k : ∀ W' : Valuation tp sg Val, Holds W' (⟨y.ref, vy'⟩ :: Γ) (y.ref.idx.val + 1) → after rest W' r = res) :
    after (TRef.ternary c a b y g :: rest) W r = res :=
  step_ternary vy' hΓ kc ka kb hn
    (by rw [ofBuf_of_heq hc, ofBuf_of_heq ha, ofBuf_of_heq hb, e]; exact toBuf_of_heq hy) k

/-- At the end of the line a recorded buffer is read off the list. -/
theorem step_done {W : Valuation tp sg Val} {Γ : List (Fact sg Val)} {n : Nat} {y : Ref sg .tc} {vy : y.ty.Contents Val}
    (hΓ : Holds W Γ n) (ky : (⟨y, vy⟩ : Fact sg Val) ∈ Γ) :
    after ([] : List (HloOp tp sg Val)) W (Proc.devRef (τ := tp) .tc y) = vy :=
  hΓ.val _ ky

end Known

/-- Finds a fact in a literal list: the first entry at the reference asked for. -/
syntax "find_fact" : tactic
macro_rules
  | `(tactic| find_fact) => `(tactic| first | exact List.Mem.head _ | (refine List.Mem.tail _ ?_; find_fact))

/-! ### One line per operation

`s‹k›` / `t‹k›` run the head operation (a builder of `k` operands over plain, resp. typed, references; `sr` a reshape),
recording the stage function given for its result: the operands' facts are found in the list, the result's index is
compared with the bound, and the operation's function at the operands' stages is the result's stage by unfolding
that one definition. -/

set_option hygiene false in
macro "s0 " v:term:max : tactic =>
  `(tactic| (refine step_nullary $v hΓ (by decide) (by rfl) ?_; clear hΓ W; intro W hΓ))
set_option hygiene false in
macro "s1 " v:term:max : tactic =>
  `(tactic| (refine step_unary $v hΓ (by find_fact) (by decide) (by rfl) ?_; clear hΓ W; intro W hΓ))
set_option hygiene false in
macro "s2 " v:term:max : tactic =>
  `(tactic| (refine step_binary $v hΓ (by find_fact) (by find_fact) (by decide) (by rfl) ?_; clear hΓ W; intro W hΓ))
set_option hygiene false in
macro "s3 " v:term:max : tactic =>
  `(tactic| (refine step_ternary $v hΓ (by find_fact) (by find_fact) (by find_fact) (by decide) (by rfl) ?_; clear hΓ W; intro W hΓ))
set_option hygiene false in
macro "sr " v:term:max : tactic =>
  `(tactic| (refine step_reshape $v hΓ (by find_fact) (by decide) (by rfl) ?_; clear hΓ W; intro W hΓ))
set_option hygiene false in
macro "t0 " v:term:max : tactic =>
  `(tactic| (refine step_Tnullary $v hΓ HEq.rfl (by decide) (by rfl) ?_; clear hΓ W; intro W hΓ))
set_option hygiene false in
macro "t1 " v:term:max : tactic =>
  `(tactic| (refine step_Tunary $v hΓ (by find_fact) HEq.rfl HEq.rfl (by decide) (by rfl) ?_; clear hΓ W; intro W hΓ))
set_option hygiene false in
macro "t2 " v:term:max : tactic =>
  `(tactic| (refine step_Tbinary $v hΓ (by find_fact) (by find_fact) HEq.rfl HEq.rfl HEq.rfl (by decide) (by rfl) ?_; clear hΓ W; intro W hΓ))
set_option hygiene false in
macro "t3 " v:term:max : tactic =>
  `(tactic| (refine step_Tternary $v hΓ (by find_fact) (by find_fact) (by find_fact) HEq.rfl HEq.rfl HEq.rfl HEq.rfl
                (by decide) (by rfl) ?_; clear hΓ W; intro W hΓ))

/-! ## The fold, one operation at a time -/

variable {F : FTy → Type} [FloatOps F]

set_option maxRecDepth 8192 in
/-- The fold of the reference's 203 operations, at the result buffer: the last stage function of the two arguments. -/
theorem after_ops_v109 (W : Valuation τ sig (Elt F)) :
    after (ops (F := F)) W (Proc.devRef .tc main_v109)
      = val_main_v109 (F := F) (W (Proc.devRef .tc main_arg0)) (W (Proc.devRef .tc main_arg1)) := by
  generalize hx0 : W (Proc.devRef .tc main_arg0) = x0
  generalize hx1 : W (Proc.devRef .tc main_arg1) = x1
  have hΓ : Holds W [⟨main_arg0, x0⟩, ⟨main_arg1, x1⟩] 2 :=
    .cons hx0 (by decide) (.cons hx1 (by decide) (.nil W 2))
  clear hx0 hx1
  unfold ops
  -- %0 = call @log_softmax(%arg0): row maximum, shifted logits, log of the row sum of exponentials
  t0 val_main_call0_cst
  t2 (val_main_call0_v0 x0)
  t0 val_main_call0_cst_0
  t1 val_main_call0_v1
  t2 (val_main_call0_v2 x0)
  t1 (val_main_call0_v3 x0)
  t1 (val_main_call0_v4 x0)
  t2 (val_main_call0_v5 x0)
  t1 (val_main_call0_v6 x0)
  t0 val_main_call0_cst_1
  t2 (val_main_call0_v7 x0)
  t1 (val_main_call0_v8 x0)
  t1 (val_main_call0_v9 x0)
  t1 (val_main_call0_v10 x0)
  t2 (val_main_v0 x0)
  -- %2 = call @take_along_axis(%0, %1): the log-probability at the target (wrapped index, bounds mask, gather, fill)
  s1 (val_main_v1 x1)
  t0 val_main_call1_c
  t1 val_main_call1_v0
  t2 (val_main_call1_v1 x1)
  t0 val_main_call1_c_0
  t1 val_main_call1_v2
  t2 (val_main_call1_v3 x1)
  t3 (val_main_call1_v4 x1)
  sr (val_main_call1_v5 x1)
  t0 val_main_call1_c_1
  t0 val_main_call1_c_2
  t1 val_main_call1_v6
  t2 (val_main_call1_v7 x1)
  t1 val_main_call1_v8
  t1 val_main_call1_v9
  t2 (val_main_call1_v10 x1)
  t2 (val_main_call1_v11 x1)
  t0 val_main_call1_c_3
  t2 (val_main_call1_v12 x1)
  t2 (val_main_call1_v13 x0 x1)
  t0 val_main_call1_cst
  t1 val_main_call1_v14
  t3 (val_main_v2 x0 x1)
  sr (val_main_v3 x0 x1)
  -- the target's probability
  s1 (val_main_v4 x0 x1)
  -- the per-class counts (a scatter-add of ones)
  s0 val_main_cst
  s1 val_main_v5
  s0 val_main_cst_0
  s1 val_main_v6
  s1 (val_main_v7 x1)
  s3 (val_main_v8 x1)
  -- the class weights: log (largest count / count) + 1 on the non-empty classes, 0 on the empty ones
  s0 val_main_cst_1
  s2 (val_main_v9 x1)
  s0 val_main_cst_2
  s1 val_main_v10
  s2 (val_main_v11 x1)
  s0 val_main_cst_3
  s1 val_main_v12
  s2 (val_main_v13 x1)
  s0 val_main_cst_4
  t1 val_main_call2_v0
  t1 val_main_call2_v1
  t3 (val_main_v14 x1)
  s1 (val_main_v15 x1)
  s2 (val_main_v16 x1)
  s1 (val_main_v17 x1)
  s0 val_main_cst_5
  s1 val_main_v18
  s2 (val_main_v19 x1)
  s0 val_main_cst_6
  t1 val_main_call3_v0
  t1 val_main_call3_v1
  t3 (val_main_v20 x1)
  -- the per-sample loss -log (pt + ε), its per-class sum and sum of squares
  s0 val_main_cst_7
  s1 val_main_v21
  s2 (val_main_v22 x0 x1)
  s1 (val_main_v23 x0 x1)
  s1 (val_main_v24 x0 x1)
  s0 val_main_cst_8
  s1 val_main_v25
  s1 (val_main_v26 x1)
  s3 (val_main_v27 x0 x1)
  s2 (val_main_v28 x0 x1)
  s0 val_main_cst_9
  s1 val_main_v29
  s1 (val_main_v30 x1)
  s3 (val_main_v31 x0 x1)
  -- the per-class mean loss
  s0 val_main_cst_10
  s1 val_main_v32
  s2 (val_main_v33 x1)
  s0 val_main_cst_11
  s1 val_main_v34
  s2 (val_main_v35 x1)
  s2 (val_main_v36 x0 x1)
  s0 val_main_cst_12
  t1 val_main_call4_v0
  t1 val_main_call4_v1
  t3 (val_main_v37 x0 x1)
  -- the per-class (unbiased) deviation of the loss
  s2 (val_main_v38 x0 x1)
  s2 (val_main_v39 x0 x1)
  s2 (val_main_v40 x0 x1)
  s0 val_main_cst_13
  s1 val_main_v41
  s2 (val_main_v42 x1)
  s0 val_main_cst_14
  s1 val_main_v43
  s2 (val_main_v44 x1)
  s2 (val_main_v45 x0 x1)
  s0 val_main_cst_15
  s1 val_main_v46
  s2 (val_main_v47 x1)
  s0 val_main_cst_16
  t1 val_main_call5_v0
  t1 val_main_call5_v1
  t3 (val_main_v48 x0 x1)
  s0 val_main_cst_17
  s1 val_main_v49
  s2 (val_main_v50 x1)
  s0 val_main_cst_18
  s1 val_main_v51
  s2 (val_main_v52 x0 x1)
  s1 (val_main_v53 x0 x1)
  s0 val_main_cst_19
  t1 val_main_call6_v0
  t1 val_main_call6_v1
  t3 (val_main_v54 x0 x1)
  -- the per-class mean loss times the class weight
  s2 (val_main_v55 x0 x1)
  -- the target probability's per-class sum and sum of squares
  s0 val_main_cst_20
  s1 val_main_v56
  s1 (val_main_v57 x1)
  s3 (val_main_v58 x0 x1)
  s2 (val_main_v59 x0 x1)
  s0 val_main_cst_21
  s1 val_main_v60
  s1 (val_main_v61 x1)
  s3 (val_main_v62 x0 x1)
  -- the target probability's per-class mean
  s0 val_main_cst_22
  s1 val_main_v63
  s2 (val_main_v64 x1)
  s0 val_main_cst_23
  s1 val_main_v65
  s2 (val_main_v66 x1)
  s2 (val_main_v67 x0 x1)
  s0 val_main_cst_24
  t1 val_main_call7_v0
  t1 val_main_call7_v1
  t3 (val_main_v68 x0 x1)
  -- and its per-class (unbiased) deviation
  s2 (val_main_v69 x0 x1)
  s2 (val_main_v70 x0 x1)
  s2 (val_main_v71 x0 x1)
  s0 val_main_cst_25
  s1 val_main_v72
  s2 (val_main_v73 x1)
  s0 val_main_cst_26
  s1 val_main_v74
  s2 (val_main_v75 x1)
  s2 (val_main_v76 x0 x1)
  s0 val_main_cst_27
  s1 val_main_v77
  s2 (val_main_v78 x1)
  s0 val_main_cst_28
  t1 val_main_call8_v0
  t1 val_main_call8_v1
  t3 (val_main_v79 x0 x1)
  s0 val_main_cst_29
  s1 val_main_v80
  s2 (val_main_v81 x1)
  s0 val_main_cst_30
  s1 val_main_v82
  s2 (val_main_v83 x0 x1)
  s1 (val_main_v84 x0 x1)
  s0 val_main_cst_31
  t1 val_main_call9_v0
  t1 val_main_call9_v1
  t3 (val_main_v85 x0 x1)
  -- the softmax of the class weights
  s0 val_main_cst_32
  s2 (val_main_v86 x1)
  s0 val_main_cst_33
  s2 (val_main_v87 x1)
  s1 (val_main_v88 x1)
  s1 (val_main_v89 x1)
  s2 (val_main_v90 x1)
  s1 (val_main_v91 x1)
  s0 val_main_cst_34
  s2 (val_main_v92 x1)
  s1 (val_main_v93 x1)
  s1 (val_main_v94 x1)
  s2 (val_main_v95 x1)
  -- deviation over mean times the softmax weight, per class, gathered back at each sample's target (wrapped index)
  s2 (val_main_v96 x0 x1)
  s2 (val_main_v97 x0 x1)
  s0 val_main_c
  s1 val_main_v98
  s2 (val_main_v99 x1)
  s0 val_main_c_35
  s1 val_main_v100
  s2 (val_main_v101 x1)
  s3 (val_main_v102 x1)
  s1 (val_main_v103 x1)
  s2 (val_main_v104 x0 x1)
  -- the two means and their sum
  s0 val_main_cst_36
  s2 (val_main_v105 x0 x1)
  s0 val_main_cst_37
  s2 (val_main_v106 x0 x1)
  s0 val_main_cst_38
  s2 (val_main_v107 x0 x1)
  s0 val_main_cst_39
  s2 (val_main_v108 x0 x1)
  s2 (val_main_v109 x0 x1)
  exact step_done hΓ (by find_fact)

/-! ## The run -/

set_option maxRecDepth 8192 in
set_option maxHeartbeats 4000000 in
/-- On every device, for any float values, from any memory with zero counters: every weakly fair execution of @main
    terminates with the result buffer at the last stage function of the two arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = Cert.ReferenceIdeal.ReadP.val_main_v109 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v109).trans (after_ops_v109 (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunH

end
-- ==== Proof.Bridge.lean ====
/-
  The one place where the two programs differ after the four per-class vectors: one weights the per-class value
  L by the class counts and sums over the hundred classes, the other reads L at each row's target and sums over the
  rows. With the count of class c the number of rows whose target is c these are one sum: group the rows by target.
-/
import proofs.«414543_j23175643529520_3_alg».proof.Proof.AwbTail
import proofs.«414543_j23175643529520_3_alg».proof.Proof.AwbSums

noncomputable section

namespace Cert.Awb.Bridge

open Cert.Awb Cert.Awb.Sums Idealize.ShloMosaic Idealize.ShloMosaic.ValueIdx
open scoped BigOperators

/-- The count vector at class c is the number of rows whose target is c, as a sum of ones. -/
theorem count_apply (x : FVec Ideal SX .f32) (τ : Fin 1048576 → Fin 100) (c : Fin 100) :
    leaf x τ 0 (ix1 c) = ∑ i : Fin 1048576, if τ i = c then (1 : EReal) else 0 := by
  show classSum τ (fun i => vCol 0 (rowOf x i) (τ i)) c = _
  unfold classSum
  refine Finset.sum_congr rfl fun i _ => ?_
  show (if τ i = c then oneW else 0) = _
  rw [oneW_eq]

/-- Summing the per-class value weighted by the counts is summing it at the rows' targets, so the two programs'
    closing formulas agree on the same four vectors. -/
theorem out_eq (x : FVec Ideal SX .f32) (τ : Fin 1048576 → Fin 100) (snl sp sp2 : FVec Ideal S100 .f32) :
    kernelOut (leaf x τ 0) snl sp sp2
      = refOut (leaf x τ 0) snl (fun j => l2cOf (leaf x τ 0) sp sp2 (ix1 (τ (j 0)))) := by
  funext j
  obtain rfl : j = ix0 := eq_ix0 j
  rw [kernelOut_ideal, refOut_ideal]
  have e : (∑ c : Fin 100, l2cOf (leaf x τ 0) sp sp2 (ix1 c) * leaf x τ 0 (ix1 c))
      = ∑ i : Fin 1048576, l2cOf (leaf x τ 0) sp sp2 (ix1 (τ i)) := by
    rw [sum_by_class (fun c => l2cOf (leaf x τ 0) sp sp2 (ix1 c)) τ]
    refine Finset.sum_congr rfl fun c _ => ?_
    rw [count_apply]
  rw [e]

end Cert.Awb.Bridge

end
-- ==== Proof.PreDecode.lean ====
/-
  The printed precondition decoded: every target word is a class index.

  The precondition is the conjunction of three all-reductions: every logit is below infinity in absolute value,
  every target word is at least zero as a signed word, and every target word is below one hundred as a signed word.
  From the last two, each target word t i has 0 ≤ t i < 100 as an integer, so it is the 32-bit writing of a natural
  number below one hundred; that number is the class tau i.
-/
import proofs.«414543_j23175643529520_3_alg».proof.Pre_finite_inputs
import proofs.«414543_j23175643529520_3_alg».proof.Proof.AwbSpec
import Idealize.ShloMosaic.Lib.ReduceAll
import Idealize.ShloMosaic.Lib.StableHlo.Predicate
import Idealize.ShloMosaic.Lib.ValueIdx

noncomputable section

namespace Cert.Awb.PreDecode

open Idealize.ShloMosaic Idealize.ShloMosaic.ValueIdx

/-- The scalar shape has one index. -/
instance : Subsingleton Cert.Pre_finite_inputs.S_.Idx := ⟨fun a b => funext fun d => d.elim0⟩

/-- A 32-bit word that is at least zero and below one hundred as a signed integer is the 32-bit writing of its
    own value, and that value is below one hundred. -/
theorem word_of_range (w : BitVec 32) (h0 : (0#32).toInt ≤ w.toInt) (h1 : w.toInt < (100#32).toInt) :
    w.toInt.toNat < 100 ∧ w = BitVec.ofNat 32 w.toInt.toNat := by
  have e0 : (0#32).toInt = 0 := by decide
  have e1 : (100#32).toInt = 100 := by decide
  rw [e0] at h0
  rw [e1] at h1
  have hlt : w.toNat < 2 ^ 31 := by
    by_contra hc
    have : w.toInt < 0 := by
      rw [BitVec.toInt_eq_toNat_cond]
      have := w.isLt
      split <;> omega
    omega
  have hnat : w.toInt = w.toNat := StableHlo.Predicate.toInt_eq_toNat_of_lt hlt
  refine ⟨by omega, ?_⟩
  rw [hnat, Int.toNat_natCast, BitVec.ofNat_toNat, BitVec.setWidth_eq]

/-- Under the printed precondition every target word is a class index written in 32 bits. -/
theorem decodes_of_pre [Cert.Pre_finite_inputs.Facts] (x : FVec Ideal Cert.Pre_finite_inputs.S1048576x100 .f32)
    (t : IVec Cert.Pre_finite_inputs.S1048576 32)
    (h : Cert.Pre_finite_inputs.fn (F := Ideal) x t = fun _ => 1#1) :
    ∃ τ : Fin 1048576 → Fin 100, Cert.Awb.Decodes t τ := by
  have h0 := congrFun h ValueIdx.ix0
  dsimp only [Cert.Pre_finite_inputs.fn, andi] at h0
  obtain ⟨h12, h3⟩ := IntOp.andi_eq_one.1 h0
  obtain ⟨_, h2⟩ := IntOp.andi_eq_one.1 h12
  have ge : ∀ i : Fin 1048576, (0#32).toInt ≤ (t (ix1 i)).toInt := fun i => by
    have e := Host.reduce_andi_all _ _ _ _ _ h2 (ix1 i)
    dsimp only [cmpi] at e
    rw [StableHlo.Predicate.bcast_scalar _ Cert.Pre_finite_inputs.Facts.h_S_] at e
    exact IntOp.cmpi_sge.1 e
  have lt : ∀ i : Fin 1048576, (t (ix1 i)).toInt < (100#32).toInt := fun i => by
    have e := Host.reduce_andi_all _ _ _ _ _ h3 (ix1 i)
    dsimp only [cmpi] at e
    rw [StableHlo.Predicate.bcast_scalar _ Cert.Pre_finite_inputs.Facts.h_S_] at e
    exact IntOp.cmpi_slt.1 e
  refine ⟨fun i => ⟨(t (ix1 i)).toInt.toNat, (word_of_range _ (ge i) (lt i)).1⟩, fun i => ?_⟩
  exact (word_of_range _ (ge i) (lt i)).2

end Cert.Awb.PreDecode

end
-- ==== Proof.lean ====
/-
  A class-balanced loss over 1,048,576 rows of 100 logits with integer targets: per row the target's softmax probability
  p and the loss term -log (p + eps); per class the count and the sums of the loss terms, of p and of p squared; from
  those four length-100 vectors a weight log (c_max / count) + 1, the weighted mean loss, and (std / mean of p per class)
  times the softmax of the weights, averaged over the rows' targets.

  The kernel streams the rows through a 2 x 64 grid of 8192-row tiles, forming all four per-class sums of a tile as one
  product of the [8192, 4] matrix (1, -log (p + eps), p, p^2) with the [8192, 100] one-hot of the targets, accumulated
  per core, and replaces the per-row gather at the end by weighting with the class counts. The reference takes a
  log-softmax, gathers the target column, and forms the four sums by scatter-adds.

  Over the extended reals both are the same function of the arguments whenever every target is a class index
  (0 <= target < 100, the precondition's added conjunct): a row maximum, a row sum and a sum with one nonzero term
  are read the same way on both sides; a product with an exact 0/1 column sums exactly the selected rows; sums over
  tiles and cores re-index the sum over all rows; and a per-class value summed over the rows' targets is that value
  weighted by the class counts. No finiteness of the logits is used.

  The three programs run and keep their arguments: the two kernel programs by the grid's run with the body's two cases
  (a core's first point resets the accumulator, every later point adds to it) followed by the later host lines, the
  reference by its operation list.
-/
import proofs.«414543_j23175643529520_3_alg».proof.Defs
import proofs.«414543_j23175643529520_3_alg».proof.Proof.Gen.Kernel
import proofs.«414543_j23175643529520_3_alg».proof.Proof.Gen.KernelIdeal
import proofs.«414543_j23175643529520_3_alg».proof.Proof.Gen.ReferenceIdeal
import proofs.«414543_j23175643529520_3_alg».proof.Proof.Gen.Pre_finite_inputs
import proofs.«414543_j23175643529520_3_alg».proof.Proof.BFrame
import proofs.«414543_j23175643529520_3_alg».proof.Proof.KValue
import proofs.«414543_j23175643529520_3_alg».proof.Proof.RValue
import proofs.«414543_j23175643529520_3_alg».proof.Proof.RefRunH
import proofs.«414543_j23175643529520_3_alg».proof.Proof.Bridge
import proofs.«414543_j23175643529520_3_alg».proof.Proof.PreDecode
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame (F := Bits) m ρ

/-- So does the kernel program read over the extended reals. -/
theorem frame_ki : Cert.frame_KernelIdeal := fun m ρ _ => Cert.KernelIdeal.Hand.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- Both programs end at the closing formula of the same four per-class vectors: the kernel weighting the per-class
    value by the counts, the reference reading it at the rows' targets, which is one sum. -/
theorem algebraic : Cert.algebraic_KernelIdeal_ReferenceIdeal := by
  intro m ρ m' ρ' hpre hagree
  have hdec : ∀ c : Dev Cert.KernelIdeal.nD, ∃ τ' : Fin 1048576 → Fin 100,
      Cert.Awb.Decodes (m ((c.tc : Thread Cert.KernelIdeal.nD Cert.KernelIdeal.τ).loc Cert.KernelIdeal.main_arg1)) τ' :=
    fun c => Cert.Awb.PreDecode.decodes_of_pre _ _ (hpre c)
  choose τ' hτ using hdec
  refine ⟨_, Cert.KernelIdeal.Out.run m ρ τ' hτ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2, Cert.ReferenceIdeal.Out.value_eq _ _ (τ' c) (hτ c)]
  exact (Cert.Awb.Bridge.out_eq _ (τ' c) _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
